-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192 : S_.BroadcastsInDim S8192 (![] : Fin 0 → Fin S8192.rank)
  reducesTo_S8192_S_d0 : S8192.ReducesTo [0] S_
  reducesTo_S8192x256_S8192_d1 : S8192x256.ReducesTo [1] S8192

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_c_0 : IVec S_ 32 := constantI S_ 32 6#32
  let main_v4 : IVec S8192 32 := broadcastInDim S8192 ![] bcast_S_S8192 main_c_0
  let main_v5 : IVec S8192 1 := cmpi .slt main_arg1 main_v4
  let main_c_1 : IVec S_ 1 := constantI S_ 1 1#1
  let main_v6 : IVec S_ 1 := (fun x v => Host.reduce IntOp.andi x v reducesTo_S8192_S_d0 h_S_) main_v5 main_c_1
  let main_v7 : IVec S_ 1 := andi main_v3 main_v6
  let main_v8 : FVec F S8192x256 .f32 := mulf main_arg0 main_arg0
  let main_cst_2 : FVec F S_ .f32 := constant S_ .f32 0x00000000#32
  let main_v9 : FVec F S8192 .f32 := (fun x v => Host.reduceAdd x v reducesTo_S8192x256_S8192_d1 h_S_) main_v8 main_cst_2
  let main_cst_3 : FVec F S_ .f32 := constant S_ .f32 0x00000000#32
  let main_v10 : FVec F S8192 .f32 := broadcastInDim S8192 ![] bcast_S_S8192 main_cst_3
  let main_v11 : IVec S8192 1 := cmpf .ogt main_v9 main_v10
  let main_c_4 : IVec S_ 1 := constantI S_ 1 1#1
  let main_v12 : IVec S_ 1 := (fun x v => Host.reduce IntOp.andi x v reducesTo_S8192_S_d0 h_S_) main_v11 main_c_4
  let main_v13 : IVec S_ 1 := andi main_v7 main_v12
  main_v13
-- ==== Kernel.lean ====
abbrev S8192x256 : Shape := ⟨2, ![8192, 256]⟩
abbrev S8192 : Shape := ⟨1, ![8192]⟩
abbrev S6 : Shape := ⟨1, ![6]⟩
abbrev S_ : Shape := ⟨0, ![]⟩
abbrev S8192x1 : Shape := ⟨2, ![8192, 1]⟩
abbrev S1x8192 : Shape := ⟨2, ![1, 8192]⟩
abbrev S2048x256 : Shape := ⟨2, ![2048, 256]⟩
abbrev S1024x256 : Shape := ⟨2, ![1024, 256]⟩
abbrev S2048x1 : Shape := ⟨2, ![2048, 1]⟩
abbrev S1x1024 : Shape := ⟨2, ![1, 1024]⟩
abbrev S2048x1024 : Shape := ⟨2, ![2048, 1024]⟩
abbrev S2048 : Shape := ⟨1, ![2048]⟩

abbrev nBuf : Space → Nat
  | .hbm => 46
  | .vmem => 14
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S6, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192, .i32⟩
  | .hbm, ⟨23, _⟩ => ⟨S_, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192x256, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x1, .f32⟩
  | .hbm, ⟨32, _⟩ => ⟨S8192x256, .f32⟩
  | .hbm, ⟨33, _⟩ => ⟨S8192x256, .f32⟩
  | .hbm, ⟨34, _⟩ => ⟨S8192x256, .bf16⟩
  | .hbm, ⟨35, _⟩ => ⟨S8192x1, .i32⟩
  | .hbm, ⟨36, _⟩ => ⟨S1x8192, .i32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S2048x1, .i32⟩
  | .local _ .vmem, ⟨5, _⟩ => ⟨S2048x1, .i32⟩
  | .local _ .vmem, ⟨6, _⟩ => ⟨S1x1024, .i32⟩
  | .local _ .vmem, ⟨7, _⟩ => ⟨S1x1024, .i32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_c_2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_c_3 : Ref sig .tc := ⟨.hbm, 14, rfl⟩
abbrev main_v3 : Ref sig .tc := ⟨.hbm, 15, rfl⟩
abbrev main_v4 : Ref sig .tc := ⟨.hbm, 16, rfl⟩
abbrev main_c_4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_5 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_call2_v0 : Ref sig .tc := ⟨.hbm, 27, rfl⟩
abbrev main_call2_cst : Ref sig .tc := ⟨.hbm, 28, rfl⟩
abbrev main_call2_v1 : Ref sig .tc := ⟨.hbm, 29, rfl⟩
abbrev main_call2_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_cst : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_cst_7 : Ref sig .tc := ⟨.hbm, 43, rfl⟩
abbrev main_v20 : Ref sig .tc := ⟨.hbm, 44, rfl⟩
abbrev main_v21 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_cond4 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_12 : BitVec 32 := 0#32
  let v29 : BitVec 1 := Scalar.cmpi .ne v28 c0_i32_12
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S8192_d1 : S8192x256.ReducesTo [1] S8192
  h_S_ : 0 < S_.numel
  bcast_S8192x1_S8192x256_0_1 : S8192x1.BroadcastsInDim S8192x256 (![0, 1] : Fin 2 → Fin S8192x256.rank)
  bitsLt_bf16_f32 : FTy.bits .bf16 < FTy.bits .f32
  shapeCasts_S8192_S8192x1 : S8192.ShapeCasts S8192x1
  shapeCasts_S8192_S1x8192 : S8192.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  iota_S2048x1024_d0_w32 : S2048x1024.Iotas .tc 32 [0]
  iota_S2048x1024_d1_w32 : S2048x1024.Iotas .tc 32 [1]
  reduces_S2048x1024_S2048 : S2048x1024.Reduces [1] S2048
  shapeCasts_S2048_S2048x1 : S2048.ShapeCasts S2048x1
  natLt_1_32 : 1 < 32
  reducesTo_S8192x1_S_d0_1 : S8192x1.ReducesTo [0, 1] S_
  gather_S6_S8192x1_S8192_n_0_n_n_0_1_1_wf : GatherDims.WF S6 S8192x1 S8192 [] [0] [] [0] [] 1 ![1]
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .i32 = 32 ∨ (Rect.block (s := S8192x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S8192x1.size a
  hwx0_5 : ∀ i : grid0.Coords, EltTy.bits .f32 = 32 ∨ (Rect.block (s := S8192x1) S2048x1.size (cc0_transform_5 i) (hinb0_5 i)).WholeWords (EltTy.packing .f32)

variable [Facts₀]

def gather_S6_S8192x1_S8192_n_0_n_n_0_1_1 : GatherDims S6 S8192x1 S8192 where
  offsetDims := []
  collapsedSliceDims := [0]
  operandBatchingDims := []
  startIndicesBatchingDims := []
  startIndexMap := [0]
  indexVectorDim := 1
  sliceSizes := ![1]
  wf := gather_S6_S8192x1_S8192_n_0_n_n_0_1_1_wf
def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v14) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_0) S2048x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_1) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond4 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S6 : Shape := ⟨1, ![6]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩

abbrev nBuf : Space → Nat
  | .hbm => 105
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S6, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S_, .i32⟩
  | .hbm, ⟨18, _⟩ => ⟨S8192, .i32⟩
  | .hbm, ⟨19, _⟩ => ⟨S8192, .i32⟩
  | .hbm, ⟨20, _⟩ => ⟨S8192, .i32⟩
  | .hbm, ⟨21, _⟩ => ⟨S8192x1, .i32⟩
  | .hbm, ⟨22, _⟩ => ⟨S8192, .i32⟩
  | .hbm, ⟨23, _⟩ => ⟨S_, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S8192x256, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x1, .f32⟩
  | .hbm, ⟨32, _⟩ => ⟨S8192x256, .f32⟩
  | .hbm, ⟨33, _⟩ => ⟨S8192x256, .f32⟩
  | .hbm, ⟨34, _⟩ => ⟨S256x8192, .f32⟩
  | .hbm, ⟨35, _⟩ => ⟨S8192x8192, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .i32⟩
  | .hbm, ⟨40, _⟩ => ⟨S8192, .i32⟩
  | .hbm, ⟨41, _⟩ => ⟨S8192, .i1⟩
  | .hbm, ⟨42, _⟩ => ⟨S8192x1, .i32⟩
  | .hbm, ⟨43, _⟩ => ⟨S1x8192, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S8192x1, .i1⟩
  | .hbm, ⟨48, _⟩ => ⟨S8192x8192, .i1⟩
  | .hbm, ⟨49, _⟩ => ⟨S8192x8192, .i1⟩
  | .hbm, ⟨50, _⟩ => ⟨S8192x8192, .i32⟩
  | .hbm, ⟨51, _⟩ => ⟨S8192x8192, .i32⟩
  | .hbm, ⟨52, _⟩ => ⟨S_, .i32⟩
  | .hbm, ⟨53, _⟩ => ⟨S8192x8192, .i32⟩
  | .hbm, ⟨54, _⟩ => ⟨S8192x8192, .i32⟩
  | .hbm, ⟨55, _⟩ => ⟨S8192x8192, .i1⟩
  | .hbm, ⟨56, _⟩ => ⟨S8192x8192, .i1⟩
  | .hbm, ⟨57, _⟩ => ⟨S8192x8192, .i1⟩
  | .hbm, ⟨58, _⟩ => ⟨S8192x1, .i32⟩
  | .hbm, ⟨59, _⟩ => ⟨S1x8192, .i32⟩
  | .hbm, ⟨60, _⟩ => ⟨S8192x8192, .i32⟩
  | .hbm, ⟨61, _⟩ => ⟨S8192x8192, .i32⟩
  | .hbm, ⟨62, _⟩ => ⟨S8192x8192, .i1⟩
  | .hbm, ⟨63, _⟩ => ⟨S1x8192, .i1⟩
  | .hbm, ⟨64, _⟩ => ⟨S8192x8192, .i1⟩
  | .hbm, ⟨65, _⟩ => ⟨S8192x8192, .i1⟩
  | .hbm, ⟨66, _⟩ => ⟨S8192x1, .i1⟩
  | .hbm, ⟨67, _⟩ => ⟨S8192x8192, .i1⟩
  | .hbm, ⟨68, _⟩ => ⟨S8192x8192, .i1⟩
  | .hbm, ⟨69, _⟩ => ⟨S_, .f32⟩
  | .hbm, ⟨70, _⟩ => ⟨S_, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192, .f32⟩
  | .hbm, ⟨75, _⟩ => ⟨S_, .f32⟩
  | .hbm, ⟨76, _⟩ => ⟨S_, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192, .f32⟩
  | .hbm, ⟨81, _⟩ => ⟨S_, .i1⟩
  | .hbm, ⟨82, _⟩ => ⟨S8192, .i1⟩
  | .hbm, ⟨83, _⟩ => ⟨S8192, .i1⟩
  | .hbm, ⟨84, _⟩ => ⟨S_, .i1⟩
  | .hbm, ⟨85, _⟩ => ⟨S8192, .i1⟩
  | .hbm, ⟨86, _⟩ => ⟨S8192, .i1⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S8192, .i32⟩
  | .hbm, ⟨97, _⟩ => ⟨S_, .i32⟩
  | .hbm, ⟨98, _⟩ => ⟨S_, .i32⟩
  | .hbm, ⟨99, _⟩ => ⟨S_, .f32⟩
  | .hbm, ⟨100, _⟩ => ⟨S_, .f32⟩
  | .hbm, ⟨101, _⟩ => ⟨S_, .i32⟩
  | .hbm, ⟨102, _⟩ => ⟨S_, .i32⟩
  | .hbm, ⟨103, _⟩ => ⟨S_, .f32⟩
  | .hbm, ⟨104, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_c_2 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_c_3 : Ref sig .tc := ⟨.hbm, 14, rfl⟩
abbrev main_v3 : Ref sig .tc := ⟨.hbm, 15, rfl⟩
abbrev main_v4 : Ref sig .tc := ⟨.hbm, 16, rfl⟩
abbrev main_c_4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_5 : Ref sig .tc := ⟨.hbm, 23, rfl⟩
abbrev main_call1_v0 : Ref sig .tc := ⟨.hbm, 24, rfl⟩
abbrev main_call1_v1 : Ref sig .tc := ⟨.hbm, 25, rfl⟩
abbrev main_v10 : Ref sig .tc := ⟨.hbm, 26, rfl⟩
abbrev main_call2_v0 : Ref sig .tc := ⟨.hbm, 27, rfl⟩
abbrev main_call2_cst : Ref sig .tc := ⟨.hbm, 28, rfl⟩
abbrev main_call2_v1 : Ref sig .tc := ⟨.hbm, 29, rfl⟩
abbrev main_call2_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_call3_v0 : Ref sig .tc := ⟨.hbm, 70, rfl⟩
abbrev main_call3_v1 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_cst_10 : Ref sig .tc := ⟨.hbm, 75, rfl⟩
abbrev main_call4_v0 : Ref sig .tc := ⟨.hbm, 76, rfl⟩
abbrev main_call4_v1 : Ref sig .tc := ⟨.hbm, 77, rfl⟩
abbrev main_v48 : Ref sig .tc := ⟨.hbm, 78, rfl⟩
abbrev main_cst_11 : Ref sig .tc := ⟨.hbm, 79, rfl⟩
abbrev main_v49 : Ref sig .tc := ⟨.hbm, 80, rfl⟩
abbrev main_c_12 : Ref sig .tc := ⟨.hbm, 81, rfl⟩
abbrev main_v50 : Ref sig .tc := ⟨.hbm, 82, rfl⟩
abbrev main_v51 : Ref sig .tc := ⟨.hbm, 83, rfl⟩
abbrev main_c_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_14 : Ref sig .tc := ⟨.hbm, 88, rfl⟩
abbrev main_v55 : Ref sig .tc := ⟨.hbm, 89, rfl⟩
abbrev main_v56 : Ref sig .tc := ⟨.hbm, 90, rfl⟩
abbrev main_call5_cst : Ref sig .tc := ⟨.hbm, 91, rfl⟩
abbrev main_call5_v0 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_c_15 : Ref sig .tc := ⟨.hbm, 97, rfl⟩
abbrev main_v61 : Ref sig .tc := ⟨.hbm, 98, rfl⟩
abbrev main_cst_16 : Ref sig .tc := ⟨.hbm, 99, rfl⟩
abbrev main_v62 : Ref sig .tc := ⟨.hbm, 100, rfl⟩
abbrev main_c_17 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x256_S8192_d1 : S8192x256.ReducesTo [1] S8192
  h_S_ : 0 < S_.numel
  bcast_S8192x1_S8192x256_0_1 : S8192x1.BroadcastsInDim S8192x256 (![0, 1] : Fin 2 → Fin S8192x256.rank)
  transposes_S8192x256_S256x8192_1_0 : S8192x256.Transposes [1, 0] S256x8192
  bcast_S_S8192x8192 : S_.BroadcastsInDim S8192x8192 (![] : Fin 0 → Fin S8192x8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  natLt_1_32 : 1 < 32
  reducesTo_S8192_S_d0 : S8192.ReducesTo [0] S_
  gather_S6_S8192x1_S8192_n_0_n_n_0_1_1_wf : GatherDims.WF S6 S8192x1 S8192 [] [0] [] [0] [] 1 ![1]
  dot_S8192x256_S256x8192_S8192x8192_1_0_0_1_n_n_wf : DotDims.WF S8192x256 S256x8192 S8192x8192 [1] [0] [0] [1] [] []

variable [Facts₀]

def gather_S6_S8192x1_S8192_n_0_n_n_0_1_1 : GatherDims S6 S8192x1 S8192 where
  offsetDims := []
  collapsedSliceDims := [0]
  operandBatchingDims := []
  startIndicesBatchingDims := []
  startIndexMap := [0]
  indexVectorDim := 1
  sliceSizes := ![1]
  wf := gather_S6_S8192x1_S8192_n_0_n_n_0_1_1_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KB.Data.lean ====
/-
  What the kernel's region is entered with and what it holds from point to point.

  The grid is 4 × 8: point `t` is row tile `t / 8` (2048 rows) against column tile `t % 8` (1024 rows). At each
  point the body holds in two scratch columns, per row of the row tile, the least similarity met so far to a
  same-family row and the greatest met so far to an other-family row: both are reset at the first column tile
  (`t % 8 = 0`, to the sentinels `3` and `-3`), updated from the tile's similarities — with the diagonal left out
  of "same family" on the two tiles `t % 8 ∈ {2 (t / 8), 2 (t / 8) + 1}` that can meet it — and at the last column
  tile (`t % 8 = 7`) turned into the row's loss term and its count, the two outputs.
  `scAt` is that pair of columns after each point, as a recursion on the point over the body's named payloads.
-/
import proofs.«417721_j28690381537966_3_alg».proof.Proof.Gen.Kernel.Launch
import proofs.«417721_j28690381537966_3_alg».proof.Proof.Gen.Kernel.Skeleton
import proofs.«417721_j28690381537966_3_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the host operations before it. -/
abbrev V0 (c : Dev nD) : Valuation τ sig (Elt F) :=
  StableHlo.after (List.flatten [hostOps0, hostOps0_1, hostOps0_2, hostOps0_3, hostOps0_4, hostOps0_5]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is its host operations, the region, and the host operations after it: it reduces to the region continued
    by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5] [hostOps1]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩)
    main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types: the row tile of the unit rows, the column tile of the
    unit rows, the row tile's family codes (a column), the column tile's family codes (a row). -/
abbrev rowsBlk (c : Dev nD) (t : Fin cfg0.N) : Vec F S2048x256 .bf16 := iblk m c 0 t
abbrev colsBlk (c : Dev nD) (t : Fin cfg0.N) : Vec F S1024x256 .bf16 := iblk m c 1 t
abbrev famColBlk (c : Dev nD) (t : Fin cfg0.N) : Vec F S2048x1 .i32 := iblk m c 2 t
abbrev famRowBlk (c : Dev nD) (t : Fin cfg0.N) : Vec F S1x1024 .i32 := iblk m c 3 t

/-! ## The two scratch columns after each point -/

/-- One point's update of the two scratch columns `s` (the least same-family similarity, the greatest other-family
    similarity, so far): on a tile that can meet the diagonal the update that leaves the diagonal out, else the plain one. -/
def stepS (diag : Bool) (i : grid0.Coords) (x0 : Vec F S2048x256 .bf16) (x1 : Vec F S1024x256 .bf16) (x2 : Vec F S2048x1 .i32)
    (x3 : Vec F S1x1024 .i32) (s : Vec F S2048x1 .f32 × Vec F S2048x1 .f32) : Vec F S2048x1 .f32 × Vec F S2048x1 .f32 :=
  match diag with
  | true => (k0_pay5 i x0 x1 x2 x3 s.1, k0_pay6 x0 x1 x2 x3 s.2)
  | false => (k0_pay7 x0 x1 x2 x3 s.1, k0_pay8 x0 x1 x2 x3 s.2)

/-- Whether point `n`'s tile can meet the diagonal: column tile `n % 8` against row tile `n / 8`. -/
def onDiag (n : ℕ) : Bool := decide ((n % 8) / 2 = n / 8)

/-- The two scratch columns after the body at position `n`: reset to the sentinels at the first column tile, then updated. -/
def scAt (c : Dev nD) : (n : ℕ) → n < cfg0.N → Vec F S2048x1 .f32 × Vec F S2048x1 .f32
  | 0, hn => stepS (onDiag 0) (grid0.coords ⟨0, hn⟩) (rowsBlk m c ⟨0, hn⟩) (colsBlk m c ⟨0, hn⟩) (famColBlk m c ⟨0, hn⟩) (famRowBlk m c ⟨0, hn⟩)
      (k0_pay1 (F := F), k0_pay2 (F := F))
  | n + 1, hn => stepS (onDiag (n + 1)) (grid0.coords ⟨n + 1, hn⟩) (rowsBlk m c ⟨n + 1, hn⟩) (colsBlk m c ⟨n + 1, hn⟩) (famColBlk m c ⟨n + 1, hn⟩) (famRowBlk m c ⟨n + 1, hn⟩)
      (if (n + 1) % 8 = 0 then (k0_pay1 (F := F), k0_pay2 (F := F)) else scAt c n (Nat.lt_of_succ_lt hn))

/-- What the scratch columns hold when the body's updates at point `t` start: the sentinels at a first column tile,
    else what the point before left. -/
def scIn (c : Dev nD) (t : Fin cfg0.N) : Vec F S2048x1 .f32 × Vec F S2048x1 .f32 :=
  if t.val % 8 = 0 then (k0_pay1 (F := F), k0_pay2 (F := F)) else scAt m c (t.val - 1) (Nat.lt_of_le_of_lt (Nat.sub_le _ _) t.isLt)

theorem scAt_eq (c : Dev nD) (t : Fin cfg0.N) :
    scAt m c t.val t.isLt = stepS (onDiag t.val) (grid0.coords t) (rowsBlk m c t) (colsBlk m c t) (famColBlk m c t) (famRowBlk m c t) (scIn m c t) := by
  obtain ⟨n, hn⟩ := t
  cases n with
  | zero => rfl
  | succ n => rfl

/-- The loss-term column and the count column of the row tile, as the last column tile's point writes them. -/
def termAt (c : Dev nD) (t : Fin cfg0.N) : Vec F S2048x1 .f32 := k0_pay10 (scAt m c t.val t.isLt).1 (scAt m c t.val t.isLt).2
def countAt (c : Dev nD) (t : Fin cfg0.N) : Vec F S2048x1 .f32 := k0_pay11 (scAt m c t.val t.isLt).1 (scAt m c t.val t.isLt).2

/-! ## The region's invariant and the proof data -/

abbrev scM0 : Memref sig .tc .vmem S2048x1 .f32 := Memref.whole cc0_scratch0
abbrev scM1 : Memref sig .tc .vmem S2048x1 .f32 := Memref.whole cc0_scratch1

/-- Before the first point the two scratch buffers hold anything; afterwards what the point before left. The generator
    register is at some state throughout. -/
def PhiS (c : Dev nD) : (n : ℕ) → n ≤ cfg0.N → sProp 𝕄
  | 0, _ => Pipeline.ΦA spec0 c
  | n + 1, hn => iprop(iprop(owns (c : Thread nD τ) scM0 fullShare ((scAt m c n hn).1) ∗ owns (c : Thread nD τ) scM1 fullShare ((scAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((scAt m c n hn).1) ∗ owns (c : Thread nD τ) scM1 fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scM0 fullShare ((scAt m c (n - 1) (by omega)).1) ∗ owns (c : Thread nD τ) scM1 fullShare ((scAt m c (n - 1) (by omega)).2)) ∗ (∃ r, prngReg c r)) := by
  cases n with
  | zero => exact absurd rfl hz
  | succ n => rfl

/-- The class's invariant with the two scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The proof data: the arrays as the region finds them; after the body each input's buffer at its block, the two
    outputs' at the term and count columns; the invariant `PhiS`; the unit rows' array, which two windows read, held half
    by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => termAt m c t
    | ⟨5, _⟩ => countAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = termAt m c t := by dsimp only [dats]
theorem after0_5 (c : Dev nD) (t : Fin cfg0.N) : (dats m 0 c).after 5 t = countAt m c t := by dsimp only [dats]

end Cert.Kernel.Hand

end
-- ==== Proof.KB.Conds.lean ====
/-
  The body's four branches, decided over the grid, and where the two outputs are idle.

  At point `t` (row tile `t / 8`, column tile `t % 8`) the body resets the two scratch columns when the column
  tile is the first, updates them leaving the diagonal out when the column tile's 1024 rows overlap the row tile's
  2048 rows (`(t % 8) / 2 = t / 8`) and plainly when they do not, and writes the two outputs when the column tile is
  the last.
-/
import proofs.«417721_j28690381537966_3_alg».proof.Proof.KB.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- `1#1` exactly when the column tile's rows `[1024 j, 1024 j + 1024)` and the row tile's rows
    `[2048 i, 2048 i + 2048)` overlap, as the body computes it from the coordinates `(i, j)`. -/
abbrev meets (i : grid0.Coords) : BitVec 1 :=
  Scalar.andi
    (Scalar.cmpi .slt (Scalar.muli (BitVec.ofNat 32 (i 1).val) 1024#32)
      (Scalar.addi (Scalar.muli (BitVec.ofNat 32 (i 0).val) 2048#32) 2048#32))
    (Scalar.cmpi .sgt (Scalar.addi (Scalar.muli (BitVec.ofNat 32 (i 1).val) 1024#32) 1024#32)
      (Scalar.muli (BitVec.ofNat 32 (i 0).val) 2048#32))

/-- The first branch: the column tile is the first. -/
abbrev cond1 (i : grid0.Coords) : Prop :=
  Scalar.cmpi .ne (Scalar.extui (Scalar.cmpi .eq (BitVec.ofNat 32 (i 1).val) 0#32) : BitVec 32) 0#32 = 1#1
/-- The second branch: the tiles overlap. -/
abbrev cond2 (i : grid0.Coords) : Prop := Scalar.cmpi .ne (Scalar.extui (meets i) : BitVec 32) 0#32 = 1#1
/-- The third branch: they do not. -/
abbrev cond3 (i : grid0.Coords) : Prop :=
  Scalar.cmpi .ne (Scalar.extui (Scalar.xori (meets i) 1#1) : BitVec 32) 0#32 = 1#1
/-- The fourth branch: the column tile is the last. -/
abbrev cond4 (i : grid0.Coords) : Prop := k0_cond4 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ (t.val % 8) / 2 = t.val / 8 :=
  (by decide +kernel : ∀ t : Fin grid0.N, cond2 (grid0.coords t) ↔ (t.val % 8) / 2 = t.val / 8)
theorem hcond3 : ∀ t : Fin cfg0.N, cond3 (grid0.coords t) ↔ ¬((t.val % 8) / 2 = t.val / 8) :=
  (by decide +kernel : ∀ t : Fin grid0.N, cond3 (grid0.coords t) ↔ ¬((t.val % 8) / 2 = t.val / 8))
theorem hcond4 : ∀ t : Fin cfg0.N, cond4 (grid0.coords t) ↔ t.val % 8 = 7 :=
  (by decide +kernel : ∀ t : Fin grid0.N, cond4 (grid0.coords t) ↔ t.val % 8 = 7)

/-! ## Where the outputs are idle -/

/-- Away from the last column tile the two outputs are idle and not written back; at it they are live. -/
theorem idle4 : ∀ t : Fin cfg0.N, ¬cond4 (grid0.coords t) → cfg0.idle 4 (grid0.coords t) = true := by decide +kernel
theorem idle5 : ∀ t : Fin cfg0.N, ¬cond4 (grid0.coords t) → cfg0.idle 5 (grid0.coords t) = true := by decide +kernel
theorem noFlush4 : ∀ t : Fin cfg0.N, ¬cond4 (grid0.coords t) → (cfg0.win 4).flush t = false := by decide +kernel
theorem noFlush5 : ∀ t : Fin cfg0.N, ¬cond4 (grid0.coords t) → (cfg0.win 5).flush t = false := by decide +kernel
theorem live4 : ∀ t : Fin cfg0.N, cond4 (grid0.coords t) → cfg0.idle 4 (grid0.coords t) = false := by decide +kernel
theorem live5 : ∀ t : Fin cfg0.N, cond4 (grid0.coords t) → cfg0.idle 5 (grid0.coords t) = false := by decide +kernel

/-- The offsets of every load and store of the body: none. -/
theorem hz : (![0, 0] : Fin 2 → Nat) = fun _ => 0 := funext fun a => by fin_cases a <;> rfl

end Cert.Kernel.Hand

end
-- ==== Proof.KB.Runs.lean ====
/-
  The body run once per control case. A point is in the first, a middle or the last column tile, and its tile
  meets the diagonal or not: six cases. In each the body, on whole staging buffers holding the four input blocks, leaves
  the inputs as they were and the two scratch columns with the case's stores written; away from the last column tile
  the two outputs' buffers are handed back untouched, at it they get one store each. What the stores leave, read
  back, is the case's payload over the blocks and over what the scratch columns held (the sentinels at a first column tile).
-/
import proofs.«417721_j28690381537966_3_alg».proof.Proof.KB.Conds
import Idealize.ShloMosaic.Lib.Ring
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (a2 : Memref sig .tc .vmem S2048x256 .bf16) (h2 : a2.IsWhole) (a3 : Memref sig .tc .vmem S1024x256 .bf16) (h3 : a3.IsWhole)
  (a4 : Memref sig .tc .vmem S2048x1 .i32) (h4 : a4.IsWhole) (a5 : Memref sig .tc .vmem S1x1024 .i32) (h5 : a5.IsWhole)
  (a6 : Memref sig .tc .vmem S2048x1 .f32) (h6 : a6.IsWhole) (a7 : Memref sig .tc .vmem S2048x1 .f32) (h7 : a7.IsWhole)
  (a8 : Memref sig .tc .vmem S2048x1 .f32) (h8 : a8.IsWhole) (a9 : Memref sig .tc .vmem S2048x1 .f32) (h9 : a9.IsWhole)
  (x0 : Vec F S2048x256 .bf16) (x1 : Vec F S1024x256 .bf16) (x2 : Vec F S2048x1 .i32) (x3 : Vec F S1x1024 .i32)

/-! ## The first column tile that meets the diagonal -/

set_option maxHeartbeats 1000000 in
/-- Both scratch columns, whatever they held, are reset to the sentinels and then get the update that leaves the
    diagonal out of "same family"; the outputs untouched. -/
noncomputable def kernelRun_A (hc1 : cond1 i) (hc2 : cond2 i) (hc3 : ¬cond3 i) (hc4 : ¬cond4 i) :
    Σ' (LS0 : List (View.Piece (Elt F) S2048x1 .f32)), { LS1 : List (View.Piece (Elt F) S2048x1 .f32) //
      ∀ (xi4 xi5 : Vec F S2048x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xi4 ∗ owns (c : Thread nD τ) a7 fullShare xi5
            ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xi4 ∗ owns (c : Thread nD τ) a7 fullShare xi5
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5
    sl_exec (disch := first | exact hc1 | exact hc2 | exact hc3 | exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    iexists _; iexact HS1

theorem scover_A_0 (hc1 : cond1 i) (hc2 : cond2 i) (hc3 : ¬cond3 i) (hc4 : ¬cond4 i) (y : S2048x1.Idx) :
    ∃ pc ∈ (kernelRun_A c i a2 h2 a3 h3 a4 h4 a5 h5 a6 h6 a7 h7 a8 h8 a9 h9 x0 x1 x2 x3 hc1 hc2 hc3 hc4).1, y ∈ pc.1.set :=
  View.cover_of_tiledL _ S2048x1.size (by sl_kernel_rfl) y
theorem scover_A_1 (hc1 : cond1 i) (hc2 : cond2 i) (hc3 : ¬cond3 i) (hc4 : ¬cond4 i) (y : S2048x1.Idx) :
    ∃ pc ∈ (kernelRun_A c i a2 h2 a3 h3 a4 h4 a5 h5 a6 h6 a7 h7 a8 h8 a9 h9 x0 x1 x2 x3 hc1 hc2 hc3 hc4).2.1, y ∈ pc.1.set :=
  View.cover_of_tiledL _ S2048x1.size (by sl_kernel_rfl) y

/-- Read back, the first scratch column holds the minimum update without the diagonal of the sentinel. -/
theorem piece_A_0 (hc1 : cond1 i) (hc2 : cond2 i) (hc3 : ¬cond3 i) (hc4 : ¬cond4 i) :
    View.canon (kernelRun_A c i a2 h2 a3 h3 a4 h4 a5 h5 a6 h6 a7 h7 a8 h8 a9 h9 x0 x1 x2 x3 hc1 hc2 hc3 hc4).1
      = k0_pay5 i x0 x1 x2 x3 (k0_pay1 (F := F)) := by
  unfold kernelRun_A
  dsimp only
  sl_unfold_words
  rw [View.canon_cons_unit_zero (S := S2048x1) hz]
  simp only [View.readCov_unit_zero (S := S2048x1) _ hz, View.readAt_eq_ld, h2.read_unread, h3.read_unread, h4.read_unread, h5.read_unread,
    View.ld_unit_zero (S := S2048x256) hz, View.ld_unit_zero (S := S1024x256) hz, View.ld_unit_zero (S := S2048x1) hz,
    View.ld_unit_zero (S := S1x1024) hz]
/-- The second scratch column holds the maximum update of the sentinel. -/
theorem piece_A_1 (hc1 : cond1 i) (hc2 : cond2 i) (hc3 : ¬cond3 i) (hc4 : ¬cond4 i) :
    View.canon (kernelRun_A c i a2 h2 a3 h3 a4 h4 a5 h5 a6 h6 a7 h7 a8 h8 a9 h9 x0 x1 x2 x3 hc1 hc2 hc3 hc4).2.1
      = k0_pay6 x0 x1 x2 x3 (k0_pay2 (F := F)) := by
  unfold kernelRun_A
  dsimp only
  sl_unfold_words
  rw [View.canon_cons_unit_zero (S := S2048x1) hz]
  simp only [View.readCov_unit_zero (S := S2048x1) _ hz, View.readAt_eq_ld, h2.read_unread, h3.read_unread, h4.read_unread, h5.read_unread,
    View.ld_unit_zero (S := S2048x256) hz, View.ld_unit_zero (S := S1024x256) hz, View.ld_unit_zero (S := S2048x1) hz,
    View.ld_unit_zero (S := S1x1024) hz]

/-! ## A first column tile off the diagonal -/

set_option maxHeartbeats 1000000 in
/-- Both scratch columns, whatever they held, are reset to the sentinels and then get the plain update; the outputs
    untouched. -/
noncomputable def kernelRun_B (hc1 : cond1 i) (hc2 : ¬cond2 i) (hc3 : cond3 i) (hc4 : ¬cond4 i) :
    Σ' (LS0 : List (View.Piece (Elt F) S2048x1 .f32)), { LS1 : List (View.Piece (Elt F) S2048x1 .f32) //
      ∀ (xi4 xi5 : Vec F S2048x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xi4 ∗ owns (c : Thread nD τ) a7 fullShare xi5
            ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xi4 ∗ owns (c : Thread nD τ) a7 fullShare xi5
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5
    sl_exec (disch := first | exact hc1 | exact hc2 | exact hc3 | exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    iexists _; iexact HS1

theorem scover_B_0 (hc1 : cond1 i) (hc2 : ¬cond2 i) (hc3 : cond3 i) (hc4 : ¬cond4 i) (y : S2048x1.Idx) :
    ∃ pc ∈ (kernelRun_B c i a2 h2 a3 h3 a4 h4 a5 h5 a6 h6 a7 h7 a8 h8 a9 h9 x0 x1 x2 x3 hc1 hc2 hc3 hc4).1, y ∈ pc.1.set :=
  View.cover_of_tiledL _ S2048x1.size (by sl_kernel_rfl) y
theorem scover_B_1 (hc1 : cond1 i) (hc2 : ¬cond2 i) (hc3 : cond3 i) (hc4 : ¬cond4 i) (y : S2048x1.Idx) :
    ∃ pc ∈ (kernelRun_B c i a2 h2 a3 h3 a4 h4 a5 h5 a6 h6 a7 h7 a8 h8 a9 h9 x0 x1 x2 x3 hc1 hc2 hc3 hc4).2.1, y ∈ pc.1.set :=
  View.cover_of_tiledL _ S2048x1.size (by sl_kernel_rfl) y

/-- Read back, the first scratch column holds the plain minimum update of the sentinel. -/
theorem piece_B_0 (hc1 : cond1 i) (hc2 : ¬cond2 i) (hc3 : cond3 i) (hc4 : ¬cond4 i) :
    View.canon (kernelRun_B c i a2 h2 a3 h3 a4 h4 a5 h5 a6 h6 a7 h7 a8 h8 a9 h9 x0 x1 x2 x3 hc1 hc2 hc3 hc4).1
      = k0_pay7 x0 x1 x2 x3 (k0_pay1 (F := F)) := by
  unfold kernelRun_B
  dsimp only
  sl_unfold_words
  rw [View.canon_cons_unit_zero (S := S2048x1) hz]
  simp only [View.readCov_unit_zero (S := S2048x1) _ hz, View.readAt_eq_ld, h2.read_unread, h3.read_unread, h4.read_unread, h5.read_unread,
    View.ld_unit_zero (S := S2048x256) hz, View.ld_unit_zero (S := S1024x256) hz, View.ld_unit_zero (S := S2048x1) hz,
    View.ld_unit_zero (S := S1x1024) hz]
/-- The second scratch column holds the plain maximum update of the sentinel. -/
theorem piece_B_1 (hc1 : cond1 i) (hc2 : ¬cond2 i) (hc3 : cond3 i) (hc4 : ¬cond4 i) :
    View.canon (kernelRun_B c i a2 h2 a3 h3 a4 h4 a5 h5 a6 h6 a7 h7 a8 h8 a9 h9 x0 x1 x2 x3 hc1 hc2 hc3 hc4).2.1
      = k0_pay8 x0 x1 x2 x3 (k0_pay2 (F := F)) := by
  unfold kernelRun_B
  dsimp only
  sl_unfold_words
  rw [View.canon_cons_unit_zero (S := S2048x1) hz]
  simp only [View.readCov_unit_zero (S := S2048x1) _ hz, View.readAt_eq_ld, h2.read_unread, h3.read_unread, h4.read_unread, h5.read_unread,
    View.ld_unit_zero (S := S2048x256) hz, View.ld_unit_zero (S := S1024x256) hz, View.ld_unit_zero (S := S2048x1) hz,
    View.ld_unit_zero (S := S1x1024) hz]

/-! ## A middle column tile that meets the diagonal -/

set_option maxHeartbeats 1000000 in
/-- The update of both scratch columns that leaves the diagonal out of "same family"; the outputs untouched. -/
noncomputable def kernelRun_C (hc1 : ¬cond1 i) (hc2 : cond2 i) (hc3 : ¬cond3 i) (hc4 : ¬cond4 i) (xs0 xs1 : Vec F S2048x1 .f32) :
    Σ' (LS0 : List (View.Piece (Elt F) S2048x1 .f32)), { LS1 : List (View.Piece (Elt F) S2048x1 .f32) //
      ∀ (xi4 xi5 : Vec F S2048x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xi4 ∗ owns (c : Thread nD τ) a7 fullShare xi5
            ∗ owns (c : Thread nD τ) a8 fullShare xs0 ∗ owns (c : Thread nD τ) a9 fullShare xs1
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xi4 ∗ owns (c : Thread nD τ) a7 fullShare xi5
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hfs0; obtain rfl := h9.eq_unread hfs1
    sl_exec (disch := first | exact hc1 | exact hc2 | exact hc3 | exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    iexists _; iexact HS1

theorem scover_C_0 (hc1 : ¬cond1 i) (hc2 : cond2 i) (hc3 : ¬cond3 i) (hc4 : ¬cond4 i) (xs0 xs1 : Vec F S2048x1 .f32) (y : S2048x1.Idx) :
    ∃ pc ∈ (kernelRun_C c i a2 h2 a3 h3 a4 h4 a5 h5 a6 h6 a7 h7 a8 h8 a9 h9 x0 x1 x2 x3 hc1 hc2 hc3 hc4 xs0 xs1).1, y ∈ pc.1.set :=
  View.cover_of_tiledL _ S2048x1.size (by sl_kernel_rfl) y
theorem scover_C_1 (hc1 : ¬cond1 i) (hc2 : cond2 i) (hc3 : ¬cond3 i) (hc4 : ¬cond4 i) (xs0 xs1 : Vec F S2048x1 .f32) (y : S2048x1.Idx) :
    ∃ pc ∈ (kernelRun_C c i a2 h2 a3 h3 a4 h4 a5 h5 a6 h6 a7 h7 a8 h8 a9 h9 x0 x1 x2 x3 hc1 hc2 hc3 hc4 xs0 xs1).2.1, y ∈ pc.1.set :=
  View.cover_of_tiledL _ S2048x1.size (by sl_kernel_rfl) y

/-- Read back, the first scratch column holds the minimum update without the diagonal of what it held. -/
theorem piece_C_0 (hc1 : ¬cond1 i) (hc2 : cond2 i) (hc3 : ¬cond3 i) (hc4 : ¬cond4 i) (xs0 xs1 : Vec F S2048x1 .f32) :
    View.canon (kernelRun_C c i a2 h2 a3 h3 a4 h4 a5 h5 a6 h6 a7 h7 a8 h8 a9 h9 x0 x1 x2 x3 hc1 hc2 hc3 hc4 xs0 xs1).1
      = k0_pay5 i x0 x1 x2 x3 xs0 := by
  unfold kernelRun_C
  dsimp only
  sl_unfold_words
  rw [View.canon_unit_zero hz]
  simp only [View.readAt_eq_ld, h2.read_unread, h3.read_unread, h4.read_unread, h5.read_unread, h8.read_unread,
    View.ld_unit_zero (S := S2048x256) hz, View.ld_unit_zero (S := S1024x256) hz, View.ld_unit_zero (S := S2048x1) hz,
    View.ld_unit_zero (S := S1x1024) hz]
/-- The second scratch column holds the maximum update of what it held. -/
theorem piece_C_1 (hc1 : ¬cond1 i) (hc2 : cond2 i) (hc3 : ¬cond3 i) (hc4 : ¬cond4 i) (xs0 xs1 : Vec F S2048x1 .f32) :
    View.canon (kernelRun_C c i a2 h2 a3 h3 a4 h4 a5 h5 a6 h6 a7 h7 a8 h8 a9 h9 x0 x1 x2 x3 hc1 hc2 hc3 hc4 xs0 xs1).2.1
      = k0_pay6 x0 x1 x2 x3 xs1 := by
  unfold kernelRun_C
  dsimp only
  sl_unfold_words
  rw [View.canon_unit_zero hz]
  simp only [View.readAt_eq_ld, h2.read_unread, h3.read_unread, h4.read_unread, h5.read_unread, h9.read_unread,
    View.ld_unit_zero (S := S2048x256) hz, View.ld_unit_zero (S := S1024x256) hz, View.ld_unit_zero (S := S2048x1) hz,
    View.ld_unit_zero (S := S1x1024) hz]

/-! ## A middle column tile off the diagonal -/

set_option maxHeartbeats 1000000 in
/-- The plain update of both scratch columns from what they held; the outputs untouched. -/
noncomputable def kernelRun_D (hc1 : ¬cond1 i) (hc2 : ¬cond2 i) (hc3 : cond3 i) (hc4 : ¬cond4 i) (xs0 xs1 : Vec F S2048x1 .f32) :
    Σ' (LS0 : List (View.Piece (Elt F) S2048x1 .f32)), { LS1 : List (View.Piece (Elt F) S2048x1 .f32) //
      ∀ (xi4 xi5 : Vec F S2048x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xi4 ∗ owns (c : Thread nD τ) a7 fullShare xi5
            ∗ owns (c : Thread nD τ) a8 fullShare xs0 ∗ owns (c : Thread nD τ) a9 fullShare xs1
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xi4 ∗ owns (c : Thread nD τ) a7 fullShare xi5
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hfs0; obtain rfl := h9.eq_unread hfs1
    sl_exec (disch := first | exact hc1 | exact hc2 | exact hc3 | exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    iexists _; iexact HS1

theorem scover_D_0 (hc1 : ¬cond1 i) (hc2 : ¬cond2 i) (hc3 : cond3 i) (hc4 : ¬cond4 i) (xs0 xs1 : Vec F S2048x1 .f32) (y : S2048x1.Idx) :
    ∃ pc ∈ (kernelRun_D c i a2 h2 a3 h3 a4 h4 a5 h5 a6 h6 a7 h7 a8 h8 a9 h9 x0 x1 x2 x3 hc1 hc2 hc3 hc4 xs0 xs1).1, y ∈ pc.1.set :=
  View.cover_of_tiledL _ S2048x1.size (by sl_kernel_rfl) y
theorem scover_D_1 (hc1 : ¬cond1 i) (hc2 : ¬cond2 i) (hc3 : cond3 i) (hc4 : ¬cond4 i) (xs0 xs1 : Vec F S2048x1 .f32) (y : S2048x1.Idx) :
    ∃ pc ∈ (kernelRun_D c i a2 h2 a3 h3 a4 h4 a5 h5 a6 h6 a7 h7 a8 h8 a9 h9 x0 x1 x2 x3 hc1 hc2 hc3 hc4 xs0 xs1).2.1, y ∈ pc.1.set :=
  View.cover_of_tiledL _ S2048x1.size (by sl_kernel_rfl) y

/-- Read back, the first scratch column holds the plain minimum update of what it held. -/
theorem piece_D_0 (hc1 : ¬cond1 i) (hc2 : ¬cond2 i) (hc3 : cond3 i) (hc4 : ¬cond4 i) (xs0 xs1 : Vec F S2048x1 .f32) :
    View.canon (kernelRun_D c i a2 h2 a3 h3 a4 h4 a5 h5 a6 h6 a7 h7 a8 h8 a9 h9 x0 x1 x2 x3 hc1 hc2 hc3 hc4 xs0 xs1).1
      = k0_pay7 x0 x1 x2 x3 xs0 := by
  unfold kernelRun_D
  dsimp only
  sl_unfold_words
  rw [View.canon_unit_zero hz]
  simp only [View.readAt_eq_ld, h2.read_unread, h3.read_unread, h4.read_unread, h5.read_unread, h8.read_unread,
    View.ld_unit_zero (S := S2048x256) hz, View.ld_unit_zero (S := S1024x256) hz, View.ld_unit_zero (S := S2048x1) hz,
    View.ld_unit_zero (S := S1x1024) hz]
/-- The second scratch column holds the plain maximum update of what it held. -/
theorem piece_D_1 (hc1 : ¬cond1 i) (hc2 : ¬cond2 i) (hc3 : cond3 i) (hc4 : ¬cond4 i) (xs0 xs1 : Vec F S2048x1 .f32) :
    View.canon (kernelRun_D c i a2 h2 a3 h3 a4 h4 a5 h5 a6 h6 a7 h7 a8 h8 a9 h9 x0 x1 x2 x3 hc1 hc2 hc3 hc4 xs0 xs1).2.1
      = k0_pay8 x0 x1 x2 x3 xs1 := by
  unfold kernelRun_D
  dsimp only
  sl_unfold_words
  rw [View.canon_unit_zero hz]
  simp only [View.readAt_eq_ld, h2.read_unread, h3.read_unread, h4.read_unread, h5.read_unread, h9.read_unread,
    View.ld_unit_zero (S := S2048x256) hz, View.ld_unit_zero (S := S1024x256) hz, View.ld_unit_zero (S := S2048x1) hz,
    View.ld_unit_zero (S := S1x1024) hz]

/-! ## The last column tile that meets the diagonal -/

set_option maxHeartbeats 1000000 in
/-- The update of both scratch columns that leaves the diagonal out of "same family", then the two outputs' buffers, whatever they held, get the loss-term
    column and the count column of the updated scratch columns. -/
noncomputable def kernelRun_E (hc1 : ¬cond1 i) (hc2 : cond2 i) (hc3 : ¬cond3 i) (hc4 : cond4 i) (xs0 xs1 : Vec F S2048x1 .f32) :
    Σ' (L4 : List (View.Piece (Elt F) S2048x1 .f32)) (L5 : List (View.Piece (Elt F) S2048x1 .f32))
      (LS0 : List (View.Piece (Elt F) S2048x1 .f32)), { LS1 : List (View.Piece (Elt F) S2048x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d) ∗ (∃ d, owns (c : Thread nD τ) a7 fullShare d)
            ∗ owns (c : Thread nD τ) a8 fullShare xs0 ∗ owns (c : Thread nD τ) a9 fullShare xs1
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3
    obtain rfl := h8.eq_unread hfs0; obtain rfl := h9.eq_unread hfs1
    sl_exec (disch := first | exact hc1 | exact hc2 | exact hc3 | exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [HS0]; · iexists _; iexact HS0
    iexists _; iexact HS1

theorem cover_E_4 (hc1 : ¬cond1 i) (hc2 : cond2 i) (hc3 : ¬cond3 i) (hc4 : cond4 i) (xs0 xs1 : Vec F S2048x1 .f32) (y : S2048x1.Idx) :
    ∃ pc ∈ (kernelRun_E c i a2 h2 a3 h3 a4 h4 a5 h5 a6 h6 a7 h7 a8 h8 a9 h9 x0 x1 x2 x3 hc1 hc2 hc3 hc4 xs0 xs1).1, y ∈ pc.1.set :=
  View.cover_of_tiledL _ S2048x1.size (by sl_kernel_rfl) y
theorem cover_E_5 (hc1 : ¬cond1 i) (hc2 : cond2 i) (hc3 : ¬cond3 i) (hc4 : cond4 i) (xs0 xs1 : Vec F S2048x1 .f32) (y : S2048x1.Idx) :
    ∃ pc ∈ (kernelRun_E c i a2 h2 a3 h3 a4 h4 a5 h5 a6 h6 a7 h7 a8 h8 a9 h9 x0 x1 x2 x3 hc1 hc2 hc3 hc4 xs0 xs1).2.1, y ∈ pc.1.set :=
  View.cover_of_tiledL _ S2048x1.size (by sl_kernel_rfl) y
theorem scover_E_0 (hc1 : ¬cond1 i) (hc2 : cond2 i) (hc3 : ¬cond3 i) (hc4 : cond4 i) (xs0 xs1 : Vec F S2048x1 .f32) (y : S2048x1.Idx) :
    ∃ pc ∈ (kernelRun_E c i a2 h2 a3 h3 a4 h4 a5 h5 a6 h6 a7 h7 a8 h8 a9 h9 x0 x1 x2 x3 hc1 hc2 hc3 hc4 xs0 xs1).2.2.1, y ∈ pc.1.set :=
  View.cover_of_tiledL _ S2048x1.size (by sl_kernel_rfl) y
theorem scover_E_1 (hc1 : ¬cond1 i) (hc2 : cond2 i) (hc3 : ¬cond3 i) (hc4 : cond4 i) (xs0 xs1 : Vec F S2048x1 .f32) (y : S2048x1.Idx) :
    ∃ pc ∈ (kernelRun_E c i a2 h2 a3 h3 a4 h4 a5 h5 a6 h6 a7 h7 a8 h8 a9 h9 x0 x1 x2 x3 hc1 hc2 hc3 hc4 xs0 xs1).2.2.2.1, y ∈ pc.1.set :=
  View.cover_of_tiledL _ S2048x1.size (by sl_kernel_rfl) y

/-- Read back, the first output's buffer holds the loss-term column of the two updated scratch columns. -/
theorem piece_E_4 (hc1 : ¬cond1 i) (hc2 : cond2 i) (hc3 : ¬cond3 i) (hc4 : cond4 i) (xs0 xs1 : Vec F S2048x1 .f32) :
    View.canon (kernelRun_E c i a2 h2 a3 h3 a4 h4 a5 h5 a6 h6 a7 h7 a8 h8 a9 h9 x0 x1 x2 x3 hc1 hc2 hc3 hc4 xs0 xs1).1
      = k0_pay10 (k0_pay5 i x0 x1 x2 x3 xs0) (k0_pay6 x0 x1 x2 x3 xs1) := by
  unfold kernelRun_E
  dsimp only
  sl_unfold_words
  rw [View.canon_unit_zero hz]
  simp only [View.readCov_unit_zero (S := S2048x1) _ hz, View.readAt_eq_ld, h2.read_unread, h3.read_unread, h4.read_unread, h5.read_unread,
    h8.read_unread, h9.read_unread,
    View.ld_unit_zero (S := S2048x256) hz, View.ld_unit_zero (S := S1024x256) hz, View.ld_unit_zero (S := S2048x1) hz,
    View.ld_unit_zero (S := S1x1024) hz]
/-- The second output's buffer holds their count column. -/
theorem piece_E_5 (hc1 : ¬cond1 i) (hc2 : cond2 i) (hc3 : ¬cond3 i) (hc4 : cond4 i) (xs0 xs1 : Vec F S2048x1 .f32) :
    View.canon (kernelRun_E c i a2 h2 a3 h3 a4 h4 a5 h5 a6 h6 a7 h7 a8 h8 a9 h9 x0 x1 x2 x3 hc1 hc2 hc3 hc4 xs0 xs1).2.1
      = k0_pay11 (k0_pay5 i x0 x1 x2 x3 xs0) (k0_pay6 x0 x1 x2 x3 xs1) := by
  unfold kernelRun_E
  dsimp only
  sl_unfold_words
  rw [View.canon_unit_zero hz]
  simp only [View.readCov_unit_zero (S := S2048x1) _ hz, View.readAt_eq_ld, h2.read_unread, h3.read_unread, h4.read_unread, h5.read_unread,
    h8.read_unread, h9.read_unread,
    View.ld_unit_zero (S := S2048x256) hz, View.ld_unit_zero (S := S1024x256) hz, View.ld_unit_zero (S := S2048x1) hz,
    View.ld_unit_zero (S := S1x1024) hz]
/-- The first scratch column holds the minimum update without the diagonal of what it held. -/
theorem piece_E_0 (hc1 : ¬cond1 i) (hc2 : cond2 i) (hc3 : ¬cond3 i) (hc4 : cond4 i) (xs0 xs1 : Vec F S2048x1 .f32) :
    View.canon (kernelRun_E c i a2 h2 a3 h3 a4 h4 a5 h5 a6 h6 a7 h7 a8 h8 a9 h9 x0 x1 x2 x3 hc1 hc2 hc3 hc4 xs0 xs1).2.2.1
      = k0_pay5 i x0 x1 x2 x3 xs0 := by
  unfold kernelRun_E
  dsimp only
  sl_unfold_words
  rw [View.canon_unit_zero hz]
  simp only [View.readAt_eq_ld, h2.read_unread, h3.read_unread, h4.read_unread, h5.read_unread, h8.read_unread,
    View.ld_unit_zero (S := S2048x256) hz, View.ld_unit_zero (S := S1024x256) hz, View.ld_unit_zero (S := S2048x1) hz,
    View.ld_unit_zero (S := S1x1024) hz]
/-- The second scratch column holds the maximum update of what it held. -/
theorem piece_E_1 (hc1 : ¬cond1 i) (hc2 : cond2 i) (hc3 : ¬cond3 i) (hc4 : cond4 i) (xs0 xs1 : Vec F S2048x1 .f32) :
    View.canon (kernelRun_E c i a2 h2 a3 h3 a4 h4 a5 h5 a6 h6 a7 h7 a8 h8 a9 h9 x0 x1 x2 x3 hc1 hc2 hc3 hc4 xs0 xs1).2.2.2.1
      = k0_pay6 x0 x1 x2 x3 xs1 := by
  unfold kernelRun_E
  dsimp only
  sl_unfold_words
  rw [View.canon_unit_zero hz]
  simp only [View.readAt_eq_ld, h2.read_unread, h3.read_unread, h4.read_unread, h5.read_unread, h9.read_unread,
    View.ld_unit_zero (S := S2048x256) hz, View.ld_unit_zero (S := S1024x256) hz, View.ld_unit_zero (S := S2048x1) hz,
    View.ld_unit_zero (S := S1x1024) hz]

/-! ## A last column tile off the diagonal -/

set_option maxHeartbeats 1000000 in
/-- The plain update of both scratch columns, then the two outputs' buffers, whatever they held, get the loss-term
    column and the count column of the updated scratch columns. -/
noncomputable def kernelRun_G (hc1 : ¬cond1 i) (hc2 : ¬cond2 i) (hc3 : cond3 i) (hc4 : cond4 i) (xs0 xs1 : Vec F S2048x1 .f32) :
    Σ' (L4 : List (View.Piece (Elt F) S2048x1 .f32)) (L5 : List (View.Piece (Elt F) S2048x1 .f32))
      (LS0 : List (View.Piece (Elt F) S2048x1 .f32)), { LS1 : List (View.Piece (Elt F) S2048x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d) ∗ (∃ d, owns (c : Thread nD τ) a7 fullShare d)
            ∗ owns (c : Thread nD τ) a8 fullShare xs0 ∗ owns (c : Thread nD τ) a9 fullShare xs1
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3
    obtain rfl := h8.eq_unread hfs0; obtain rfl := h9.eq_unread hfs1
    sl_exec (disch := first | exact hc1 | exact hc2 | exact hc3 | exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [HS0]; · iexists _; iexact HS0
    iexists _; iexact HS1

theorem cover_G_4 (hc1 : ¬cond1 i) (hc2 : ¬cond2 i) (hc3 : cond3 i) (hc4 : cond4 i) (xs0 xs1 : Vec F S2048x1 .f32) (y : S2048x1.Idx) :
    ∃ pc ∈ (kernelRun_G c i a2 h2 a3 h3 a4 h4 a5 h5 a6 h6 a7 h7 a8 h8 a9 h9 x0 x1 x2 x3 hc1 hc2 hc3 hc4 xs0 xs1).1, y ∈ pc.1.set :=
  View.cover_of_tiledL _ S2048x1.size (by sl_kernel_rfl) y
theorem cover_G_5 (hc1 : ¬cond1 i) (hc2 : ¬cond2 i) (hc3 : cond3 i) (hc4 : cond4 i) (xs0 xs1 : Vec F S2048x1 .f32) (y : S2048x1.Idx) :
    ∃ pc ∈ (kernelRun_G c i a2 h2 a3 h3 a4 h4 a5 h5 a6 h6 a7 h7 a8 h8 a9 h9 x0 x1 x2 x3 hc1 hc2 hc3 hc4 xs0 xs1).2.1, y ∈ pc.1.set :=
  View.cover_of_tiledL _ S2048x1.size (by sl_kernel_rfl) y
theorem scover_G_0 (hc1 : ¬cond1 i) (hc2 : ¬cond2 i) (hc3 : cond3 i) (hc4 : cond4 i) (xs0 xs1 : Vec F S2048x1 .f32) (y : S2048x1.Idx) :
    ∃ pc ∈ (kernelRun_G c i a2 h2 a3 h3 a4 h4 a5 h5 a6 h6 a7 h7 a8 h8 a9 h9 x0 x1 x2 x3 hc1 hc2 hc3 hc4 xs0 xs1).2.2.1, y ∈ pc.1.set :=
  View.cover_of_tiledL _ S2048x1.size (by sl_kernel_rfl) y
theorem scover_G_1 (hc1 : ¬cond1 i) (hc2 : ¬cond2 i) (hc3 : cond3 i) (hc4 : cond4 i) (xs0 xs1 : Vec F S2048x1 .f32) (y : S2048x1.Idx) :
    ∃ pc ∈ (kernelRun_G c i a2 h2 a3 h3 a4 h4 a5 h5 a6 h6 a7 h7 a8 h8 a9 h9 x0 x1 x2 x3 hc1 hc2 hc3 hc4 xs0 xs1).2.2.2.1, y ∈ pc.1.set :=
  View.cover_of_tiledL _ S2048x1.size (by sl_kernel_rfl) y

/-- Read back, the first output's buffer holds the loss-term column of the two updated scratch columns. -/
theorem piece_G_4 (hc1 : ¬cond1 i) (hc2 : ¬cond2 i) (hc3 : cond3 i) (hc4 : cond4 i) (xs0 xs1 : Vec F S2048x1 .f32) :
    View.canon (kernelRun_G c i a2 h2 a3 h3 a4 h4 a5 h5 a6 h6 a7 h7 a8 h8 a9 h9 x0 x1 x2 x3 hc1 hc2 hc3 hc4 xs0 xs1).1
      = k0_pay10 (k0_pay7 x0 x1 x2 x3 xs0) (k0_pay8 x0 x1 x2 x3 xs1) := by
  unfold kernelRun_G
  dsimp only
  sl_unfold_words
  rw [View.canon_unit_zero hz]
  simp only [View.readCov_unit_zero (S := S2048x1) _ hz, View.readAt_eq_ld, h2.read_unread, h3.read_unread, h4.read_unread, h5.read_unread,
    h8.read_unread, h9.read_unread,
    View.ld_unit_zero (S := S2048x256) hz, View.ld_unit_zero (S := S1024x256) hz, View.ld_unit_zero (S := S2048x1) hz,
    View.ld_unit_zero (S := S1x1024) hz]
/-- The second output's buffer holds their count column. -/
theorem piece_G_5 (hc1 : ¬cond1 i) (hc2 : ¬cond2 i) (hc3 : cond3 i) (hc4 : cond4 i) (xs0 xs1 : Vec F S2048x1 .f32) :
    View.canon (kernelRun_G c i a2 h2 a3 h3 a4 h4 a5 h5 a6 h6 a7 h7 a8 h8 a9 h9 x0 x1 x2 x3 hc1 hc2 hc3 hc4 xs0 xs1).2.1
      = k0_pay11 (k0_pay7 x0 x1 x2 x3 xs0) (k0_pay8 x0 x1 x2 x3 xs1) := by
  unfold kernelRun_G
  dsimp only
  sl_unfold_words
  rw [View.canon_unit_zero hz]
  simp only [View.readCov_unit_zero (S := S2048x1) _ hz, View.readAt_eq_ld, h2.read_unread, h3.read_unread, h4.read_unread, h5.read_unread,
    h8.read_unread, h9.read_unread,
    View.ld_unit_zero (S := S2048x256) hz, View.ld_unit_zero (S := S1024x256) hz, View.ld_unit_zero (S := S2048x1) hz,
    View.ld_unit_zero (S := S1x1024) hz]
/-- The first scratch column holds the plain minimum update of what it held. -/
theorem piece_G_0 (hc1 : ¬cond1 i) (hc2 : ¬cond2 i) (hc3 : cond3 i) (hc4 : cond4 i) (xs0 xs1 : Vec F S2048x1 .f32) :
    View.canon (kernelRun_G c i a2 h2 a3 h3 a4 h4 a5 h5 a6 h6 a7 h7 a8 h8 a9 h9 x0 x1 x2 x3 hc1 hc2 hc3 hc4 xs0 xs1).2.2.1
      = k0_pay7 x0 x1 x2 x3 xs0 := by
  unfold kernelRun_G
  dsimp only
  sl_unfold_words
  rw [View.canon_unit_zero hz]
  simp only [View.readAt_eq_ld, h2.read_unread, h3.read_unread, h4.read_unread, h5.read_unread, h8.read_unread,
    View.ld_unit_zero (S := S2048x256) hz, View.ld_unit_zero (S := S1024x256) hz, View.ld_unit_zero (S := S2048x1) hz,
    View.ld_unit_zero (S := S1x1024) hz]
/-- The second scratch column holds the plain maximum update of what it held. -/
theorem piece_G_1 (hc1 : ¬cond1 i) (hc2 : ¬cond2 i) (hc3 : cond3 i) (hc4 : cond4 i) (xs0 xs1 : Vec F S2048x1 .f32) :
    View.canon (kernelRun_G c i a2 h2 a3 h3 a4 h4 a5 h5 a6 h6 a7 h7 a8 h8 a9 h9 x0 x1 x2 x3 hc1 hc2 hc3 hc4 xs0 xs1).2.2.2.1
      = k0_pay8 x0 x1 x2 x3 xs1 := by
  unfold kernelRun_G
  dsimp only
  sl_unfold_words
  rw [View.canon_unit_zero hz]
  simp only [View.readAt_eq_ld, h2.read_unread, h3.read_unread, h4.read_unread, h5.read_unread, h9.read_unread,
    View.ld_unit_zero (S := S2048x256) hz, View.ld_unit_zero (S := S1024x256) hz, View.ld_unit_zero (S := S2048x1) hz,
    View.ld_unit_zero (S := S1x1024) hz]

end Cert.Kernel.Hand

end
-- ==== Proof.KB.Body.lean ====
/-
  The body obligation of the region. At every point each input's staging buffer holds the window's block there; the
  point's coordinates select one of six cases (first, middle or last column tile; meeting the diagonal or not), and
  the case's run leaves the two scratch columns at the recursion `scAt` of the point: the case's update of the
  sentinels at a first column tile, of what the point before left otherwise. Away from the last column tile the two
  outputs' buffers come back untouched (the windows are idle there and not written back); at it they hold the
  loss-term column and the count column of the updated scratch columns. Before the first point the scratch
  columns hold anything, and after the last what they hold is forgotten.
-/
import proofs.«417721_j28690381537966_3_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body finds in the inputs' buffers -/

/-- Each input's current staging buffer holds its block at every point, fetched there or not: the row tile's two
    windows are fetched only at a first column tile and their block index does not move until the next one. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The scratch columns after a point, case by case -/

theorem onDiag_true {n : ℕ} (h : (n % 8) / 2 = n / 8) : onDiag n = true := decide_eq_true h
theorem onDiag_false {n : ℕ} (h : ¬(n % 8) / 2 = n / 8) : onDiag n = false := decide_eq_false h

/-- At a first column tile the update starts from the sentinels; -/
theorem scAt_first_diag (c : Dev nD) (t : Fin cfg0.N) (hF : t.val % 8 = 0) (hD : (t.val % 8) / 2 = t.val / 8) :
    scAt m c t.val t.isLt
      = (k0_pay5 (grid0.coords t) (rowsBlk m c t) (colsBlk m c t) (famColBlk m c t) (famRowBlk m c t) (k0_pay1 (F := F)),
         k0_pay6 (rowsBlk m c t) (colsBlk m c t) (famColBlk m c t) (famRowBlk m c t) (k0_pay2 (F := F))) := by
  rw [scAt_eq, onDiag_true hD]; unfold scIn; rw [if_pos hF]; rfl
theorem scAt_first_off (c : Dev nD) (t : Fin cfg0.N) (hF : t.val % 8 = 0) (hD : ¬(t.val % 8) / 2 = t.val / 8) :
    scAt m c t.val t.isLt
      = (k0_pay7 (rowsBlk m c t) (colsBlk m c t) (famColBlk m c t) (famRowBlk m c t) (k0_pay1 (F := F)),
         k0_pay8 (rowsBlk m c t) (colsBlk m c t) (famColBlk m c t) (famRowBlk m c t) (k0_pay2 (F := F))) := by
  rw [scAt_eq, onDiag_false hD]; unfold scIn; rw [if_pos hF]; rfl
/-- at a later one from what the point before left. -/
theorem scAt_later_diag (c : Dev nD) (t : Fin cfg0.N) (hF : ¬t.val % 8 = 0) (hD : (t.val % 8) / 2 = t.val / 8) :
    scAt m c t.val t.isLt
      = (k0_pay5 (grid0.coords t) (rowsBlk m c t) (colsBlk m c t) (famColBlk m c t) (famRowBlk m c t)
            (scAt m c (t.val - 1) (Nat.lt_of_le_of_lt (Nat.sub_le _ _) t.isLt)).1,
         k0_pay6 (rowsBlk m c t) (colsBlk m c t) (famColBlk m c t) (famRowBlk m c t)
            (scAt m c (t.val - 1) (Nat.lt_of_le_of_lt (Nat.sub_le _ _) t.isLt)).2) := by
  rw [scAt_eq, onDiag_true hD]; unfold scIn; rw [if_neg hF]; rfl
theorem scAt_later_off (c : Dev nD) (t : Fin cfg0.N) (hF : ¬t.val % 8 = 0) (hD : ¬(t.val % 8) / 2 = t.val / 8) :
    scAt m c t.val t.isLt
      = (k0_pay7 (rowsBlk m c t) (colsBlk m c t) (famColBlk m c t) (famRowBlk m c t)
            (scAt m c (t.val - 1) (Nat.lt_of_le_of_lt (Nat.sub_le _ _) t.isLt)).1,
         k0_pay8 (rowsBlk m c t) (colsBlk m c t) (famColBlk m c t) (famRowBlk m c t)
            (scAt m c (t.val - 1) (Nat.lt_of_le_of_lt (Nat.sub_le _ _) t.isLt)).2) := by
  rw [scAt_eq, onDiag_false hD]; unfold scIn; rw [if_neg hF]; rfl

/-! ## The body obligation at a point -/

/-- Each window's current staging memref at point `t`, as the pipeline passes it to the body. -/
abbrev ms0 (t : Fin cfg0.N) : Memref sig .tc .vmem S2048x256 .bf16 := win0_0.stage (cfg0.slots t 0)
abbrev ms1 (t : Fin cfg0.N) : Memref sig .tc .vmem S1024x256 .bf16 := win0_1.stage (cfg0.slots t 1)
abbrev ms2 (t : Fin cfg0.N) : Memref sig .tc .vmem S2048x1 .i32 := win0_2.stage (cfg0.slots t 2)
abbrev ms3 (t : Fin cfg0.N) : Memref sig .tc .vmem S1x1024 .i32 := win0_3.stage (cfg0.slots t 3)
abbrev ms4 (t : Fin cfg0.N) : Memref sig .tc .vmem S2048x1 .f32 := win0_4.stage (cfg0.slots t 4)
abbrev ms5 (t : Fin cfg0.N) : Memref sig .tc .vmem S2048x1 .f32 := win0_5.stage (cfg0.slots t 5)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input's buffer is left at its block. -/
theorem leaves0 (c : Dev nD) (t : Fin cfg0.N) :
    (dats m 0 c).leavesExact 0 t = owns (c : Thread nD τ) (ms0 t) fullShare (iblk m c 0 t) := by
  rw [← after0_0] <;> rfl
theorem leaves1 (c : Dev nD) (t : Fin cfg0.N) :
    (dats m 0 c).leavesExact 1 t = owns (c : Thread nD τ) (ms1 t) fullShare (iblk m c 1 t) := by
  rw [← after0_1] <;> rfl
theorem leaves2 (c : Dev nD) (t : Fin cfg0.N) :
    (dats m 0 c).leavesExact 2 t = owns (c : Thread nD τ) (ms2 t) fullShare (iblk m c 2 t) := by
  rw [← after0_2] <;> rfl
theorem leaves3 (c : Dev nD) (t : Fin cfg0.N) :
    (dats m 0 c).leavesExact 3 t = owns (c : Thread nD τ) (ms3 t) fullShare (iblk m c 3 t) := by
  rw [← after0_3] <;> rfl
/-- At a last column tile an output's buffer is left at its column. -/
theorem leaves4 (c : Dev nD) (t : Fin cfg0.N) (hc4 : cond4 (grid0.coords t)) :
    (dats m 0 c).leavesExact 4 t = owns (c : Thread nD τ) (ms4 t) fullShare (termAt m c t) := by
  rw [← after0_4]; unfold Dat.leavesExact; rw [live4 t hc4]
theorem leaves5 (c : Dev nD) (t : Fin cfg0.N) (hc4 : cond4 (grid0.coords t)) :
    (dats m 0 c).leavesExact 5 t = owns (c : Thread nD τ) (ms5 t) fullShare (countAt m c t) := by
  rw [← after0_5]; unfold Dat.leavesExact; rw [live5 t hc4]

set_option maxHeartbeats 4800000 in
/-- The first column tile that meets the diagonal: the grid's first point, the scratch columns at anything. -/
theorem sound_A (c : Dev nD) (t : Fin cfg0.N) (hF : t.val % 8 = 0) (hD : (t.val % 8) / 2 = t.val / 8) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hz : t.val = 0 := by omega
  have hc1 : cond1 (grid0.coords t) := (hcond1 t).mpr hF
  have hc2 : cond2 (grid0.coords t) := (hcond2 t).mpr hD
  have hc3 : ¬cond3 (grid0.coords t) := fun h => (hcond3 t).mp h hD
  have hc4 : ¬cond4 (grid0.coords t) := fun h => (by omega : ¬t.val % 8 = 7) ((hcond4 t).mp h)
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  rw [Dat.leavesExact_idle (dats m 0 c) 4 t (idle4 t hc4) (noFlush4 t hc4),
    Dat.leavesExact_idle (dats m 0 c) 5 t (idle5 t hc4) (noFlush5 t hc4)]
  rw [scAt_first_diag m c t hF hD]
  rw [PhiS_castSucc m c t, PhiS_zero m c _ _ hz, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun_A c (grid0.coords t) _ _ _ _ _ _ _ _ _ _ _ _ _ _ _ _ (rowsBlk m c t) (colsBlk m c t) (famColBlk m c t) (famRowBlk m c t)
    hc1 hc2 hc3 hc4).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [HS0 HS1 Hg]
  · isplitl [HS0 HS1]
    · isplitl [HS0]
      · unfold owns; iexists _; isplitr
        swap; · iexact HS0
        ipureintro
        exact (View.read_writes_eq_canon _ _ _ (scover_A_0 c _ _ _ _ _ _ _ _ _ _ _ _ _ _ _ _ _ _ _ _ _ hc1 hc2 hc3 hc4)).trans
          (piece_A_0 c _ _ _ _ _ _ _ _ _ _ _ _ _ _ _ _ _ _ _ _ _ hc1 hc2 hc3 hc4)
      · unfold owns; iexists _; isplitr
        swap; · iexact HS1
        ipureintro
        exact (View.read_writes_eq_canon _ _ _ (scover_A_1 c _ _ _ _ _ _ _ _ _ _ _ _ _ _ _ _ _ _ _ _ _ hc1 hc2 hc3 hc4)).trans
          (piece_A_1 c _ _ _ _ _ _ _ _ _ _ _ _ _ _ _ _ _ _ _ _ _ hc1 hc2 hc3 hc4)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- A first column tile off the diagonal: not the grid's first point, and what the point before left in the scratch
    columns is forgotten. -/
theorem sound_B (c : Dev nD) (t : Fin cfg0.N) (hF : t.val % 8 = 0) (hD : ¬(t.val % 8) / 2 = t.val / 8) :
    bodyPre m c t ⊢ wp frame (wpE (defs₀ (F := F)) Variants.none c none) Set.univ (bodyAt0 t) (fun _ => bodyPost m c t) := by
  have hz : t.val ≠ 0 := fun h => hD (by rw [h])
  have hc1 : cond1 (grid0.coords t) := (hcond1 t).mpr hF
  have hc2 : ¬cond2 (grid0.coords t) := fun h => hD ((hcond2 t).mp h)
  have hc3 : cond3 (grid0.coords t) := (hcond3 t).mpr hD
  have hc4 : ¬cond4 (grid0.coords t) := fun h => (by omega : ¬t.val % 8 = 7) ((hcond4 t).mp h)
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  rw [Dat.leavesExact_idle (dats m 0 c) 4 t (idle4 t hc4) (noFlush4 t hc4),
    Dat.leavesExact_idle (dats m 0 c) 5 t (idle5 t hc4) (noFlush5 t hc4)]
  rw [scAt_first_off m c t hF hD]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun_B c (grid0.coords t) _ _ _ _ _ _ _ _ _ _ _ _ _ _ _ _ (rowsBlk m c t) (colsBlk m c t) (famColBlk m c t) (famRowBlk m c t)
    hc1 hc2 hc3 hc4).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  iintro ⟨H0, H1, H2, H3, H4, H5, ⟨%es0, HS0⟩, ⟨%es1, HS1⟩⟩
  isplitl [HS0 HS1 Hg]
  · isplitl [HS0 HS1]
    · isplitl [HS0]
      · unfold owns; iexists _; isplitr
        swap; · iexact HS0
        ipureintro
        exact (View.read_writes_eq_canon _ _ _ (scover_B_0 c _ _ _ _ _ _ _ _ _ _ _ _ _ _ _ _ _ _ _ _ _ hc1 hc2 hc3 hc4)).trans
          (piece_B_0 c _ _ _ _ _ _ _ _ _ _ _ _ _ _ _ _ _ _ _ _ _ hc1 hc2 hc3 hc4)
      · unfold owns; iexists _; isplitr
        swap; · iexact HS1
        ipureintro
        exact (View.read_writes_eq_canon _ _ _ (scover_B_1 c _ _ _ _ _ _ _ _ _ _ _ _ _ _ _ _ _ _ _ _ _ hc1 hc2 hc3 hc4)).trans
          (piece_B_1 c _ _ _ _ _ _ _ _ _ _ _ _ _ _ _ _ _ _ _ _ _ hc1 hc2 hc3 hc4)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- A middle column tile that meets the diagonal. -/
theorem sound_C (c : Dev nD) (t : Fin cfg0.N) (hF : ¬t.val % 8 = 0) (hL : ¬t.val % 8 = 7) (hD : (t.val % 8) / 2 = t.val / 8) :
    bodyPre m c t ⊢ wp frame (wpE (defs₀ (F := F)) Variants.none c none) Set.univ (bodyAt0 t) (fun _ => bodyPost m c t) := by
  have hz : t.val ≠ 0 := fun h => hF (by rw [h])
  have hc1 : ¬cond1 (grid0.coords t) := fun h => hF ((hcond1 t).mp h)
  have hc2 : cond2 (grid0.coords t) := (hcond2 t).mpr hD
  have hc3 : ¬cond3 (grid0.coords t) := fun h => (hcond3 t).mp h hD
  have hc4 : ¬cond4 (grid0.coords t) := fun h => hL ((hcond4 t).mp h)
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  rw [Dat.leavesExact_idle (dats m 0 c) 4 t (idle4 t hc4) (noFlush4 t hc4),
    Dat.leavesExact_idle (dats m 0 c) 5 t (idle5 t hc4) (noFlush5 t hc4)]
  rw [scAt_later_diag m c t hF hD]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun_C c (grid0.coords t) _ _ _ _ _ _ _ _ _ _ _ _ _ _ _ _ (rowsBlk m c t) (colsBlk m c t) (famColBlk m c t) (famRowBlk m c t)
    hc1 hc2 hc3 hc4 _ _).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [HS0 HS1 Hg]
  · isplitl [HS0 HS1]
    · isplitl [HS0]
      · unfold owns; iexists _; isplitr
        swap; · iexact HS0
        ipureintro
        exact (View.read_writes_eq_canon _ _ _ (scover_C_0 c _ _ _ _ _ _ _ _ _ _ _ _ _ _ _ _ _ _ _ _ _ hc1 hc2 hc3 hc4 _ _)).trans
          (piece_C_0 c _ _ _ _ _ _ _ _ _ _ _ _ _ _ _ _ _ _ _ _ _ hc1 hc2 hc3 hc4 _ _)
      · unfold owns; iexists _; isplitr
        swap; · iexact HS1
        ipureintro
        exact (View.read_writes_eq_canon _ _ _ (scover_C_1 c _ _ _ _ _ _ _ _ _ _ _ _ _ _ _ _ _ _ _ _ _ hc1 hc2 hc3 hc4 _ _)).trans
          (piece_C_1 c _ _ _ _ _ _ _ _ _ _ _ _ _ _ _ _ _ _ _ _ _ hc1 hc2 hc3 hc4 _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- A middle column tile off the diagonal. -/
theorem sound_D (c : Dev nD) (t : Fin cfg0.N) (hF : ¬t.val % 8 = 0) (hL : ¬t.val % 8 = 7) (hD : ¬(t.val % 8) / 2 = t.val / 8) :
    bodyPre m c t ⊢ wp frame (wpE (defs₀ (F := F)) Variants.none c none) Set.univ (bodyAt0 t) (fun _ => bodyPost m c t) := by
  have hz : t.val ≠ 0 := fun h => hF (by rw [h])
  have hc1 : ¬cond1 (grid0.coords t) := fun h => hF ((hcond1 t).mp h)
  have hc2 : ¬cond2 (grid0.coords t) := fun h => hD ((hcond2 t).mp h)
  have hc3 : cond3 (grid0.coords t) := (hcond3 t).mpr hD
  have hc4 : ¬cond4 (grid0.coords t) := fun h => hL ((hcond4 t).mp h)
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  rw [Dat.leavesExact_idle (dats m 0 c) 4 t (idle4 t hc4) (noFlush4 t hc4),
    Dat.leavesExact_idle (dats m 0 c) 5 t (idle5 t hc4) (noFlush5 t hc4)]
  rw [scAt_later_off m c t hF hD]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun_D c (grid0.coords t) _ _ _ _ _ _ _ _ _ _ _ _ _ _ _ _ (rowsBlk m c t) (colsBlk m c t) (famColBlk m c t) (famRowBlk m c t)
    hc1 hc2 hc3 hc4 _ _).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [HS0 HS1 Hg]
  · isplitl [HS0 HS1]
    · isplitl [HS0]
      · unfold owns; iexists _; isplitr
        swap; · iexact HS0
        ipureintro
        exact (View.read_writes_eq_canon _ _ _ (scover_D_0 c _ _ _ _ _ _ _ _ _ _ _ _ _ _ _ _ _ _ _ _ _ hc1 hc2 hc3 hc4 _ _)).trans
          (piece_D_0 c _ _ _ _ _ _ _ _ _ _ _ _ _ _ _ _ _ _ _ _ _ hc1 hc2 hc3 hc4 _ _)
      · unfold owns; iexists _; isplitr
        swap; · iexact HS1
        ipureintro
        exact (View.read_writes_eq_canon _ _ _ (scover_D_1 c _ _ _ _ _ _ _ _ _ _ _ _ _ _ _ _ _ _ _ _ _ hc1 hc2 hc3 hc4 _ _)).trans
          (piece_D_1 c _ _ _ _ _ _ _ _ _ _ _ _ _ _ _ _ _ _ _ _ _ hc1 hc2 hc3 hc4 _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- The last column tile that meets the diagonal: the outputs' buffers are left at the loss-term and count columns. -/
theorem sound_E (c : Dev nD) (t : Fin cfg0.N) (hL : t.val % 8 = 7) (hD : (t.val % 8) / 2 = t.val / 8) :
    bodyPre m c t ⊢ wp frame (wpE (defs₀ (F := F)) Variants.none c none) Set.univ (bodyAt0 t) (fun _ => bodyPost m c t) := by
  have hF : ¬t.val % 8 = 0 := by omega
  have hz : t.val ≠ 0 := by omega
  have hc1 : ¬cond1 (grid0.coords t) := fun h => hF ((hcond1 t).mp h)
  have hc2 : cond2 (grid0.coords t) := (hcond2 t).mpr hD
  have hc3 : ¬cond3 (grid0.coords t) := fun h => (hcond3 t).mp h hD
  have hc4 : cond4 (grid0.coords t) := (hcond4 t).mpr hL
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4 m c t hc4, leaves5 m c t hc4]
  unfold termAt countAt
  rw [scAt_later_diag m c t hF hD]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun_E c (grid0.coords t) _ _ _ _ _ _ _ _ _ _ _ _ _ _ _ _ (rowsBlk m c t) (colsBlk m c t) (famColBlk m c t) (famRowBlk m c t)
    hc1 hc2 hc3 hc4 _ _).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, ⟨%e4, H4⟩, ⟨%e5, H5⟩, ⟨%es0, HS0⟩, ⟨%es1, HS1⟩⟩
  isplitl [HS0 HS1 Hg]
  · isplitl [HS0 HS1]
    · isplitl [HS0]
      · unfold owns; iexists _; isplitr
        swap; · iexact HS0
        ipureintro
        exact (View.read_writes_eq_canon _ _ _ (scover_E_0 c _ _ _ _ _ _ _ _ _ _ _ _ _ _ _ _ _ _ _ _ _ hc1 hc2 hc3 hc4 _ _)).trans
          (piece_E_0 c _ _ _ _ _ _ _ _ _ _ _ _ _ _ _ _ _ _ _ _ _ hc1 hc2 hc3 hc4 _ _)
      · unfold owns; iexists _; isplitr
        swap; · iexact HS1
        ipureintro
        exact (View.read_writes_eq_canon _ _ _ (scover_E_1 c _ _ _ _ _ _ _ _ _ _ _ _ _ _ _ _ _ _ _ _ _ hc1 hc2 hc3 hc4 _ _)).trans
          (piece_E_1 c _ _ _ _ _ _ _ _ _ _ _ _ _ _ _ _ _ _ _ _ _ hc1 hc2 hc3 hc4 _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro
    exact (View.read_writes_eq_canon _ _ _ (cover_E_4 c _ _ _ _ _ _ _ _ _ _ _ _ _ _ _ _ _ _ _ _ _ hc1 hc2 hc3 hc4 _ _)).trans
      (piece_E_4 c _ _ _ _ _ _ _ _ _ _ _ _ _ _ _ _ _ _ _ _ _ hc1 hc2 hc3 hc4 _ _)
  unfold owns; iexists _; isplitr
  swap; · iexact H5
  ipureintro
  exact (View.read_writes_eq_canon _ _ _ (cover_E_5 c _ _ _ _ _ _ _ _ _ _ _ _ _ _ _ _ _ _ _ _ _ hc1 hc2 hc3 hc4 _ _)).trans
    (piece_E_5 c _ _ _ _ _ _ _ _ _ _ _ _ _ _ _ _ _ _ _ _ _ hc1 hc2 hc3 hc4 _ _)

set_option maxHeartbeats 4800000 in
/-- A last column tile off the diagonal: the outputs' buffers are left at the loss-term and count columns. -/
theorem sound_G (c : Dev nD) (t : Fin cfg0.N) (hL : t.val % 8 = 7) (hD : ¬(t.val % 8) / 2 = t.val / 8) :
    bodyPre m c t ⊢ wp frame (wpE (defs₀ (F := F)) Variants.none c none) Set.univ (bodyAt0 t) (fun _ => bodyPost m c t) := by
  have hF : ¬t.val % 8 = 0 := by omega
  have hz : t.val ≠ 0 := by omega
  have hc1 : ¬cond1 (grid0.coords t) := fun h => hF ((hcond1 t).mp h)
  have hc2 : ¬cond2 (grid0.coords t) := fun h => hD ((hcond2 t).mp h)
  have hc3 : cond3 (grid0.coords t) := (hcond3 t).mpr hD
  have hc4 : cond4 (grid0.coords t) := (hcond4 t).mpr hL
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4 m c t hc4, leaves5 m c t hc4]
  unfold termAt countAt
  rw [scAt_later_off m c t hF hD]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun_G c (grid0.coords t) _ _ _ _ _ _ _ _ _ _ _ _ _ _ _ _ (rowsBlk m c t) (colsBlk m c t) (famColBlk m c t) (famRowBlk m c t)
    hc1 hc2 hc3 hc4 _ _).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, ⟨%e4, H4⟩, ⟨%e5, H5⟩, ⟨%es0, HS0⟩, ⟨%es1, HS1⟩⟩
  isplitl [HS0 HS1 Hg]
  · isplitl [HS0 HS1]
    · isplitl [HS0]
      · unfold owns; iexists _; isplitr
        swap; · iexact HS0
        ipureintro
        exact (View.read_writes_eq_canon _ _ _ (scover_G_0 c _ _ _ _ _ _ _ _ _ _ _ _ _ _ _ _ _ _ _ _ _ hc1 hc2 hc3 hc4 _ _)).trans
          (piece_G_0 c _ _ _ _ _ _ _ _ _ _ _ _ _ _ _ _ _ _ _ _ _ hc1 hc2 hc3 hc4 _ _)
      · unfold owns; iexists _; isplitr
        swap; · iexact HS1
        ipureintro
        exact (View.read_writes_eq_canon _ _ _ (scover_G_1 c _ _ _ _ _ _ _ _ _ _ _ _ _ _ _ _ _ _ _ _ _ hc1 hc2 hc3 hc4 _ _)).trans
          (piece_G_1 c _ _ _ _ _ _ _ _ _ _ _ _ _ _ _ _ _ _ _ _ _ hc1 hc2 hc3 hc4 _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro
    exact (View.read_writes_eq_canon _ _ _ (cover_G_4 c _ _ _ _ _ _ _ _ _ _ _ _ _ _ _ _ _ _ _ _ _ hc1 hc2 hc3 hc4 _ _)).trans
      (piece_G_4 c _ _ _ _ _ _ _ _ _ _ _ _ _ _ _ _ _ _ _ _ _ hc1 hc2 hc3 hc4 _ _)
  unfold owns; iexists _; isplitr
  swap; · iexact H5
  ipureintro
  exact (View.read_writes_eq_canon _ _ _ (cover_G_5 c _ _ _ _ _ _ _ _ _ _ _ _ _ _ _ _ _ _ _ _ _ hc1 hc2 hc3 hc4 _ _)).trans
    (piece_G_5 c _ _ _ _ _ _ _ _ _ _ _ _ _ _ _ _ _ _ _ _ _ hc1 hc2 hc3 hc4 _ _)

/-! ## The six cases together -/

/-- The body at any point: the closed forms say which case the point is in. -/
theorem sound_body (c : Dev nD) (t : Fin cfg0.N) :
    bodyPre m c t ⊢ wp frame (wpE (defs₀ (F := F)) Variants.none c none) Set.univ (bodyAt0 t) (fun _ => bodyPost m c t) := by
  by_cases hD : (t.val % 8) / 2 = t.val / 8
  · by_cases hF : t.val % 8 = 0
    · exact sound_A m c t hF hD
    · by_cases hL : t.val % 8 = 7
      · exact sound_E m c t hL hD
      · exact sound_C m c t hF hL hD
  · by_cases hF : t.val % 8 = 0
    · exact sound_B m c t hF hD
    · by_cases hL : t.val % 8 = 7
      · exact sound_G m c t hL hD
      · exact sound_D m c t hF hL hD

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: what the scratch columns hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

end Cert.Kernel.Hand

end
-- ==== Proof.KB.Exit.lean ====
/-
  What the buffers hold when the region is left and after the host operations that follow it: the two output arrays
  at what the pipeline wrote back into them, every other buffer as the region found it; then the operations after the
  region (the two sums, the maximum with one, the quotient) applied.
-/
import proofs.«417721_j28690381537966_3_alg».proof.Proof.KB.Data

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The row of the whole array that row `p` of point `t`'s row tile is, and the row that row `q` of its column tile is. -/
def rowOf (t : Fin cfg0.N) (p : Fin 2048) : Fin 8192 :=
  ⟨2048 * (t.val / 8) + p.val, by have h : t.val < 32 := lt_of_lt_of_eq t.isLt N_0; have := p.isLt; omega⟩
def colOf (t : Fin cfg0.N) (q : Fin 1024) : Fin 8192 :=
  ⟨1024 * (t.val % 8) + q.val, by have := q.isLt; omega⟩
/-- The last column point of row tile `i`. -/
def lastPt (i : Fin 4) : Fin cfg0.N := ⟨8 * i.val + 7, by rw [show cfg0.N = 32 from N_0]; have := i.isLt; omega⟩

/-- The term column of every row: what the pipeline leaves in the first output array. -/
def termArr (c : Dev nD) : Vec F S8192x1 .f32 := (dats m 0 c).arrAt 4 cfg0.N
/-- The count column of every row: what it leaves in the second. -/
def countArr (c : Dev nD) : Vec F S8192x1 .f32 := (dats m 0 c).arrAt 5 cfg0.N

/-- The buffers' contents when the region is left. -/
def exitVal (c : Dev nD) : Valuation τ sig (Elt F) :=
  Function.update (Function.update (V0 m c) (Proc.devRef .tc main_v17_0) (termArr m c)) (Proc.devRef .tc main_v17_1) (countArr m c)

/-- The buffers' contents after the operations that follow the region. -/
def exitAfter (c : Dev nD) (b : Ref sig .tc) : Buf (Elt F) ((c : Thread nD τ).loc b) :=
  StableHlo.after hostOps1 (exitVal m c) (Proc.devRef .tc b)

end Cert.Kernel.Hand

end
-- ==== Proof.KB.Launch.lean ====
/-
  The launch of the region and the run of @main around it.

  Two of the region's windows read one array — the unit rows, once as the row tile and once as the column tile. The
  pipeline is therefore handed that array split in two halves, one per window; both windows only read it, so both
  halves come back unchanged. The operations after the region (the two sums, the maximum with one, the quotient) read
  only the two output arrays and write only buffers of their own, so they run holding those two arrays and the buffers
  that bypass the region, with the four input windows' arrays set aside.
-/
import proofs.«417721_j28690381537966_3_alg».proof.Proof.KB.Exit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The buffers behind the windows' arrays: five, the unit rows' being two windows'. -/
theorem arrRefs_eq : Finset.univ.image (Pipeline.arrRef spec0) = [main_v14, main_v15, main_v16, main_v17_0, main_v17_1].toFinset := by
  decide

/-- The pipeline's arrays as a chain: the unit rows' array in two halves, the other four whole. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_v14) ↦{fullShare.left} G 0) ∗ (((c.tc : Thread nD τ).loc main_v14) ↦{fullShare.right} G 1)
          ∗ (((c.tc : Thread nD τ).loc main_v15) ↦{fullShare} G 2) ∗ (((c.tc : Thread nD τ).loc main_v16) ↦{fullShare} G 3)
          ∗ (((c.tc : Thread nD τ).loc main_v17_0) ↦{fullShare} G 4) ∗ (((c.tc : Thread nD τ).loc main_v17_1) ↦{fullShare} G 5)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- What the launch hands the pipeline of the arrays' buffers — each whole at the region-entry contents — is the
    pipeline's arrays before the first point: the unit rows' buffer split in its two halves. -/
theorem hsplit (c : Dev nD) :
    (Pipeline.arrBufs spec0 c (V m c) : sProp 𝕄) ⊢ (dats m 0 c).arrays ((dats m 0 c).arrAt · 0) := by
  rw [arrays_chain]
  unfold Pipeline.arrBufs
  rw [bigSep_eq_bigSepL_of_eq [main_v14, main_v15, main_v16, main_v17_0, main_v17_1] arrRefs_eq (by decide)]
  show iprop((((c.tc : Thread nD τ).loc main_v14) ↦{fullShare} V m c main_v14) ∗ (((c.tc : Thread nD τ).loc main_v15) ↦{fullShare} V m c main_v15)
      ∗ (((c.tc : Thread nD τ).loc main_v16) ↦{fullShare} V m c main_v16) ∗ (((c.tc : Thread nD τ).loc main_v17_0) ↦{fullShare} V m c main_v17_0)
      ∗ (((c.tc : Thread nD τ).loc main_v17_1) ↦{fullShare} V m c main_v17_1)) ⊢ _
  iintro ⟨H14, H15, H16, H170, H171⟩
  ihave H14 := (pointsTo_share (PosShare.mem_left_op_right fullShare)).1 $$ H14
  icases H14 with ⟨Hl, Hr⟩
  isplitl [Hl]; · iexact Hl
  isplitl [Hr]; · iexact Hr
  isplitl [H15]; · iexact H15
  isplitl [H16]; · iexact H16
  isplitl [H170]; · iexact H170
  iexact H171

/-! ## The operations after the region -/

theorem v170_not_mem : main_v17_0 ∉ insert main_v17_1 (Pipeline.restRefs sig spec0) := by decide
theorem v171_not_mem : main_v17_1 ∉ Pipeline.restRefs sig spec0 := by decide

/-- The buffers the operations after the region may touch: the two output arrays' and those that bypass the region. -/
def tailSet : Finset (DevRef τ sig) :=
  (insert main_v17_0 (insert main_v17_1 (Pipeline.restRefs sig spec0))).map ⟨Proc.devRef (sig := sig) .tc, Proc.devRef_injective _⟩

theorem mem_tailSet (r : Ref sig .tc) (h : r ∈ insert main_v17_0 (insert main_v17_1 (Pipeline.restRefs sig spec0))) :
    Proc.devRef (τ := τ) .tc r ∈ tailSet := Finset.mem_map_of_mem _ h

/-- That set held at a valuation: the two output arrays' buffers, then the bypassing buffers. -/
theorem held_tailSet (c : Dev nD) (W : Valuation τ sig (Elt F)) :
    (StableHlo.held (c.tc : Thread nD τ) tailSet W : sProp 𝕄)
      = iprop((((c.tc : Thread nD τ).loc main_v17_0) ↦{fullShare} W (Proc.devRef .tc main_v17_0))
          ∗ (((c.tc : Thread nD τ).loc main_v17_1) ↦{fullShare} W (Proc.devRef .tc main_v17_1))
          ∗ bigSep (Pipeline.restRefs sig spec0) fun b => ((c.tc : Thread nD τ).loc b) ↦{fullShare} W (Proc.devRef .tc b)) := by
  unfold StableHlo.held tailSet
  rw [bigSep_map, bigSep_insert v170_not_mem, bigSep_insert v171_not_mem]
  rfl

/-- Every operation after the region stays within that set. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl
  all_goals
    intro b hb
    simp only [StableHlo.nullary_bufs, StableHlo.binary_bufs, Finset.mem_insert, Finset.mem_singleton] at hb
    first
      | (rcases hb with rfl | rfl | rfl <;> exact mem_tailSet _ (by decide))
      | (subst hb; exact mem_tailSet _ (by decide))

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- No operation after the region writes an output array. -/
theorem tail_keeps0 : ∀ op ∈ (hostOps1 : List (HloOp τ sig (Elt F))), Proc.devRef .tc main_v17_0 ∉ op.writes := by
  intro op hop
  simp only [hostOps1, List.mem_cons, List.mem_nil_iff, or_false] at hop
  rcases hop with rfl | rfl | rfl | rfl | rfl | rfl | rfl
  all_goals simp only [StableHlo.nullary_writes, StableHlo.binary_writes, Finset.mem_singleton]; exact StableHlo.devRef_ne_of_ne (by decide)
theorem tail_keeps1 : ∀ op ∈ (hostOps1 : List (HloOp τ sig (Elt F))), Proc.devRef .tc main_v17_1 ∉ op.writes := by
  intro op hop
  simp only [hostOps1, List.mem_cons, List.mem_nil_iff, or_false] at hop
  rcases hop with rfl | rfl | rfl | rfl | rfl | rfl | rfl
  all_goals simp only [StableHlo.nullary_writes, StableHlo.binary_writes, Finset.mem_singleton]; exact StableHlo.devRef_ne_of_ne (by decide)

/-- The exit contents at the two output arrays' buffers and at a bypassing buffer. -/
theorem exitVal_term (c : Dev nD) : exitVal m c (Proc.devRef .tc main_v17_0) = termArr m c := by
  unfold exitVal
  rw [Function.update_of_ne (StableHlo.devRef_ne_of_ne (by decide)), Function.update_self]
theorem exitVal_count (c : Dev nD) : exitVal m c (Proc.devRef .tc main_v17_1) = countArr m c := by
  unfold exitVal
  rw [Function.update_self]
theorem exitVal_rest (c : Dev nD) (b : Ref sig .tc) (hb : b ∈ Pipeline.restRefs sig spec0) :
    exitVal m c (Proc.devRef .tc b) = V m c b := by
  have h0 : b ≠ main_v17_0 := fun e => by subst e; exact absurd hb (by decide)
  have h1 : b ≠ main_v17_1 := fun e => by subst e; exact absurd hb (by decide)
  unfold exitVal
  rw [Function.update_of_ne (StableHlo.devRef_ne_of_ne h1), Function.update_of_ne (StableHlo.devRef_ne_of_ne h0)]

/-- The operations after the region leave the two output arrays as they found them. -/
theorem after_term (c : Dev nD) : StableHlo.after hostOps1 (exitVal m c) (Proc.devRef .tc main_v17_0) = termArr m c :=
  (StableHlo.after_of_forall_not_mem _ _ tail_keeps0).trans (exitVal_term m c)
theorem after_count (c : Dev nD) : StableHlo.after hostOps1 (exitVal m c) (Proc.devRef .tc main_v17_1) = countArr m c :=
  (StableHlo.after_of_forall_not_mem _ _ tail_keeps1).trans (exitVal_count m c)

/-! ## The run -/

section Run

open Idealize.ShloMosaic.Pipeline

local notation "𝔻" => Pipeline.defs (fun q => Cfg.toPCfg (Val := Elt F) (cfgs q)) (defs₀ (F := F))
local notation "𝕍" => Variants.lift Variants.none

set_option maxHeartbeats 2000000 in
set_option backward.isDefEq.respectTransparency.types false in
/-- The operations after the region, from the region's exit — the arrays as the pipeline leaves them, the bypassing
    buffers as the region found them — to the same with the bypassing buffers at what those operations leave. -/
theorem htail (c : Dev nD) (Q' : PUnit → sProp 𝕄) :
    iprop((iprop((dats m 0 c).arrays ((dats m 0 c).arrAt · cfg0.N) ∗ unscopedRestP (Ix := Unit) (Name := ℕ) (U := UR sig nD τ) (Lvl := ℕ) Prefetch.none spec0 c (exitAfter m c)) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Prefetch.none spec0 c (V m c))
      ⊢ wp frame (wpE 𝔻 𝕍 (c.tc : Thread nD τ) none) Set.univ (Pipeline.chain [StableHlo.seq hostOps1]) Q' := by
  rw [arrays_chain, unscopedRestP_none, unscopedRestP_none]
  unfold unscopedRest
  have hW : (StableHlo.held (c.tc : Thread nD τ) tailSet (exitVal m c) : sProp 𝕄)
      = iprop((((c.tc : Thread nD τ).loc main_v17_0) ↦{fullShare} (dats m 0 c).arrAt 4 cfg0.N)
          ∗ (((c.tc : Thread nD τ).loc main_v17_1) ↦{fullShare} (dats m 0 c).arrAt 5 cfg0.N)
          ∗ bigSep (Pipeline.restRefs sig spec0) fun b => ((c.tc : Thread nD τ).loc b) ↦{fullShare} V m c b) := by
    have e : (bigSep (Pipeline.restRefs sig spec0) fun b => (((c.tc : Thread nD τ).loc b) ↦{fullShare} exitVal m c (Proc.devRef .tc b) : sProp 𝕄))
        = bigSep (Pipeline.restRefs sig spec0) fun b => ((c.tc : Thread nD τ).loc b) ↦{fullShare} V m c b :=
      bigSep_congr fun b hb => by rw [exitVal_rest m c b hb]
    rw [held_tailSet, exitVal_term, exitVal_count, e]
    unfold termArr countArr
    rfl
  have hW' : (StableHlo.held (c.tc : Thread nD τ) tailSet (StableHlo.after ([hostOps1] : List (List (HloOp τ sig (Elt F)))).flatten (exitVal m c)) : sProp 𝕄)
      = iprop((((c.tc : Thread nD τ).loc main_v17_0) ↦{fullShare} (dats m 0 c).arrAt 4 cfg0.N)
          ∗ (((c.tc : Thread nD τ).loc main_v17_1) ↦{fullShare} (dats m 0 c).arrAt 5 cfg0.N)
          ∗ bigSep (Pipeline.restRefs sig spec0) fun b => ((c.tc : Thread nD τ).loc b) ↦{fullShare} exitAfter m c b) := by
    rw [held_tailSet, List.flatten_cons, List.flatten_nil, List.append_nil, after_term, after_count]
    unfold termArr countArr exitAfter
    rfl
  have hcont : iprop((iprop(iprop((((c.tc : Thread nD τ).loc main_v14) ↦{fullShare.left} (dats m 0 c).arrAt 0 cfg0.N) ∗ (((c.tc : Thread nD τ).loc main_v14) ↦{fullShare.right} (dats m 0 c).arrAt 1 cfg0.N)
          ∗ (((c.tc : Thread nD τ).loc main_v15) ↦{fullShare} (dats m 0 c).arrAt 2 cfg0.N) ∗ (((c.tc : Thread nD τ).loc main_v16) ↦{fullShare} (dats m 0 c).arrAt 3 cfg0.N)
          ∗ (((c.tc : Thread nD τ).loc main_v17_0) ↦{fullShare} (dats m 0 c).arrAt 4 cfg0.N) ∗ (((c.tc : Thread nD τ).loc main_v17_1) ↦{fullShare} (dats m 0 c).arrAt 5 cfg0.N))
          ∗ bigSep (Pipeline.restRefs sig spec0) fun b => ((c.tc : Thread nD τ).loc b) ↦{fullShare} exitAfter m c b) -∗ Q' ⟨⟩)
        ∗ (((c.tc : Thread nD τ).loc main_v14) ↦{fullShare.left} (dats m 0 c).arrAt 0 cfg0.N) ∗ (((c.tc : Thread nD τ).loc main_v14) ↦{fullShare.right} (dats m 0 c).arrAt 1 cfg0.N)
        ∗ (((c.tc : Thread nD τ).loc main_v15) ↦{fullShare} (dats m 0 c).arrAt 2 cfg0.N) ∗ (((c.tc : Thread nD τ).loc main_v16) ↦{fullShare} (dats m 0 c).arrAt 3 cfg0.N))
      ⊢ iprop((boundary (c.tc : Thread nD τ) ∗ (StableHlo.held (c.tc : Thread nD τ) tailSet (StableHlo.after ([hostOps1] : List (List (HloOp τ sig (Elt F)))).flatten (exitVal m c)) : sProp 𝕄))
          -∗ wp frame (wpE 𝔻 𝕍 (c.tc : Thread nD τ) none) Set.univ (Pipeline.chain []) Q') := by
    rw [chain_nil, wp_pure, hW']
    iintro ⟨Hk, H0, H1, H2, H3⟩ ⟨-, H4, H5, HZ⟩
    imodintro
    iapply Hk
    isplitr [HZ]
    · isplitl [H0]; · iexact H0
      isplitl [H1]; · iexact H1
      isplitl [H2]; · iexact H2
      isplitl [H3]; · iexact H3
      isplitl [H4]; · iexact H4
      iexact H5
    iexact HZ
  rw [← List.append_nil ([StableHlo.seq hostOps1] : List _)]
  iintro ⟨Hk, Hb, ⟨H0, H1, H2, H3, H4, H5⟩, HZ⟩
  ihave Hh : (StableHlo.held (c.tc : Thread nD τ) tailSet (exitVal m c) : sProp 𝕄) $$ [H4 H5 HZ]
  · rw [hW]
    isplitl [H4]; · iexact H4
    isplitl [H5]; · iexact H5
    iexact HZ
  iapply (wp_seqs_then (fun q => Cfg.toPCfg (Val := Elt F) (cfgs q)) (defs₀ (F := F)) Variants.none c tailSet [] [hostOps1] tail_sub tail_fresh (exitVal m c)) $$ [Hb Hh]
  · isplitl [Hb]; · iexact Hb
    iexact Hh
  iapply hcont
  isplitl [Hk]; · iexact Hk
  isplitl [H0]; · iexact H0
  isplitl [H1]; · iexact H1
  isplitl [H2]; · iexact H2
  iexact H3

set_option maxHeartbeats 2000000 in
set_option backward.isDefEq.respectTransparency.types false in
/-- From any memory with zero counters every weakly fair execution of @main terminates, and ends with every array of the
    pipeline at what the proof data computes and every other unscoped buffer at what the operations after the region
    leave — given the body's obligation at every point and the invariant's two ends. -/
theorem run_main_of
    (hbody : ∀ c, BodyObligation (dats (F := F) m 0 c) (defs₀ (F := F)) Variants.none () Set.univ)
    (hin : ∀ c, (ΦA spec0 c : sProp 𝕄) ⊢ (dats m 0 c).Φ 0)
    (hout : ∀ c, (dats m 0 c).Φ (Fin.last cfg0.N) ⊢ (ΦA spec0 c : sProp 𝕄)) :
    θ_run (defs (F := F)) (onTc (τ := τ) (main (F := F))) ⟨m, fun _ => 0, ρ⟩ (FramePost cfgs (dats m) 0 (exitAfter m)) := by
  classical
  have hinj : Function.Injective (cellOf (nD := nD) (τ := τ) (pin (fun q => (cfgs q).toPCfg (Val := Elt F)) (fun q => (cfgs q).toPCfg_adm))) := cellOf_inj
  exact θ_run_region_pf_tail (fun q => (cfgs q).toPCfg (Val := Elt F)) (fun q => (cfgs q).toPCfg_adm) (dats m) () hinj 0 winFacts₀0
    (OwnSemFacts.none spec0) (PreFacts.none _) emb₁ (defs₀ (F := F)) Variants.none m ρ main
    (fun _ => chain [StableHlo.seq hostOps1]) (fun c => (hbody c).loose)
    block_pos0 arr_whole0 stage_whole0 (fun _ _ => rfl)
    (G := fun _ => iprop(emp)) (u₀ := initOf (cells (pin (fun q => (cfgs q).toPCfg (Val := Elt F)) (fun q => (cfgs q).toPCfg_adm)) hinj) (launchToks (pin (fun q => (cfgs q).toPCfg (Val := Elt F)) (fun q => (cfgs q).toPCfg_adm)) hinj))
    (hu₀ := by
      iintro Hu; imodintro
      isplitl [Hu]; · iapply (show (ownU _ : sProp 𝕄) ⊢ BI.own (emb₁ (initOf (cells (pin (fun q => (cfgs q).toPCfg (Val := Elt F)) (fun q => (cfgs q).toPCfg_adm)) hinj) (launchToks (pin (fun q => (cfgs q).toPCfg (Val := Elt F)) (fun q => (cfgs q).toPCfg_adm)) hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (exitAfter m c))
    (hX := fun c => by
      iintro ⟨HU, -, -, -, Hp, -⟩; imodintro
      isplitl [Hp]; · iexists _; iexact Hp
      iexact HU)
    (hin := fun c => (show _ ⊢ (ΦA spec0 c : sProp 𝕄) by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := htail m)
    (QY := fun c s => ∀ b ∈ restRefs sig spec0, s.mem ((c.tc : Thread nD τ).loc b) = exitAfter m c b)
    (hY := fun c s' => by
      rw [unscopedRestP_none]; unfold unscopedRest
      iintro ⟨-, HU, HSI⟩
      imodintro
      iapply (pointsTo_read_all (restRefs sig spec0) (fun b => (c.tc : Thread nD τ).loc b) (exitAfter m c) s')
      isplitl [HU] <;> iassumption)
    (hQ := fun s h c => ⟨(h c).1, (h c).2.2⟩)

end Run

end Cert.Kernel.Hand

end
-- ==== Proof.KB.Frame.lean ====
/-
  What the run of @main says of the two argument arrays and of the result: no host operation before or after the region
  writes an argument, and no window stages one, so both end as launched; the result is the buffer the last operation
  after the region writes.
-/
import proofs.«417721_j28690381537966_3_alg».proof.Proof.KB.Launch

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- No host operation before the region writes the embeddings: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.reshape_writes,
      StableHlo.TRef.nullary, StableHlo.TRef.unary, StableHlo.TRef.binary, StableHlo.TRef.ternary, Finset.mem_singleton]
    repeat' apply And.intro
    all_goals exact StableHlo.devRef_ne_of_ne (by decide)))

/-- Nor the labels. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.reshape_writes,
      StableHlo.TRef.nullary, StableHlo.TRef.unary, StableHlo.TRef.binary, StableHlo.TRef.ternary, Finset.mem_singleton]
    repeat' apply And.intro
    all_goals exact StableHlo.devRef_ne_of_ne (by decide)))

theorem tail_keeps (b : Ref sig .tc) (h0 : b ≠ main_cst) (h1 : b ≠ main_v18) (h2 : b ≠ main_cst_6) (h3 : b ≠ main_v19) (h4 : b ≠ main_cst_7)
    (h5 : b ≠ main_v20) (h6 : b ≠ main_v21) : ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl
  all_goals simp only [StableHlo.nullary_writes, StableHlo.binary_writes, Finset.mem_singleton]
  · exact StableHlo.devRef_ne_of_ne h0
  · exact StableHlo.devRef_ne_of_ne h1
  · exact StableHlo.devRef_ne_of_ne h2
  · exact StableHlo.devRef_ne_of_ne h3
  · exact StableHlo.devRef_ne_of_ne h4
  · exact StableHlo.devRef_ne_of_ne h5
  · exact StableHlo.devRef_ne_of_ne h6

/-- The arguments after the operations that follow the region: as launched. -/
theorem exit_main_arg0 (c : Dev nD) : exitAfter m c main_arg0 = m ((c : Thread nD τ).loc main_arg0) :=
  (StableHlo.after_of_forall_not_mem (b := Proc.devRef .tc main_arg0) _ _
      (tail_keeps main_arg0 (by decide) (by decide) (by decide) (by decide) (by decide) (by decide) (by decide))).trans
    ((exitVal_rest m c main_arg0 (Pipeline.mem_restRefs_of main_arg0 (by decide) (by decide))).trans (V_main_arg0 m c))
theorem exit_main_arg1 (c : Dev nD) : exitAfter m c main_arg1 = m ((c : Thread nD τ).loc main_arg1) :=
  (StableHlo.after_of_forall_not_mem (b := Proc.devRef .tc main_arg1) _ _
      (tail_keeps main_arg1 (by decide) (by decide) (by decide) (by decide) (by decide) (by decide) (by decide))).trans
    ((exitVal_rest m c main_arg1 (Pipeline.mem_restRefs_of main_arg1 (by decide) (by decide))).trans (V_main_arg1 m c))

/-- From the run's post: the result buffer at what the operations after the region leave in it, the arguments as launched. -/
theorem post_of (h : θ_run (defs (F := F)) (onTc (τ := τ) (main (F := F))) ⟨m, fun _ => 0, ρ⟩ (Pipeline.FramePost cfgs (dats m) 0 (exitAfter m))) :
    θ_run (defs (F := F)) (onTc (τ := τ) (main (F := F))) ⟨m, fun _ => 0, ρ⟩ (fun r => ∀ c : Dev nD,
      r.2.mem ((c.tc : Thread nD τ).loc main_v21) = exitAfter m c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v21 (Pipeline.mem_restRefs_of main_v21 (by decide) (by decide)),
     ((h c).2 main_arg0 (Pipeline.mem_restRefs_of main_arg0 (by decide) (by decide))).trans (exit_main_arg0 m c),
     ((h c).2 main_arg1 (Pipeline.mem_restRefs_of main_arg1 (by decide) (by decide))).trans (exit_main_arg1 m c)⟩) h

end Cert.Kernel.Hand

end
-- ==== Proof.KB.Run.lean ====
/-
  The run of @main and the frame: every weakly fair execution terminates with every array of the pipeline at what the
  proof data computes, every other unscoped buffer at what the operations after the region leave — in particular
  the two arguments as launched.
-/
import proofs.«417721_j28690381537966_3_alg».proof.Proof.KB.Body
import proofs.«417721_j28690381537966_3_alg».proof.Proof.KB.Frame

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem run_main :
    θ_run (defs (F := F)) (onTc (τ := τ) (main (F := F))) ⟨m, fun _ => 0, ρ⟩ (Pipeline.FramePost cfgs (dats m) 0 (exitAfter m)) :=
  run_main_of m ρ (body_obligation m) (hin m) (hout m)

/-- The result buffer at what the operations after the region leave in it, the arguments as launched. -/
theorem run_post :
    θ_run (defs (F := F)) (onTc (τ := τ) (main (F := F))) ⟨m, fun _ => 0, ρ⟩ (fun r => ∀ c : Dev nD,
      r.2.mem ((c.tc : Thread nD τ).loc main_v21) = exitAfter m c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  post_of m ρ (run_main m ρ)

/-- The frame: @main runs to the end, nothing faulting, and leaves its two arguments as launched. -/
theorem frame :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_post m ρ)

end Cert.Kernel.Hand

end
-- ==== Proof.KI.Data.lean ====
/-
  What the kernel's region is entered with and what it holds from point to point.

  The grid is 4 × 8: point `t` is row tile `t / 8` (2048 rows) against column tile `t % 8` (1024 rows). At each
  point the body holds in two scratch columns, per row of the row tile, the least similarity met so far to a
  same-family row and the greatest met so far to an other-family row: both are reset at the first column tile
  (`t % 8 = 0`, to the sentinels `3` and `-3`), updated from the tile's similarities — with the diagonal left out
  of "same family" on the two tiles `t % 8 ∈ {2 (t / 8), 2 (t / 8) + 1}` that can meet it — and at the last column
  tile (`t % 8 = 7`) turned into the row's loss term and its count, the two outputs.
  `scAt` is that pair of columns after each point, as a recursion on the point over the body's named payloads.
-/
import proofs.«417721_j28690381537966_3_alg».proof.Proof.Gen.KernelIdeal.Launch
import proofs.«417721_j28690381537966_3_alg».proof.Proof.Gen.KernelIdeal.Skeleton
import proofs.«417721_j28690381537966_3_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the host operations before it. -/
abbrev V0 (c : Dev nD) : Valuation τ sig (Elt F) :=
  StableHlo.after (List.flatten [hostOps0, hostOps0_1, hostOps0_2, hostOps0_3, hostOps0_4, hostOps0_5]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is its host operations, the region, and the host operations after it: it reduces to the region continued
    by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5] [hostOps1]
    (by simp only [List.Forall]; exact ⟨hostOps0_sub, hostOps0_1_sub, hostOps0_2_sub, hostOps0_3_sub, hostOps0_4_sub, hostOps0_5_sub⟩)
    (by simp only [List.Forall]; exact ⟨hostOps0_fresh, hostOps0_1_fresh, hostOps0_2_fresh, hostOps0_3_fresh, hostOps0_4_fresh, hostOps0_5_fresh⟩)
    main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types: the row tile of the unit rows, the column tile of the
    unit rows, the row tile's family codes (a column), the column tile's family codes (a row). -/
abbrev rowsBlk (c : Dev nD) (t : Fin cfg0.N) : Vec F S2048x256 .bf16 := iblk m c 0 t
abbrev colsBlk (c : Dev nD) (t : Fin cfg0.N) : Vec F S1024x256 .bf16 := iblk m c 1 t
abbrev famColBlk (c : Dev nD) (t : Fin cfg0.N) : Vec F S2048x1 .i32 := iblk m c 2 t
abbrev famRowBlk (c : Dev nD) (t : Fin cfg0.N) : Vec F S1x1024 .i32 := iblk m c 3 t

/-! ## The two scratch columns after each point -/

/-- One point's update of the two scratch columns `s` (the least same-family similarity, the greatest other-family
    similarity, so far): on a tile that can meet the diagonal the update that leaves the diagonal out, else the plain one. -/
def stepS (diag : Bool) (i : grid0.Coords) (x0 : Vec F S2048x256 .bf16) (x1 : Vec F S1024x256 .bf16) (x2 : Vec F S2048x1 .i32)
    (x3 : Vec F S1x1024 .i32) (s : Vec F S2048x1 .f32 × Vec F S2048x1 .f32) : Vec F S2048x1 .f32 × Vec F S2048x1 .f32 :=
  match diag with
  | true => (k0_pay5 i x0 x1 x2 x3 s.1, k0_pay6 x0 x1 x2 x3 s.2)
  | false => (k0_pay7 x0 x1 x2 x3 s.1, k0_pay8 x0 x1 x2 x3 s.2)

/-- Whether point `n`'s tile can meet the diagonal: column tile `n % 8` against row tile `n / 8`. -/
def onDiag (n : ℕ) : Bool := decide ((n % 8) / 2 = n / 8)

/-- The two scratch columns after the body at position `n`: reset to the sentinels at the first column tile, then updated. -/
def scAt (c : Dev nD) : (n : ℕ) → n < cfg0.N → Vec F S2048x1 .f32 × Vec F S2048x1 .f32
  | 0, hn => stepS (onDiag 0) (grid0.coords ⟨0, hn⟩) (rowsBlk m c ⟨0, hn⟩) (colsBlk m c ⟨0, hn⟩) (famColBlk m c ⟨0, hn⟩) (famRowBlk m c ⟨0, hn⟩)
      (k0_pay1 (F := F), k0_pay2 (F := F))
  | n + 1, hn => stepS (onDiag (n + 1)) (grid0.coords ⟨n + 1, hn⟩) (rowsBlk m c ⟨n + 1, hn⟩) (colsBlk m c ⟨n + 1, hn⟩) (famColBlk m c ⟨n + 1, hn⟩) (famRowBlk m c ⟨n + 1, hn⟩)
      (if (n + 1) % 8 = 0 then (k0_pay1 (F := F), k0_pay2 (F := F)) else scAt c n (Nat.lt_of_succ_lt hn))

/-- What the scratch columns hold when the body's updates at point `t` start: the sentinels at a first column tile,
    else what the point before left. -/
def scIn (c : Dev nD) (t : Fin cfg0.N) : Vec F S2048x1 .f32 × Vec F S2048x1 .f32 :=
  if t.val % 8 = 0 then (k0_pay1 (F := F), k0_pay2 (F := F)) else scAt m c (t.val - 1) (Nat.lt_of_le_of_lt (Nat.sub_le _ _) t.isLt)

theorem scAt_eq (c : Dev nD) (t : Fin cfg0.N) :
    scAt m c t.val t.isLt = stepS (onDiag t.val) (grid0.coords t) (rowsBlk m c t) (colsBlk m c t) (famColBlk m c t) (famRowBlk m c t) (scIn m c t) := by
  obtain ⟨n, hn⟩ := t
  cases n with
  | zero => rfl
  | succ n => rfl

/-- The loss-term column and the count column of the row tile, as the last column tile's point writes them. -/
def termAt (c : Dev nD) (t : Fin cfg0.N) : Vec F S2048x1 .f32 := k0_pay10 (scAt m c t.val t.isLt).1 (scAt m c t.val t.isLt).2
def countAt (c : Dev nD) (t : Fin cfg0.N) : Vec F S2048x1 .f32 := k0_pay11 (scAt m c t.val t.isLt).1 (scAt m c t.val t.isLt).2

/-! ## The region's invariant and the proof data -/

abbrev scM0 : Memref sig .tc .vmem S2048x1 .f32 := Memref.whole cc0_scratch0
abbrev scM1 : Memref sig .tc .vmem S2048x1 .f32 := Memref.whole cc0_scratch1

/-- Before the first point the two scratch buffers hold anything; afterwards what the point before left. The generator
    register is at some state throughout. -/
def PhiS (c : Dev nD) : (n : ℕ) → n ≤ cfg0.N → sProp 𝕄
  | 0, _ => Pipeline.ΦA spec0 c
  | n + 1, hn => iprop(iprop(owns (c : Thread nD τ) scM0 fullShare ((scAt m c n hn).1) ∗ owns (c : Thread nD τ) scM1 fullShare ((scAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare ((scAt m c n hn).1) ∗ owns (c : Thread nD τ) scM1 fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scM0 fullShare ((scAt m c (n - 1) (by omega)).1) ∗ owns (c : Thread nD τ) scM1 fullShare ((scAt m c (n - 1) (by omega)).2)) ∗ (∃ r, prngReg c r)) := by
  cases n with
  | zero => exact absurd rfl hz
  | succ n => rfl

/-- The class's invariant with the two scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The proof data: the arrays as the region finds them; after the body each input's buffer at its block, the two
    outputs' at the term and count columns; the invariant `PhiS`; the unit rows' array, which two windows read, held half
    by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => termAt m c t
    | ⟨5, _⟩ => countAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = termAt m c t := by dsimp only [dats]
theorem after0_5 (c : Dev nD) (t : Fin cfg0.N) : (dats m 0 c).after 5 t = countAt m c t := by dsimp only [dats]

end Cert.KernelIdeal.Hand

end
-- ==== Proof.KI.Conds.lean ====
/-
  The body's four branches, decided over the grid, and where the two outputs are idle.

  At point `t` (row tile `t / 8`, column tile `t % 8`) the body resets the two scratch columns when the column
  tile is the first, updates them leaving the diagonal out when the column tile's 1024 rows overlap the row tile's
  2048 rows (`(t % 8) / 2 = t / 8`) and plainly when they do not, and writes the two outputs when the column tile is
  the last.
-/
import proofs.«417721_j28690381537966_3_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- `1#1` exactly when the column tile's rows `[1024 j, 1024 j + 1024)` and the row tile's rows
    `[2048 i, 2048 i + 2048)` overlap, as the body computes it from the coordinates `(i, j)`. -/
abbrev meets (i : grid0.Coords) : BitVec 1 :=
  Scalar.andi
    (Scalar.cmpi .slt (Scalar.muli (BitVec.ofNat 32 (i 1).val) 1024#32)
      (Scalar.addi (Scalar.muli (BitVec.ofNat 32 (i 0).val) 2048#32) 2048#32))
    (Scalar.cmpi .sgt (Scalar.addi (Scalar.muli (BitVec.ofNat 32 (i 1).val) 1024#32) 1024#32)
      (Scalar.muli (BitVec.ofNat 32 (i 0).val) 2048#32))

/-- The first branch: the column tile is the first. -/
abbrev cond1 (i : grid0.Coords) : Prop :=
  Scalar.cmpi .ne (Scalar.extui (Scalar.cmpi .eq (BitVec.ofNat 32 (i 1).val) 0#32) : BitVec 32) 0#32 = 1#1
/-- The second branch: the tiles overlap. -/
abbrev cond2 (i : grid0.Coords) : Prop := Scalar.cmpi .ne (Scalar.extui (meets i) : BitVec 32) 0#32 = 1#1
/-- The third branch: they do not. -/
abbrev cond3 (i : grid0.Coords) : Prop :=
  Scalar.cmpi .ne (Scalar.extui (Scalar.xori (meets i) 1#1) : BitVec 32) 0#32 = 1#1
/-- The fourth branch: the column tile is the last. -/
abbrev cond4 (i : grid0.Coords) : Prop := k0_cond4 i = 1#1

theorem hcond1 : ∀ t : Fin cfg0.N, cond1 (grid0.coords t) ↔ t.val % 8 = 0 :=
  (by decide +kernel : ∀ t : Fin grid0.N, cond1 (grid0.coords t) ↔ t.val % 8 = 0)
theorem hcond2 : ∀ t : Fin cfg0.N, cond2 (grid0.coords t) ↔ (t.val % 8) / 2 = t.val / 8 :=
  (by decide +kernel : ∀ t : Fin grid0.N, cond2 (grid0.coords t) ↔ (t.val % 8) / 2 = t.val / 8)
theorem hcond3 : ∀ t : Fin cfg0.N, cond3 (grid0.coords t) ↔ ¬((t.val % 8) / 2 = t.val / 8) :=
  (by decide +kernel : ∀ t : Fin grid0.N, cond3 (grid0.coords t) ↔ ¬((t.val % 8) / 2 = t.val / 8))
theorem hcond4 : ∀ t : Fin cfg0.N, cond4 (grid0.coords t) ↔ t.val % 8 = 7 :=
  (by decide +kernel : ∀ t : Fin grid0.N, cond4 (grid0.coords t) ↔ t.val % 8 = 7)

/-! ## Where the outputs are idle -/

/-- Away from the last column tile the two outputs are idle and not written back; at it they are live. -/
theorem idle4 : ∀ t : Fin cfg0.N, ¬cond4 (grid0.coords t) → cfg0.idle 4 (grid0.coords t) = true := by decide +kernel
theorem idle5 : ∀ t : Fin cfg0.N, ¬cond4 (grid0.coords t) → cfg0.idle 5 (grid0.coords t) = true := by decide +kernel
theorem noFlush4 : ∀ t : Fin cfg0.N, ¬cond4 (grid0.coords t) → (cfg0.win 4).flush t = false := by decide +kernel
theorem noFlush5 : ∀ t : Fin cfg0.N, ¬cond4 (grid0.coords t) → (cfg0.win 5).flush t = false := by decide +kernel
theorem live4 : ∀ t : Fin cfg0.N, cond4 (grid0.coords t) → cfg0.idle 4 (grid0.coords t) = false := by decide +kernel
theorem live5 : ∀ t : Fin cfg0.N, cond4 (grid0.coords t) → cfg0.idle 5 (grid0.coords t) = false := by decide +kernel

/-- The offsets of every load and store of the body: none. -/
theorem hz : (![0, 0] : Fin 2 → Nat) = fun _ => 0 := funext fun a => by fin_cases a <;> rfl

end Cert.KernelIdeal.Hand

end
-- ==== Proof.KI.Runs.lean ====
/-
  The body run once per control case. A point is in the first, a middle or the last column tile, and its tile
  meets the diagonal or not: six cases. In each the body, on whole staging buffers holding the four input blocks, leaves
  the inputs as they were and the two scratch columns with the case's stores written; away from the last column tile
  the two outputs' buffers are handed back untouched, at it they get one store each. What the stores leave, read
  back, is the case's payload over the blocks and over what the scratch columns held (the sentinels at a first column tile).
-/
import proofs.«417721_j28690381537966_3_alg».proof.Proof.KI.Conds
import Idealize.ShloMosaic.Lib.Ring
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (a2 : Memref sig .tc .vmem S2048x256 .bf16) (h2 : a2.IsWhole) (a3 : Memref sig .tc .vmem S1024x256 .bf16) (h3 : a3.IsWhole)
  (a4 : Memref sig .tc .vmem S2048x1 .i32) (h4 : a4.IsWhole) (a5 : Memref sig .tc .vmem S1x1024 .i32) (h5 : a5.IsWhole)
  (a6 : Memref sig .tc .vmem S2048x1 .f32) (h6 : a6.IsWhole) (a7 : Memref sig .tc .vmem S2048x1 .f32) (h7 : a7.IsWhole)
  (a8 : Memref sig .tc .vmem S2048x1 .f32) (h8 : a8.IsWhole) (a9 : Memref sig .tc .vmem S2048x1 .f32) (h9 : a9.IsWhole)
  (x0 : Vec F S2048x256 .bf16) (x1 : Vec F S1024x256 .bf16) (x2 : Vec F S2048x1 .i32) (x3 : Vec F S1x1024 .i32)

/-! ## The first column tile that meets the diagonal -/

set_option maxHeartbeats 1000000 in
/-- Both scratch columns, whatever they held, are reset to the sentinels and then get the update that leaves the
    diagonal out of "same family"; the outputs untouched. -/
noncomputable def kernelRun_A (hc1 : cond1 i) (hc2 : cond2 i) (hc3 : ¬cond3 i) (hc4 : ¬cond4 i) :
    Σ' (LS0 : List (View.Piece (Elt F) S2048x1 .f32)), { LS1 : List (View.Piece (Elt F) S2048x1 .f32) //
      ∀ (xi4 xi5 : Vec F S2048x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xi4 ∗ owns (c : Thread nD τ) a7 fullShare xi5
            ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xi4 ∗ owns (c : Thread nD τ) a7 fullShare xi5
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5
    sl_exec (disch := first | exact hc1 | exact hc2 | exact hc3 | exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    iexists _; iexact HS1

theorem scover_A_0 (hc1 : cond1 i) (hc2 : cond2 i) (hc3 : ¬cond3 i) (hc4 : ¬cond4 i) (y : S2048x1.Idx) :
    ∃ pc ∈ (kernelRun_A c i a2 h2 a3 h3 a4 h4 a5 h5 a6 h6 a7 h7 a8 h8 a9 h9 x0 x1 x2 x3 hc1 hc2 hc3 hc4).1, y ∈ pc.1.set :=
  View.cover_of_tiledL _ S2048x1.size (by sl_kernel_rfl) y
theorem scover_A_1 (hc1 : cond1 i) (hc2 : cond2 i) (hc3 : ¬cond3 i) (hc4 : ¬cond4 i) (y : S2048x1.Idx) :
    ∃ pc ∈ (kernelRun_A c i a2 h2 a3 h3 a4 h4 a5 h5 a6 h6 a7 h7 a8 h8 a9 h9 x0 x1 x2 x3 hc1 hc2 hc3 hc4).2.1, y ∈ pc.1.set :=
  View.cover_of_tiledL _ S2048x1.size (by sl_kernel_rfl) y

/-- Read back, the first scratch column holds the minimum update without the diagonal of the sentinel. -/
theorem piece_A_0 (hc1 : cond1 i) (hc2 : cond2 i) (hc3 : ¬cond3 i) (hc4 : ¬cond4 i) :
    View.canon (kernelRun_A c i a2 h2 a3 h3 a4 h4 a5 h5 a6 h6 a7 h7 a8 h8 a9 h9 x0 x1 x2 x3 hc1 hc2 hc3 hc4).1
      = k0_pay5 i x0 x1 x2 x3 (k0_pay1 (F := F)) := by
  unfold kernelRun_A
  dsimp only
  sl_unfold_words
  rw [View.canon_cons_unit_zero (S := S2048x1) hz]
  simp only [View.readCov_unit_zero (S := S2048x1) _ hz, View.readAt_eq_ld, h2.read_unread, h3.read_unread, h4.read_unread, h5.read_unread,
    View.ld_unit_zero (S := S2048x256) hz, View.ld_unit_zero (S := S1024x256) hz, View.ld_unit_zero (S := S2048x1) hz,
    View.ld_unit_zero (S := S1x1024) hz]
/-- The second scratch column holds the maximum update of the sentinel. -/
theorem piece_A_1 (hc1 : cond1 i) (hc2 : cond2 i) (hc3 : ¬cond3 i) (hc4 : ¬cond4 i) :
    View.canon (kernelRun_A c i a2 h2 a3 h3 a4 h4 a5 h5 a6 h6 a7 h7 a8 h8 a9 h9 x0 x1 x2 x3 hc1 hc2 hc3 hc4).2.1
      = k0_pay6 x0 x1 x2 x3 (k0_pay2 (F := F)) := by
  unfold kernelRun_A
  dsimp only
  sl_unfold_words
  rw [View.canon_cons_unit_zero (S := S2048x1) hz]
  simp only [View.readCov_unit_zero (S := S2048x1) _ hz, View.readAt_eq_ld, h2.read_unread, h3.read_unread, h4.read_unread, h5.read_unread,
    View.ld_unit_zero (S := S2048x256) hz, View.ld_unit_zero (S := S1024x256) hz, View.ld_unit_zero (S := S2048x1) hz,
    View.ld_unit_zero (S := S1x1024) hz]

/-! ## A first column tile off the diagonal -/

set_option maxHeartbeats 1000000 in
/-- Both scratch columns, whatever they held, are reset to the sentinels and then get the plain update; the outputs
    untouched. -/
noncomputable def kernelRun_B (hc1 : cond1 i) (hc2 : ¬cond2 i) (hc3 : cond3 i) (hc4 : ¬cond4 i) :
    Σ' (LS0 : List (View.Piece (Elt F) S2048x1 .f32)), { LS1 : List (View.Piece (Elt F) S2048x1 .f32) //
      ∀ (xi4 xi5 : Vec F S2048x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xi4 ∗ owns (c : Thread nD τ) a7 fullShare xi5
            ∗ (∃ d, owns (c : Thread nD τ) a8 fullShare d) ∗ (∃ d, owns (c : Thread nD τ) a9 fullShare d)
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xi4 ∗ owns (c : Thread nD τ) a7 fullShare xi5
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5
    sl_exec (disch := first | exact hc1 | exact hc2 | exact hc3 | exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    iexists _; iexact HS1

theorem scover_B_0 (hc1 : cond1 i) (hc2 : ¬cond2 i) (hc3 : cond3 i) (hc4 : ¬cond4 i) (y : S2048x1.Idx) :
    ∃ pc ∈ (kernelRun_B c i a2 h2 a3 h3 a4 h4 a5 h5 a6 h6 a7 h7 a8 h8 a9 h9 x0 x1 x2 x3 hc1 hc2 hc3 hc4).1, y ∈ pc.1.set :=
  View.cover_of_tiledL _ S2048x1.size (by sl_kernel_rfl) y
theorem scover_B_1 (hc1 : cond1 i) (hc2 : ¬cond2 i) (hc3 : cond3 i) (hc4 : ¬cond4 i) (y : S2048x1.Idx) :
    ∃ pc ∈ (kernelRun_B c i a2 h2 a3 h3 a4 h4 a5 h5 a6 h6 a7 h7 a8 h8 a9 h9 x0 x1 x2 x3 hc1 hc2 hc3 hc4).2.1, y ∈ pc.1.set :=
  View.cover_of_tiledL _ S2048x1.size (by sl_kernel_rfl) y

/-- Read back, the first scratch column holds the plain minimum update of the sentinel. -/
theorem piece_B_0 (hc1 : cond1 i) (hc2 : ¬cond2 i) (hc3 : cond3 i) (hc4 : ¬cond4 i) :
    View.canon (kernelRun_B c i a2 h2 a3 h3 a4 h4 a5 h5 a6 h6 a7 h7 a8 h8 a9 h9 x0 x1 x2 x3 hc1 hc2 hc3 hc4).1
      = k0_pay7 x0 x1 x2 x3 (k0_pay1 (F := F)) := by
  unfold kernelRun_B
  dsimp only
  sl_unfold_words
  rw [View.canon_cons_unit_zero (S := S2048x1) hz]
  simp only [View.readCov_unit_zero (S := S2048x1) _ hz, View.readAt_eq_ld, h2.read_unread, h3.read_unread, h4.read_unread, h5.read_unread,
    View.ld_unit_zero (S := S2048x256) hz, View.ld_unit_zero (S := S1024x256) hz, View.ld_unit_zero (S := S2048x1) hz,
    View.ld_unit_zero (S := S1x1024) hz]
/-- The second scratch column holds the plain maximum update of the sentinel. -/
theorem piece_B_1 (hc1 : cond1 i) (hc2 : ¬cond2 i) (hc3 : cond3 i) (hc4 : ¬cond4 i) :
    View.canon (kernelRun_B c i a2 h2 a3 h3 a4 h4 a5 h5 a6 h6 a7 h7 a8 h8 a9 h9 x0 x1 x2 x3 hc1 hc2 hc3 hc4).2.1
      = k0_pay8 x0 x1 x2 x3 (k0_pay2 (F := F)) := by
  unfold kernelRun_B
  dsimp only
  sl_unfold_words
  rw [View.canon_cons_unit_zero (S := S2048x1) hz]
  simp only [View.readCov_unit_zero (S := S2048x1) _ hz, View.readAt_eq_ld, h2.read_unread, h3.read_unread, h4.read_unread, h5.read_unread,
    View.ld_unit_zero (S := S2048x256) hz, View.ld_unit_zero (S := S1024x256) hz, View.ld_unit_zero (S := S2048x1) hz,
    View.ld_unit_zero (S := S1x1024) hz]

/-! ## A middle column tile that meets the diagonal -/

set_option maxHeartbeats 1000000 in
/-- The update of both scratch columns that leaves the diagonal out of "same family"; the outputs untouched. -/
noncomputable def kernelRun_C (hc1 : ¬cond1 i) (hc2 : cond2 i) (hc3 : ¬cond3 i) (hc4 : ¬cond4 i) (xs0 xs1 : Vec F S2048x1 .f32) :
    Σ' (LS0 : List (View.Piece (Elt F) S2048x1 .f32)), { LS1 : List (View.Piece (Elt F) S2048x1 .f32) //
      ∀ (xi4 xi5 : Vec F S2048x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xi4 ∗ owns (c : Thread nD τ) a7 fullShare xi5
            ∗ owns (c : Thread nD τ) a8 fullShare xs0 ∗ owns (c : Thread nD τ) a9 fullShare xs1
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xi4 ∗ owns (c : Thread nD τ) a7 fullShare xi5
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hfs0; obtain rfl := h9.eq_unread hfs1
    sl_exec (disch := first | exact hc1 | exact hc2 | exact hc3 | exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    iexists _; iexact HS1

theorem scover_C_0 (hc1 : ¬cond1 i) (hc2 : cond2 i) (hc3 : ¬cond3 i) (hc4 : ¬cond4 i) (xs0 xs1 : Vec F S2048x1 .f32) (y : S2048x1.Idx) :
    ∃ pc ∈ (kernelRun_C c i a2 h2 a3 h3 a4 h4 a5 h5 a6 h6 a7 h7 a8 h8 a9 h9 x0 x1 x2 x3 hc1 hc2 hc3 hc4 xs0 xs1).1, y ∈ pc.1.set :=
  View.cover_of_tiledL _ S2048x1.size (by sl_kernel_rfl) y
theorem scover_C_1 (hc1 : ¬cond1 i) (hc2 : cond2 i) (hc3 : ¬cond3 i) (hc4 : ¬cond4 i) (xs0 xs1 : Vec F S2048x1 .f32) (y : S2048x1.Idx) :
    ∃ pc ∈ (kernelRun_C c i a2 h2 a3 h3 a4 h4 a5 h5 a6 h6 a7 h7 a8 h8 a9 h9 x0 x1 x2 x3 hc1 hc2 hc3 hc4 xs0 xs1).2.1, y ∈ pc.1.set :=
  View.cover_of_tiledL _ S2048x1.size (by sl_kernel_rfl) y

/-- Read back, the first scratch column holds the minimum update without the diagonal of what it held. -/
theorem piece_C_0 (hc1 : ¬cond1 i) (hc2 : cond2 i) (hc3 : ¬cond3 i) (hc4 : ¬cond4 i) (xs0 xs1 : Vec F S2048x1 .f32) :
    View.canon (kernelRun_C c i a2 h2 a3 h3 a4 h4 a5 h5 a6 h6 a7 h7 a8 h8 a9 h9 x0 x1 x2 x3 hc1 hc2 hc3 hc4 xs0 xs1).1
      = k0_pay5 i x0 x1 x2 x3 xs0 := by
  unfold kernelRun_C
  dsimp only
  sl_unfold_words
  rw [View.canon_unit_zero hz]
  simp only [View.readAt_eq_ld, h2.read_unread, h3.read_unread, h4.read_unread, h5.read_unread, h8.read_unread,
    View.ld_unit_zero (S := S2048x256) hz, View.ld_unit_zero (S := S1024x256) hz, View.ld_unit_zero (S := S2048x1) hz,
    View.ld_unit_zero (S := S1x1024) hz]
/-- The second scratch column holds the maximum update of what it held. -/
theorem piece_C_1 (hc1 : ¬cond1 i) (hc2 : cond2 i) (hc3 : ¬cond3 i) (hc4 : ¬cond4 i) (xs0 xs1 : Vec F S2048x1 .f32) :
    View.canon (kernelRun_C c i a2 h2 a3 h3 a4 h4 a5 h5 a6 h6 a7 h7 a8 h8 a9 h9 x0 x1 x2 x3 hc1 hc2 hc3 hc4 xs0 xs1).2.1
      = k0_pay6 x0 x1 x2 x3 xs1 := by
  unfold kernelRun_C
  dsimp only
  sl_unfold_words
  rw [View.canon_unit_zero hz]
  simp only [View.readAt_eq_ld, h2.read_unread, h3.read_unread, h4.read_unread, h5.read_unread, h9.read_unread,
    View.ld_unit_zero (S := S2048x256) hz, View.ld_unit_zero (S := S1024x256) hz, View.ld_unit_zero (S := S2048x1) hz,
    View.ld_unit_zero (S := S1x1024) hz]

/-! ## A middle column tile off the diagonal -/

set_option maxHeartbeats 1000000 in
/-- The plain update of both scratch columns from what they held; the outputs untouched. -/
noncomputable def kernelRun_D (hc1 : ¬cond1 i) (hc2 : ¬cond2 i) (hc3 : cond3 i) (hc4 : ¬cond4 i) (xs0 xs1 : Vec F S2048x1 .f32) :
    Σ' (LS0 : List (View.Piece (Elt F) S2048x1 .f32)), { LS1 : List (View.Piece (Elt F) S2048x1 .f32) //
      ∀ (xi4 xi5 : Vec F S2048x1 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare xi4 ∗ owns (c : Thread nD τ) a7 fullShare xi5
            ∗ owns (c : Thread nD τ) a8 fullShare xs0 ∗ owns (c : Thread nD τ) a9 fullShare xs1
            ∗ (iprop(owns (c : Thread nD τ) a2 fullShare x0 ∗ owns (c : Thread nD τ) a3 fullShare x1 ∗ owns (c : Thread nD τ) a4 fullShare x2
                ∗ owns (c : Thread nD τ) a5 fullShare x3 ∗ owns (c : Thread nD τ) a6 fullShare xi4 ∗ owns (c : Thread nD τ) a7 fullShare xi5
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, fun xi4 xi5 E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hfs0; obtain rfl := h9.eq_unread hfs1
    sl_exec (disch := first | exact hc1 | exact hc2 | exact hc3 | exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    iexists _; iexact HS1

theorem scover_D_0 (hc1 : ¬cond1 i) (hc2 : ¬cond2 i) (hc3 : cond3 i) (hc4 : ¬cond4 i) (xs0 xs1 : Vec F S2048x1 .f32) (y : S2048x1.Idx) :
    ∃ pc ∈ (kernelRun_D c i a2 h2 a3 h3 a4 h4 a5 h5 a6 h6 a7 h7 a8 h8 a9 h9 x0 x1 x2 x3 hc1 hc2 hc3 hc4 xs0 xs1).1, y ∈ pc.1.set :=
  View.cover_of_tiledL _ S2048x1.size (by sl_kernel_rfl) y
theorem scover_D_1 (hc1 : ¬cond1 i) (hc2 : ¬cond2 i) (hc3 : cond3 i) (hc4 : ¬cond4 i) (xs0 xs1 : Vec F S2048x1 .f32) (y : S2048x1.Idx) :
    ∃ pc ∈ (kernelRun_D c i a2 h2 a3 h3 a4 h4 a5 h5 a6 h6 a7 h7 a8 h8 a9 h9 x0 x1 x2 x3 hc1 hc2 hc3 hc4 xs0 xs1).2.1, y ∈ pc.1.set :=
  View.cover_of_tiledL _ S2048x1.size (by sl_kernel_rfl) y

/-- Read back, the first scratch column holds the plain minimum update of what it held. -/
theorem piece_D_0 (hc1 : ¬cond1 i) (hc2 : ¬cond2 i) (hc3 : cond3 i) (hc4 : ¬cond4 i) (xs0 xs1 : Vec F S2048x1 .f32) :
    View.canon (kernelRun_D c i a2 h2 a3 h3 a4 h4 a5 h5 a6 h6 a7 h7 a8 h8 a9 h9 x0 x1 x2 x3 hc1 hc2 hc3 hc4 xs0 xs1).1
      = k0_pay7 x0 x1 x2 x3 xs0 := by
  unfold kernelRun_D
  dsimp only
  sl_unfold_words
  rw [View.canon_unit_zero hz]
  simp only [View.readAt_eq_ld, h2.read_unread, h3.read_unread, h4.read_unread, h5.read_unread, h8.read_unread,
    View.ld_unit_zero (S := S2048x256) hz, View.ld_unit_zero (S := S1024x256) hz, View.ld_unit_zero (S := S2048x1) hz,
    View.ld_unit_zero (S := S1x1024) hz]
/-- The second scratch column holds the plain maximum update of what it held. -/
theorem piece_D_1 (hc1 : ¬cond1 i) (hc2 : ¬cond2 i) (hc3 : cond3 i) (hc4 : ¬cond4 i) (xs0 xs1 : Vec F S2048x1 .f32) :
    View.canon (kernelRun_D c i a2 h2 a3 h3 a4 h4 a5 h5 a6 h6 a7 h7 a8 h8 a9 h9 x0 x1 x2 x3 hc1 hc2 hc3 hc4 xs0 xs1).2.1
      = k0_pay8 x0 x1 x2 x3 xs1 := by
  unfold kernelRun_D
  dsimp only
  sl_unfold_words
  rw [View.canon_unit_zero hz]
  simp only [View.readAt_eq_ld, h2.read_unread, h3.read_unread, h4.read_unread, h5.read_unread, h9.read_unread,
    View.ld_unit_zero (S := S2048x256) hz, View.ld_unit_zero (S := S1024x256) hz, View.ld_unit_zero (S := S2048x1) hz,
    View.ld_unit_zero (S := S1x1024) hz]

/-! ## The last column tile that meets the diagonal -/

set_option maxHeartbeats 1000000 in
/-- The update of both scratch columns that leaves the diagonal out of "same family", then the two outputs' buffers, whatever they held, get the loss-term
    column and the count column of the updated scratch columns. -/
noncomputable def kernelRun_E (hc1 : ¬cond1 i) (hc2 : cond2 i) (hc3 : ¬cond3 i) (hc4 : cond4 i) (xs0 xs1 : Vec F S2048x1 .f32) :
    Σ' (L4 : List (View.Piece (Elt F) S2048x1 .f32)) (L5 : List (View.Piece (Elt F) S2048x1 .f32))
      (LS0 : List (View.Piece (Elt F) S2048x1 .f32)), { LS1 : List (View.Piece (Elt F) S2048x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d) ∗ (∃ d, owns (c : Thread nD τ) a7 fullShare d)
            ∗ owns (c : Thread nD τ) a8 fullShare xs0 ∗ owns (c : Thread nD τ) a9 fullShare xs1
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3
    obtain rfl := h8.eq_unread hfs0; obtain rfl := h9.eq_unread hfs1
    sl_exec (disch := first | exact hc1 | exact hc2 | exact hc3 | exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [HS0]; · iexists _; iexact HS0
    iexists _; iexact HS1

theorem cover_E_4 (hc1 : ¬cond1 i) (hc2 : cond2 i) (hc3 : ¬cond3 i) (hc4 : cond4 i) (xs0 xs1 : Vec F S2048x1 .f32) (y : S2048x1.Idx) :
    ∃ pc ∈ (kernelRun_E c i a2 h2 a3 h3 a4 h4 a5 h5 a6 h6 a7 h7 a8 h8 a9 h9 x0 x1 x2 x3 hc1 hc2 hc3 hc4 xs0 xs1).1, y ∈ pc.1.set :=
  View.cover_of_tiledL _ S2048x1.size (by sl_kernel_rfl) y
theorem cover_E_5 (hc1 : ¬cond1 i) (hc2 : cond2 i) (hc3 : ¬cond3 i) (hc4 : cond4 i) (xs0 xs1 : Vec F S2048x1 .f32) (y : S2048x1.Idx) :
    ∃ pc ∈ (kernelRun_E c i a2 h2 a3 h3 a4 h4 a5 h5 a6 h6 a7 h7 a8 h8 a9 h9 x0 x1 x2 x3 hc1 hc2 hc3 hc4 xs0 xs1).2.1, y ∈ pc.1.set :=
  View.cover_of_tiledL _ S2048x1.size (by sl_kernel_rfl) y
theorem scover_E_0 (hc1 : ¬cond1 i) (hc2 : cond2 i) (hc3 : ¬cond3 i) (hc4 : cond4 i) (xs0 xs1 : Vec F S2048x1 .f32) (y : S2048x1.Idx) :
    ∃ pc ∈ (kernelRun_E c i a2 h2 a3 h3 a4 h4 a5 h5 a6 h6 a7 h7 a8 h8 a9 h9 x0 x1 x2 x3 hc1 hc2 hc3 hc4 xs0 xs1).2.2.1, y ∈ pc.1.set :=
  View.cover_of_tiledL _ S2048x1.size (by sl_kernel_rfl) y
theorem scover_E_1 (hc1 : ¬cond1 i) (hc2 : cond2 i) (hc3 : ¬cond3 i) (hc4 : cond4 i) (xs0 xs1 : Vec F S2048x1 .f32) (y : S2048x1.Idx) :
    ∃ pc ∈ (kernelRun_E c i a2 h2 a3 h3 a4 h4 a5 h5 a6 h6 a7 h7 a8 h8 a9 h9 x0 x1 x2 x3 hc1 hc2 hc3 hc4 xs0 xs1).2.2.2.1, y ∈ pc.1.set :=
  View.cover_of_tiledL _ S2048x1.size (by sl_kernel_rfl) y

/-- Read back, the first output's buffer holds the loss-term column of the two updated scratch columns. -/
theorem piece_E_4 (hc1 : ¬cond1 i) (hc2 : cond2 i) (hc3 : ¬cond3 i) (hc4 : cond4 i) (xs0 xs1 : Vec F S2048x1 .f32) :
    View.canon (kernelRun_E c i a2 h2 a3 h3 a4 h4 a5 h5 a6 h6 a7 h7 a8 h8 a9 h9 x0 x1 x2 x3 hc1 hc2 hc3 hc4 xs0 xs1).1
      = k0_pay10 (k0_pay5 i x0 x1 x2 x3 xs0) (k0_pay6 x0 x1 x2 x3 xs1) := by
  unfold kernelRun_E
  dsimp only
  sl_unfold_words
  rw [View.canon_unit_zero hz]
  simp only [View.readCov_unit_zero (S := S2048x1) _ hz, View.readAt_eq_ld, h2.read_unread, h3.read_unread, h4.read_unread, h5.read_unread,
    h8.read_unread, h9.read_unread,
    View.ld_unit_zero (S := S2048x256) hz, View.ld_unit_zero (S := S1024x256) hz, View.ld_unit_zero (S := S2048x1) hz,
    View.ld_unit_zero (S := S1x1024) hz]
/-- The second output's buffer holds their count column. -/
theorem piece_E_5 (hc1 : ¬cond1 i) (hc2 : cond2 i) (hc3 : ¬cond3 i) (hc4 : cond4 i) (xs0 xs1 : Vec F S2048x1 .f32) :
    View.canon (kernelRun_E c i a2 h2 a3 h3 a4 h4 a5 h5 a6 h6 a7 h7 a8 h8 a9 h9 x0 x1 x2 x3 hc1 hc2 hc3 hc4 xs0 xs1).2.1
      = k0_pay11 (k0_pay5 i x0 x1 x2 x3 xs0) (k0_pay6 x0 x1 x2 x3 xs1) := by
  unfold kernelRun_E
  dsimp only
  sl_unfold_words
  rw [View.canon_unit_zero hz]
  simp only [View.readCov_unit_zero (S := S2048x1) _ hz, View.readAt_eq_ld, h2.read_unread, h3.read_unread, h4.read_unread, h5.read_unread,
    h8.read_unread, h9.read_unread,
    View.ld_unit_zero (S := S2048x256) hz, View.ld_unit_zero (S := S1024x256) hz, View.ld_unit_zero (S := S2048x1) hz,
    View.ld_unit_zero (S := S1x1024) hz]
/-- The first scratch column holds the minimum update without the diagonal of what it held. -/
theorem piece_E_0 (hc1 : ¬cond1 i) (hc2 : cond2 i) (hc3 : ¬cond3 i) (hc4 : cond4 i) (xs0 xs1 : Vec F S2048x1 .f32) :
    View.canon (kernelRun_E c i a2 h2 a3 h3 a4 h4 a5 h5 a6 h6 a7 h7 a8 h8 a9 h9 x0 x1 x2 x3 hc1 hc2 hc3 hc4 xs0 xs1).2.2.1
      = k0_pay5 i x0 x1 x2 x3 xs0 := by
  unfold kernelRun_E
  dsimp only
  sl_unfold_words
  rw [View.canon_unit_zero hz]
  simp only [View.readAt_eq_ld, h2.read_unread, h3.read_unread, h4.read_unread, h5.read_unread, h8.read_unread,
    View.ld_unit_zero (S := S2048x256) hz, View.ld_unit_zero (S := S1024x256) hz, View.ld_unit_zero (S := S2048x1) hz,
    View.ld_unit_zero (S := S1x1024) hz]
/-- The second scratch column holds the maximum update of what it held. -/
theorem piece_E_1 (hc1 : ¬cond1 i) (hc2 : cond2 i) (hc3 : ¬cond3 i) (hc4 : cond4 i) (xs0 xs1 : Vec F S2048x1 .f32) :
    View.canon (kernelRun_E c i a2 h2 a3 h3 a4 h4 a5 h5 a6 h6 a7 h7 a8 h8 a9 h9 x0 x1 x2 x3 hc1 hc2 hc3 hc4 xs0 xs1).2.2.2.1
      = k0_pay6 x0 x1 x2 x3 xs1 := by
  unfold kernelRun_E
  dsimp only
  sl_unfold_words
  rw [View.canon_unit_zero hz]
  simp only [View.readAt_eq_ld, h2.read_unread, h3.read_unread, h4.read_unread, h5.read_unread, h9.read_unread,
    View.ld_unit_zero (S := S2048x256) hz, View.ld_unit_zero (S := S1024x256) hz, View.ld_unit_zero (S := S2048x1) hz,
    View.ld_unit_zero (S := S1x1024) hz]

/-! ## A last column tile off the diagonal -/

set_option maxHeartbeats 1000000 in
/-- The plain update of both scratch columns, then the two outputs' buffers, whatever they held, get the loss-term
    column and the count column of the updated scratch columns. -/
noncomputable def kernelRun_G (hc1 : ¬cond1 i) (hc2 : ¬cond2 i) (hc3 : cond3 i) (hc4 : cond4 i) (xs0 xs1 : Vec F S2048x1 .f32) :
    Σ' (L4 : List (View.Piece (Elt F) S2048x1 .f32)) (L5 : List (View.Piece (Elt F) S2048x1 .f32))
      (LS0 : List (View.Piece (Elt F) S2048x1 .f32)), { LS1 : List (View.Piece (Elt F) S2048x1 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ (∃ d, owns (c : Thread nD τ) a6 fullShare d) ∗ (∃ d, owns (c : Thread nD τ) a7 fullShare d)
            ∗ owns (c : Thread nD τ) a8 fullShare xs0 ∗ owns (c : Thread nD τ) a9 fullShare xs1
            ∗ (iprop(owns (c : Thread nD τ) a2 fullShare x0 ∗ owns (c : Thread nD τ) a3 fullShare x1 ∗ owns (c : Thread nD τ) a4 fullShare x2
                ∗ owns (c : Thread nD τ) a5 fullShare x3
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)) -∗ K ⟨⟩))
          ⊢ wp frame (wpE (defs₀ (F := F)) Variants.none c none) E (cc0__kernel i a2 h2 a3 h3 a4 h4 a5 h5 a6 h6 a7 h7 a8 h8 a9 h9) K } := by
  refine ⟨?_, ?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := h2.eq_unread hf0; obtain rfl := h3.eq_unread hf1; obtain rfl := h4.eq_unread hf2; obtain rfl := h5.eq_unread hf3
    obtain rfl := h8.eq_unread hfs0; obtain rfl := h9.eq_unread hfs1
    sl_exec (disch := first | exact hc1 | exact hc2 | exact hc3 | exact hc4)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    isplitl [H5]; · iexists _; iexact H5
    isplitl [HS0]; · iexists _; iexact HS0
    iexists _; iexact HS1

theorem cover_G_4 (hc1 : ¬cond1 i) (hc2 : ¬cond2 i) (hc3 : cond3 i) (hc4 : cond4 i) (xs0 xs1 : Vec F S2048x1 .f32) (y : S2048x1.Idx) :
    ∃ pc ∈ (kernelRun_G c i a2 h2 a3 h3 a4 h4 a5 h5 a6 h6 a7 h7 a8 h8 a9 h9 x0 x1 x2 x3 hc1 hc2 hc3 hc4 xs0 xs1).1, y ∈ pc.1.set :=
  View.cover_of_tiledL _ S2048x1.size (by sl_kernel_rfl) y
theorem cover_G_5 (hc1 : ¬cond1 i) (hc2 : ¬cond2 i) (hc3 : cond3 i) (hc4 : cond4 i) (xs0 xs1 : Vec F S2048x1 .f32) (y : S2048x1.Idx) :
    ∃ pc ∈ (kernelRun_G c i a2 h2 a3 h3 a4 h4 a5 h5 a6 h6 a7 h7 a8 h8 a9 h9 x0 x1 x2 x3 hc1 hc2 hc3 hc4 xs0 xs1).2.1, y ∈ pc.1.set :=
  View.cover_of_tiledL _ S2048x1.size (by sl_kernel_rfl) y
theorem scover_G_0 (hc1 : ¬cond1 i) (hc2 : ¬cond2 i) (hc3 : cond3 i) (hc4 : cond4 i) (xs0 xs1 : Vec F S2048x1 .f32) (y : S2048x1.Idx) :
    ∃ pc ∈ (kernelRun_G c i a2 h2 a3 h3 a4 h4 a5 h5 a6 h6 a7 h7 a8 h8 a9 h9 x0 x1 x2 x3 hc1 hc2 hc3 hc4 xs0 xs1).2.2.1, y ∈ pc.1.set :=
  View.cover_of_tiledL _ S2048x1.size (by sl_kernel_rfl) y
theorem scover_G_1 (hc1 : ¬cond1 i) (hc2 : ¬cond2 i) (hc3 : cond3 i) (hc4 : cond4 i) (xs0 xs1 : Vec F S2048x1 .f32) (y : S2048x1.Idx) :
    ∃ pc ∈ (kernelRun_G c i a2 h2 a3 h3 a4 h4 a5 h5 a6 h6 a7 h7 a8 h8 a9 h9 x0 x1 x2 x3 hc1 hc2 hc3 hc4 xs0 xs1).2.2.2.1, y ∈ pc.1.set :=
  View.cover_of_tiledL _ S2048x1.size (by sl_kernel_rfl) y

/-- Read back, the first output's buffer holds the loss-term column of the two updated scratch columns. -/
theorem piece_G_4 (hc1 : ¬cond1 i) (hc2 : ¬cond2 i) (hc3 : cond3 i) (hc4 : cond4 i) (xs0 xs1 : Vec F S2048x1 .f32) :
    View.canon (kernelRun_G c i a2 h2 a3 h3 a4 h4 a5 h5 a6 h6 a7 h7 a8 h8 a9 h9 x0 x1 x2 x3 hc1 hc2 hc3 hc4 xs0 xs1).1
      = k0_pay10 (k0_pay7 x0 x1 x2 x3 xs0) (k0_pay8 x0 x1 x2 x3 xs1) := by
  unfold kernelRun_G
  dsimp only
  sl_unfold_words
  rw [View.canon_unit_zero hz]
  simp only [View.readCov_unit_zero (S := S2048x1) _ hz, View.readAt_eq_ld, h2.read_unread, h3.read_unread, h4.read_unread, h5.read_unread,
    h8.read_unread, h9.read_unread,
    View.ld_unit_zero (S := S2048x256) hz, View.ld_unit_zero (S := S1024x256) hz, View.ld_unit_zero (S := S2048x1) hz,
    View.ld_unit_zero (S := S1x1024) hz]
/-- The second output's buffer holds their count column. -/
theorem piece_G_5 (hc1 : ¬cond1 i) (hc2 : ¬cond2 i) (hc3 : cond3 i) (hc4 : cond4 i) (xs0 xs1 : Vec F S2048x1 .f32) :
    View.canon (kernelRun_G c i a2 h2 a3 h3 a4 h4 a5 h5 a6 h6 a7 h7 a8 h8 a9 h9 x0 x1 x2 x3 hc1 hc2 hc3 hc4 xs0 xs1).2.1
      = k0_pay11 (k0_pay7 x0 x1 x2 x3 xs0) (k0_pay8 x0 x1 x2 x3 xs1) := by
  unfold kernelRun_G
  dsimp only
  sl_unfold_words
  rw [View.canon_unit_zero hz]
  simp only [View.readCov_unit_zero (S := S2048x1) _ hz, View.readAt_eq_ld, h2.read_unread, h3.read_unread, h4.read_unread, h5.read_unread,
    h8.read_unread, h9.read_unread,
    View.ld_unit_zero (S := S2048x256) hz, View.ld_unit_zero (S := S1024x256) hz, View.ld_unit_zero (S := S2048x1) hz,
    View.ld_unit_zero (S := S1x1024) hz]
/-- The first scratch column holds the plain minimum update of what it held. -/
theorem piece_G_0 (hc1 : ¬cond1 i) (hc2 : ¬cond2 i) (hc3 : cond3 i) (hc4 : cond4 i) (xs0 xs1 : Vec F S2048x1 .f32) :
    View.canon (kernelRun_G c i a2 h2 a3 h3 a4 h4 a5 h5 a6 h6 a7 h7 a8 h8 a9 h9 x0 x1 x2 x3 hc1 hc2 hc3 hc4 xs0 xs1).2.2.1
      = k0_pay7 x0 x1 x2 x3 xs0 := by
  unfold kernelRun_G
  dsimp only
  sl_unfold_words
  rw [View.canon_unit_zero hz]
  simp only [View.readAt_eq_ld, h2.read_unread, h3.read_unread, h4.read_unread, h5.read_unread, h8.read_unread,
    View.ld_unit_zero (S := S2048x256) hz, View.ld_unit_zero (S := S1024x256) hz, View.ld_unit_zero (S := S2048x1) hz,
    View.ld_unit_zero (S := S1x1024) hz]
/-- The second scratch column holds the plain maximum update of what it held. -/
theorem piece_G_1 (hc1 : ¬cond1 i) (hc2 : ¬cond2 i) (hc3 : cond3 i) (hc4 : cond4 i) (xs0 xs1 : Vec F S2048x1 .f32) :
    View.canon (kernelRun_G c i a2 h2 a3 h3 a4 h4 a5 h5 a6 h6 a7 h7 a8 h8 a9 h9 x0 x1 x2 x3 hc1 hc2 hc3 hc4 xs0 xs1).2.2.2.1
      = k0_pay8 x0 x1 x2 x3 xs1 := by
  unfold kernelRun_G
  dsimp only
  sl_unfold_words
  rw [View.canon_unit_zero hz]
  simp only [View.readAt_eq_ld, h2.read_unread, h3.read_unread, h4.read_unread, h5.read_unread, h9.read_unread,
    View.ld_unit_zero (S := S2048x256) hz, View.ld_unit_zero (S := S1024x256) hz, View.ld_unit_zero (S := S2048x1) hz,
    View.ld_unit_zero (S := S1x1024) hz]

end Cert.KernelIdeal.Hand

end
-- ==== Proof.KI.Body.lean ====
/-
  The body obligation of the region. At every point each input's staging buffer holds the window's block there; the
  point's coordinates select one of six cases (first, middle or last column tile; meeting the diagonal or not), and
  the case's run leaves the two scratch columns at the recursion `scAt` of the point: the case's update of the
  sentinels at a first column tile, of what the point before left otherwise. Away from the last column tile the two
  outputs' buffers come back untouched (the windows are idle there and not written back); at it they hold the
  loss-term column and the count column of the updated scratch columns. Before the first point the scratch
  columns hold anything, and after the last what they hold is forgotten.
-/
import proofs.«417721_j28690381537966_3_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body finds in the inputs' buffers -/

/-- Each input's current staging buffer holds its block at every point, fetched there or not: the row tile's two
    windows are fetched only at a first column tile and their block index does not move until the next one. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The scratch columns after a point, case by case -/

theorem onDiag_true {n : ℕ} (h : (n % 8) / 2 = n / 8) : onDiag n = true := decide_eq_true h
theorem onDiag_false {n : ℕ} (h : ¬(n % 8) / 2 = n / 8) : onDiag n = false := decide_eq_false h

/-- At a first column tile the update starts from the sentinels; -/
theorem scAt_first_diag (c : Dev nD) (t : Fin cfg0.N) (hF : t.val % 8 = 0) (hD : (t.val % 8) / 2 = t.val / 8) :
    scAt m c t.val t.isLt
      = (k0_pay5 (grid0.coords t) (rowsBlk m c t) (colsBlk m c t) (famColBlk m c t) (famRowBlk m c t) (k0_pay1 (F := F)),
         k0_pay6 (rowsBlk m c t) (colsBlk m c t) (famColBlk m c t) (famRowBlk m c t) (k0_pay2 (F := F))) := by
  rw [scAt_eq, onDiag_true hD]; unfold scIn; rw [if_pos hF]; rfl
theorem scAt_first_off (c : Dev nD) (t : Fin cfg0.N) (hF : t.val % 8 = 0) (hD : ¬(t.val % 8) / 2 = t.val / 8) :
    scAt m c t.val t.isLt
      = (k0_pay7 (rowsBlk m c t) (colsBlk m c t) (famColBlk m c t) (famRowBlk m c t) (k0_pay1 (F := F)),
         k0_pay8 (rowsBlk m c t) (colsBlk m c t) (famColBlk m c t) (famRowBlk m c t) (k0_pay2 (F := F))) := by
  rw [scAt_eq, onDiag_false hD]; unfold scIn; rw [if_pos hF]; rfl
/-- at a later one from what the point before left. -/
theorem scAt_later_diag (c : Dev nD) (t : Fin cfg0.N) (hF : ¬t.val % 8 = 0) (hD : (t.val % 8) / 2 = t.val / 8) :
    scAt m c t.val t.isLt
      = (k0_pay5 (grid0.coords t) (rowsBlk m c t) (colsBlk m c t) (famColBlk m c t) (famRowBlk m c t)
            (scAt m c (t.val - 1) (Nat.lt_of_le_of_lt (Nat.sub_le _ _) t.isLt)).1,
         k0_pay6 (rowsBlk m c t) (colsBlk m c t) (famColBlk m c t) (famRowBlk m c t)
            (scAt m c (t.val - 1) (Nat.lt_of_le_of_lt (Nat.sub_le _ _) t.isLt)).2) := by
  rw [scAt_eq, onDiag_true hD]; unfold scIn; rw [if_neg hF]; rfl
theorem scAt_later_off (c : Dev nD) (t : Fin cfg0.N) (hF : ¬t.val % 8 = 0) (hD : ¬(t.val % 8) / 2 = t.val / 8) :
    scAt m c t.val t.isLt
      = (k0_pay7 (rowsBlk m c t) (colsBlk m c t) (famColBlk m c t) (famRowBlk m c t)
            (scAt m c (t.val - 1) (Nat.lt_of_le_of_lt (Nat.sub_le _ _) t.isLt)).1,
         k0_pay8 (rowsBlk m c t) (colsBlk m c t) (famColBlk m c t) (famRowBlk m c t)
            (scAt m c (t.val - 1) (Nat.lt_of_le_of_lt (Nat.sub_le _ _) t.isLt)).2) := by
  rw [scAt_eq, onDiag_false hD]; unfold scIn; rw [if_neg hF]; rfl

/-! ## The body obligation at a point -/

/-- Each window's current staging memref at point `t`, as the pipeline passes it to the body. -/
abbrev ms0 (t : Fin cfg0.N) : Memref sig .tc .vmem S2048x256 .bf16 := win0_0.stage (cfg0.slots t 0)
abbrev ms1 (t : Fin cfg0.N) : Memref sig .tc .vmem S1024x256 .bf16 := win0_1.stage (cfg0.slots t 1)
abbrev ms2 (t : Fin cfg0.N) : Memref sig .tc .vmem S2048x1 .i32 := win0_2.stage (cfg0.slots t 2)
abbrev ms3 (t : Fin cfg0.N) : Memref sig .tc .vmem S1x1024 .i32 := win0_3.stage (cfg0.slots t 3)
abbrev ms4 (t : Fin cfg0.N) : Memref sig .tc .vmem S2048x1 .f32 := win0_4.stage (cfg0.slots t 4)
abbrev ms5 (t : Fin cfg0.N) : Memref sig .tc .vmem S2048x1 .f32 := win0_5.stage (cfg0.slots t 5)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- An input's buffer is left at its block. -/
theorem leaves0 (c : Dev nD) (t : Fin cfg0.N) :
    (dats m 0 c).leavesExact 0 t = owns (c : Thread nD τ) (ms0 t) fullShare (iblk m c 0 t) := by
  rw [← after0_0] <;> rfl
theorem leaves1 (c : Dev nD) (t : Fin cfg0.N) :
    (dats m 0 c).leavesExact 1 t = owns (c : Thread nD τ) (ms1 t) fullShare (iblk m c 1 t) := by
  rw [← after0_1] <;> rfl
theorem leaves2 (c : Dev nD) (t : Fin cfg0.N) :
    (dats m 0 c).leavesExact 2 t = owns (c : Thread nD τ) (ms2 t) fullShare (iblk m c 2 t) := by
  rw [← after0_2] <;> rfl
theorem leaves3 (c : Dev nD) (t : Fin cfg0.N) :
    (dats m 0 c).leavesExact 3 t = owns (c : Thread nD τ) (ms3 t) fullShare (iblk m c 3 t) := by
  rw [← after0_3] <;> rfl
/-- At a last column tile an output's buffer is left at its column. -/
theorem leaves4 (c : Dev nD) (t : Fin cfg0.N) (hc4 : cond4 (grid0.coords t)) :
    (dats m 0 c).leavesExact 4 t = owns (c : Thread nD τ) (ms4 t) fullShare (termAt m c t) := by
  rw [← after0_4]; unfold Dat.leavesExact; rw [live4 t hc4]
theorem leaves5 (c : Dev nD) (t : Fin cfg0.N) (hc4 : cond4 (grid0.coords t)) :
    (dats m 0 c).leavesExact 5 t = owns (c : Thread nD τ) (ms5 t) fullShare (countAt m c t) := by
  rw [← after0_5]; unfold Dat.leavesExact; rw [live5 t hc4]

set_option maxHeartbeats 4800000 in
/-- The first column tile that meets the diagonal: the grid's first point, the scratch columns at anything. -/
theorem sound_A (c : Dev nD) (t : Fin cfg0.N) (hF : t.val % 8 = 0) (hD : (t.val % 8) / 2 = t.val / 8) :
    bodyPre m c t ⊢ wp frame (wpE (defs₀ (F := F)) Variants.none c none) Set.univ (bodyAt0 t) (fun _ => bodyPost m c t) := by
  have hN : t.val < 32 := lt_of_lt_of_eq t.isLt (show cfg0.N = 32 from N_0)
  have hz : t.val = 0 := by omega
  have hc1 : cond1 (grid0.coords t) := (hcond1 t).mpr hF
  have hc2 : cond2 (grid0.coords t) := (hcond2 t).mpr hD
  have hc3 : ¬cond3 (grid0.coords t) := fun h => (hcond3 t).mp h hD
  have hc4 : ¬cond4 (grid0.coords t) := fun h => (by omega : ¬t.val % 8 = 7) ((hcond4 t).mp h)
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  rw [Dat.leavesExact_idle (dats m 0 c) 4 t (idle4 t hc4) (noFlush4 t hc4),
    Dat.leavesExact_idle (dats m 0 c) 5 t (idle5 t hc4) (noFlush5 t hc4)]
  rw [scAt_first_diag m c t hF hD]
  rw [PhiS_castSucc m c t, PhiS_zero m c _ _ hz, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun_A c (grid0.coords t) _ _ _ _ _ _ _ _ _ _ _ _ _ _ _ _ (rowsBlk m c t) (colsBlk m c t) (famColBlk m c t) (famRowBlk m c t)
    hc1 hc2 hc3 hc4).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [HS0 HS1 Hg]
  · isplitl [HS0 HS1]
    · isplitl [HS0]
      · unfold owns; iexists _; isplitr
        swap; · iexact HS0
        ipureintro
        exact (View.read_writes_eq_canon _ _ _ (scover_A_0 c _ _ _ _ _ _ _ _ _ _ _ _ _ _ _ _ _ _ _ _ _ hc1 hc2 hc3 hc4)).trans
          (piece_A_0 c _ _ _ _ _ _ _ _ _ _ _ _ _ _ _ _ _ _ _ _ _ hc1 hc2 hc3 hc4)
      · unfold owns; iexists _; isplitr
        swap; · iexact HS1
        ipureintro
        exact (View.read_writes_eq_canon _ _ _ (scover_A_1 c _ _ _ _ _ _ _ _ _ _ _ _ _ _ _ _ _ _ _ _ _ hc1 hc2 hc3 hc4)).trans
          (piece_A_1 c _ _ _ _ _ _ _ _ _ _ _ _ _ _ _ _ _ _ _ _ _ hc1 hc2 hc3 hc4)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- A first column tile off the diagonal: not the grid's first point, and what the point before left in the scratch
    columns is forgotten. -/
theorem sound_B (c : Dev nD) (t : Fin cfg0.N) (hF : t.val % 8 = 0) (hD : ¬(t.val % 8) / 2 = t.val / 8) :
    bodyPre m c t ⊢ wp frame (wpE (defs₀ (F := F)) Variants.none c none) Set.univ (bodyAt0 t) (fun _ => bodyPost m c t) := by
  have hz : t.val ≠ 0 := fun h => hD (by rw [h])
  have hc1 : cond1 (grid0.coords t) := (hcond1 t).mpr hF
  have hc2 : ¬cond2 (grid0.coords t) := fun h => hD ((hcond2 t).mp h)
  have hc3 : cond3 (grid0.coords t) := (hcond3 t).mpr hD
  have hc4 : ¬cond4 (grid0.coords t) := fun h => (by omega : ¬t.val % 8 = 7) ((hcond4 t).mp h)
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  rw [Dat.leavesExact_idle (dats m 0 c) 4 t (idle4 t hc4) (noFlush4 t hc4),
    Dat.leavesExact_idle (dats m 0 c) 5 t (idle5 t hc4) (noFlush5 t hc4)]
  rw [scAt_first_off m c t hF hD]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun_B c (grid0.coords t) _ _ _ _ _ _ _ _ _ _ _ _ _ _ _ _ (rowsBlk m c t) (colsBlk m c t) (famColBlk m c t) (famRowBlk m c t)
    hc1 hc2 hc3 hc4).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexists _; iexact HS0
  isplitl [HS1]; · iexists _; iexact HS1
  iintro ⟨H0, H1, H2, H3, H4, H5, ⟨%es0, HS0⟩, ⟨%es1, HS1⟩⟩
  isplitl [HS0 HS1 Hg]
  · isplitl [HS0 HS1]
    · isplitl [HS0]
      · unfold owns; iexists _; isplitr
        swap; · iexact HS0
        ipureintro
        exact (View.read_writes_eq_canon _ _ _ (scover_B_0 c _ _ _ _ _ _ _ _ _ _ _ _ _ _ _ _ _ _ _ _ _ hc1 hc2 hc3 hc4)).trans
          (piece_B_0 c _ _ _ _ _ _ _ _ _ _ _ _ _ _ _ _ _ _ _ _ _ hc1 hc2 hc3 hc4)
      · unfold owns; iexists _; isplitr
        swap; · iexact HS1
        ipureintro
        exact (View.read_writes_eq_canon _ _ _ (scover_B_1 c _ _ _ _ _ _ _ _ _ _ _ _ _ _ _ _ _ _ _ _ _ hc1 hc2 hc3 hc4)).trans
          (piece_B_1 c _ _ _ _ _ _ _ _ _ _ _ _ _ _ _ _ _ _ _ _ _ hc1 hc2 hc3 hc4)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- A middle column tile that meets the diagonal. -/
theorem sound_C (c : Dev nD) (t : Fin cfg0.N) (hF : ¬t.val % 8 = 0) (hL : ¬t.val % 8 = 7) (hD : (t.val % 8) / 2 = t.val / 8) :
    bodyPre m c t ⊢ wp frame (wpE (defs₀ (F := F)) Variants.none c none) Set.univ (bodyAt0 t) (fun _ => bodyPost m c t) := by
  have hz : t.val ≠ 0 := fun h => hF (by rw [h])
  have hc1 : ¬cond1 (grid0.coords t) := fun h => hF ((hcond1 t).mp h)
  have hc2 : cond2 (grid0.coords t) := (hcond2 t).mpr hD
  have hc3 : ¬cond3 (grid0.coords t) := fun h => (hcond3 t).mp h hD
  have hc4 : ¬cond4 (grid0.coords t) := fun h => hL ((hcond4 t).mp h)
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  rw [Dat.leavesExact_idle (dats m 0 c) 4 t (idle4 t hc4) (noFlush4 t hc4),
    Dat.leavesExact_idle (dats m 0 c) 5 t (idle5 t hc4) (noFlush5 t hc4)]
  rw [scAt_later_diag m c t hF hD]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun_C c (grid0.coords t) _ _ _ _ _ _ _ _ _ _ _ _ _ _ _ _ (rowsBlk m c t) (colsBlk m c t) (famColBlk m c t) (famRowBlk m c t)
    hc1 hc2 hc3 hc4 _ _).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [HS0 HS1 Hg]
  · isplitl [HS0 HS1]
    · isplitl [HS0]
      · unfold owns; iexists _; isplitr
        swap; · iexact HS0
        ipureintro
        exact (View.read_writes_eq_canon _ _ _ (scover_C_0 c _ _ _ _ _ _ _ _ _ _ _ _ _ _ _ _ _ _ _ _ _ hc1 hc2 hc3 hc4 _ _)).trans
          (piece_C_0 c _ _ _ _ _ _ _ _ _ _ _ _ _ _ _ _ _ _ _ _ _ hc1 hc2 hc3 hc4 _ _)
      · unfold owns; iexists _; isplitr
        swap; · iexact HS1
        ipureintro
        exact (View.read_writes_eq_canon _ _ _ (scover_C_1 c _ _ _ _ _ _ _ _ _ _ _ _ _ _ _ _ _ _ _ _ _ hc1 hc2 hc3 hc4 _ _)).trans
          (piece_C_1 c _ _ _ _ _ _ _ _ _ _ _ _ _ _ _ _ _ _ _ _ _ hc1 hc2 hc3 hc4 _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- A middle column tile off the diagonal. -/
theorem sound_D (c : Dev nD) (t : Fin cfg0.N) (hF : ¬t.val % 8 = 0) (hL : ¬t.val % 8 = 7) (hD : ¬(t.val % 8) / 2 = t.val / 8) :
    bodyPre m c t ⊢ wp frame (wpE (defs₀ (F := F)) Variants.none c none) Set.univ (bodyAt0 t) (fun _ => bodyPost m c t) := by
  have hz : t.val ≠ 0 := fun h => hF (by rw [h])
  have hc1 : ¬cond1 (grid0.coords t) := fun h => hF ((hcond1 t).mp h)
  have hc2 : ¬cond2 (grid0.coords t) := fun h => hD ((hcond2 t).mp h)
  have hc3 : cond3 (grid0.coords t) := (hcond3 t).mpr hD
  have hc4 : ¬cond4 (grid0.coords t) := fun h => hL ((hcond4 t).mp h)
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  rw [Dat.leavesExact_idle (dats m 0 c) 4 t (idle4 t hc4) (noFlush4 t hc4),
    Dat.leavesExact_idle (dats m 0 c) 5 t (idle5 t hc4) (noFlush5 t hc4)]
  rw [scAt_later_off m c t hF hD]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun_D c (grid0.coords t) _ _ _ _ _ _ _ _ _ _ _ _ _ _ _ _ (rowsBlk m c t) (colsBlk m c t) (famColBlk m c t) (famRowBlk m c t)
    hc1 hc2 hc3 hc4 _ _).2.2 _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, ⟨%es0, HS0⟩, ⟨%es1, HS1⟩⟩
  isplitl [HS0 HS1 Hg]
  · isplitl [HS0 HS1]
    · isplitl [HS0]
      · unfold owns; iexists _; isplitr
        swap; · iexact HS0
        ipureintro
        exact (View.read_writes_eq_canon _ _ _ (scover_D_0 c _ _ _ _ _ _ _ _ _ _ _ _ _ _ _ _ _ _ _ _ _ hc1 hc2 hc3 hc4 _ _)).trans
          (piece_D_0 c _ _ _ _ _ _ _ _ _ _ _ _ _ _ _ _ _ _ _ _ _ hc1 hc2 hc3 hc4 _ _)
      · unfold owns; iexists _; isplitr
        swap; · iexact HS1
        ipureintro
        exact (View.read_writes_eq_canon _ _ _ (scover_D_1 c _ _ _ _ _ _ _ _ _ _ _ _ _ _ _ _ _ _ _ _ _ hc1 hc2 hc3 hc4 _ _)).trans
          (piece_D_1 c _ _ _ _ _ _ _ _ _ _ _ _ _ _ _ _ _ _ _ _ _ hc1 hc2 hc3 hc4 _ _)
    iexact Hg
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4800000 in
/-- The last column tile that meets the diagonal: the outputs' buffers are left at the loss-term and count columns. -/
theorem sound_E (c : Dev nD) (t : Fin cfg0.N) (hL : t.val % 8 = 7) (hD : (t.val % 8) / 2 = t.val / 8) :
    bodyPre m c t ⊢ wp frame (wpE (defs₀ (F := F)) Variants.none c none) Set.univ (bodyAt0 t) (fun _ => bodyPost m c t) := by
  have hF : ¬t.val % 8 = 0 := by omega
  have hz : t.val ≠ 0 := by omega
  have hc1 : ¬cond1 (grid0.coords t) := fun h => hF ((hcond1 t).mp h)
  have hc2 : cond2 (grid0.coords t) := (hcond2 t).mpr hD
  have hc3 : ¬cond3 (grid0.coords t) := fun h => (hcond3 t).mp h hD
  have hc4 : cond4 (grid0.coords t) := (hcond4 t).mpr hL
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4 m c t hc4, leaves5 m c t hc4]
  unfold termAt countAt
  rw [scAt_later_diag m c t hF hD]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun_E c (grid0.coords t) _ _ _ _ _ _ _ _ _ _ _ _ _ _ _ _ (rowsBlk m c t) (colsBlk m c t) (famColBlk m c t) (famRowBlk m c t)
    hc1 hc2 hc3 hc4 _ _).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, ⟨%e4, H4⟩, ⟨%e5, H5⟩, ⟨%es0, HS0⟩, ⟨%es1, HS1⟩⟩
  isplitl [HS0 HS1 Hg]
  · isplitl [HS0 HS1]
    · isplitl [HS0]
      · unfold owns; iexists _; isplitr
        swap; · iexact HS0
        ipureintro
        exact (View.read_writes_eq_canon _ _ _ (scover_E_0 c _ _ _ _ _ _ _ _ _ _ _ _ _ _ _ _ _ _ _ _ _ hc1 hc2 hc3 hc4 _ _)).trans
          (piece_E_0 c _ _ _ _ _ _ _ _ _ _ _ _ _ _ _ _ _ _ _ _ _ hc1 hc2 hc3 hc4 _ _)
      · unfold owns; iexists _; isplitr
        swap; · iexact HS1
        ipureintro
        exact (View.read_writes_eq_canon _ _ _ (scover_E_1 c _ _ _ _ _ _ _ _ _ _ _ _ _ _ _ _ _ _ _ _ _ hc1 hc2 hc3 hc4 _ _)).trans
          (piece_E_1 c _ _ _ _ _ _ _ _ _ _ _ _ _ _ _ _ _ _ _ _ _ hc1 hc2 hc3 hc4 _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro
    exact (View.read_writes_eq_canon _ _ _ (cover_E_4 c _ _ _ _ _ _ _ _ _ _ _ _ _ _ _ _ _ _ _ _ _ hc1 hc2 hc3 hc4 _ _)).trans
      (piece_E_4 c _ _ _ _ _ _ _ _ _ _ _ _ _ _ _ _ _ _ _ _ _ hc1 hc2 hc3 hc4 _ _)
  unfold owns; iexists _; isplitr
  swap; · iexact H5
  ipureintro
  exact (View.read_writes_eq_canon _ _ _ (cover_E_5 c _ _ _ _ _ _ _ _ _ _ _ _ _ _ _ _ _ _ _ _ _ hc1 hc2 hc3 hc4 _ _)).trans
    (piece_E_5 c _ _ _ _ _ _ _ _ _ _ _ _ _ _ _ _ _ _ _ _ _ hc1 hc2 hc3 hc4 _ _)

set_option maxHeartbeats 4800000 in
/-- A last column tile off the diagonal: the outputs' buffers are left at the loss-term and count columns. -/
theorem sound_G (c : Dev nD) (t : Fin cfg0.N) (hL : t.val % 8 = 7) (hD : ¬(t.val % 8) / 2 = t.val / 8) :
    bodyPre m c t ⊢ wp frame (wpE (defs₀ (F := F)) Variants.none c none) Set.univ (bodyAt0 t) (fun _ => bodyPost m c t) := by
  have hF : ¬t.val % 8 = 0 := by omega
  have hz : t.val ≠ 0 := by omega
  have hc1 : ¬cond1 (grid0.coords t) := fun h => hF ((hcond1 t).mp h)
  have hc2 : ¬cond2 (grid0.coords t) := fun h => hD ((hcond2 t).mp h)
  have hc3 : cond3 (grid0.coords t) := (hcond3 t).mpr hD
  have hc4 : cond4 (grid0.coords t) := (hcond4 t).mpr hL
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, leaves4 m c t hc4, leaves5 m c t hc4]
  unfold termAt countAt
  rw [scAt_later_off m c t hF hD]
  rw [PhiS_castSucc m c t, PhiS_pos m c _ _ hz]
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun_G c (grid0.coords t) _ _ _ _ _ _ _ _ _ _ _ _ _ _ _ _ (rowsBlk m c t) (colsBlk m c t) (famColBlk m c t) (famRowBlk m c t)
    hc1 hc2 hc3 hc4 _ _).2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  iintro ⟨H0, H1, H2, H3, ⟨%e4, H4⟩, ⟨%e5, H5⟩, ⟨%es0, HS0⟩, ⟨%es1, HS1⟩⟩
  isplitl [HS0 HS1 Hg]
  · isplitl [HS0 HS1]
    · isplitl [HS0]
      · unfold owns; iexists _; isplitr
        swap; · iexact HS0
        ipureintro
        exact (View.read_writes_eq_canon _ _ _ (scover_G_0 c _ _ _ _ _ _ _ _ _ _ _ _ _ _ _ _ _ _ _ _ _ hc1 hc2 hc3 hc4 _ _)).trans
          (piece_G_0 c _ _ _ _ _ _ _ _ _ _ _ _ _ _ _ _ _ _ _ _ _ hc1 hc2 hc3 hc4 _ _)
      · unfold owns; iexists _; isplitr
        swap; · iexact HS1
        ipureintro
        exact (View.read_writes_eq_canon _ _ _ (scover_G_1 c _ _ _ _ _ _ _ _ _ _ _ _ _ _ _ _ _ _ _ _ _ hc1 hc2 hc3 hc4 _ _)).trans
          (piece_G_1 c _ _ _ _ _ _ _ _ _ _ _ _ _ _ _ _ _ _ _ _ _ hc1 hc2 hc3 hc4 _ _)
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro
    exact (View.read_writes_eq_canon _ _ _ (cover_G_4 c _ _ _ _ _ _ _ _ _ _ _ _ _ _ _ _ _ _ _ _ _ hc1 hc2 hc3 hc4 _ _)).trans
      (piece_G_4 c _ _ _ _ _ _ _ _ _ _ _ _ _ _ _ _ _ _ _ _ _ hc1 hc2 hc3 hc4 _ _)
  unfold owns; iexists _; isplitr
  swap; · iexact H5
  ipureintro
  exact (View.read_writes_eq_canon _ _ _ (cover_G_5 c _ _ _ _ _ _ _ _ _ _ _ _ _ _ _ _ _ _ _ _ _ hc1 hc2 hc3 hc4 _ _)).trans
    (piece_G_5 c _ _ _ _ _ _ _ _ _ _ _ _ _ _ _ _ _ _ _ _ _ hc1 hc2 hc3 hc4 _ _)

/-! ## The six cases together -/

/-- The body at any point: the closed forms say which case the point is in. -/
theorem sound_body (c : Dev nD) (t : Fin cfg0.N) :
    bodyPre m c t ⊢ wp frame (wpE (defs₀ (F := F)) Variants.none c none) Set.univ (bodyAt0 t) (fun _ => bodyPost m c t) := by
  by_cases hD : (t.val % 8) / 2 = t.val / 8
  · by_cases hF : t.val % 8 = 0
    · exact sound_A m c t hF hD
    · by_cases hL : t.val % 8 = 7
      · exact sound_E m c t hL hD
      · exact sound_C m c t hF hL hD
  · by_cases hF : t.val % 8 = 0
    · exact sound_B m c t hF hD
    · by_cases hL : t.val % 8 = 7
      · exact sound_G m c t hL hD
      · exact sound_D m c t hF hL hD

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: what the scratch columns hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

end Cert.KernelIdeal.Hand

end
-- ==== Proof.KI.Exit.lean ====
/-
  What the buffers hold when the region is left and after the host operations that follow it: the two output arrays
  at what the pipeline wrote back into them, every other buffer as the region found it; then the operations after the
  region (the two sums, the maximum with one, the quotient) applied.
-/
import proofs.«417721_j28690381537966_3_alg».proof.Proof.KI.Data

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ)

/-- The row of the whole array that row `p` of point `t`'s row tile is, and the row that row `q` of its column tile is. -/
def rowOf (t : Fin cfg0.N) (p : Fin 2048) : Fin 8192 :=
  ⟨2048 * (t.val / 8) + p.val, by have h : t.val < 32 := lt_of_lt_of_eq t.isLt N_0; have := p.isLt; omega⟩
def colOf (t : Fin cfg0.N) (q : Fin 1024) : Fin 8192 :=
  ⟨1024 * (t.val % 8) + q.val, by have := q.isLt; omega⟩
/-- The last column point of row tile `i`. -/
def lastPt (i : Fin 4) : Fin cfg0.N := ⟨8 * i.val + 7, by rw [show cfg0.N = 32 from N_0]; have := i.isLt; omega⟩

/-- The term column of every row: what the pipeline leaves in the first output array. -/
def termArr (c : Dev nD) : Vec F S8192x1 .f32 := (dats m 0 c).arrAt 4 cfg0.N
/-- The count column of every row: what it leaves in the second. -/
def countArr (c : Dev nD) : Vec F S8192x1 .f32 := (dats m 0 c).arrAt 5 cfg0.N

/-- The buffers' contents when the region is left. -/
def exitVal (c : Dev nD) : Valuation τ sig (Elt F) :=
  Function.update (Function.update (V0 m c) (Proc.devRef .tc main_v17_0) (termArr m c)) (Proc.devRef .tc main_v17_1) (countArr m c)

/-- The buffers' contents after the operations that follow the region. -/
def exitAfter (c : Dev nD) (b : Ref sig .tc) : Buf (Elt F) ((c : Thread nD τ).loc b) :=
  StableHlo.after hostOps1 (exitVal m c) (Proc.devRef .tc b)

end Cert.KernelIdeal.Hand

end
-- ==== Proof.KI.Launch.lean ====
/-
  The launch of the region and the run of @main around it.

  Two of the region's windows read one array — the unit rows, once as the row tile and once as the column tile. The
  pipeline is therefore handed that array split in two halves, one per window; both windows only read it, so both
  halves come back unchanged. The operations after the region (the two sums, the maximum with one, the quotient) read
  only the two output arrays and write only buffers of their own, so they run holding those two arrays and the buffers
  that bypass the region, with the four input windows' arrays set aside.
-/
import proofs.«417721_j28690381537966_3_alg».proof.Proof.KI.Exit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays, window by window -/

/-- The buffers behind the windows' arrays: five, the unit rows' being two windows'. -/
theorem arrRefs_eq : Finset.univ.image (Pipeline.arrRef spec0) = [main_v14, main_v15, main_v16, main_v17_0, main_v17_1].toFinset := by
  decide

/-- The pipeline's arrays as a chain: the unit rows' array in two halves, the other four whole. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_v14) ↦{fullShare.left} G 0) ∗ (((c.tc : Thread nD τ).loc main_v14) ↦{fullShare.right} G 1)
          ∗ (((c.tc : Thread nD τ).loc main_v15) ↦{fullShare} G 2) ∗ (((c.tc : Thread nD τ).loc main_v16) ↦{fullShare} G 3)
          ∗ (((c.tc : Thread nD τ).loc main_v17_0) ↦{fullShare} G 4) ∗ (((c.tc : Thread nD τ).loc main_v17_1) ↦{fullShare} G 5)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- What the launch hands the pipeline of the arrays' buffers — each whole at the region-entry contents — is the
    pipeline's arrays before the first point: the unit rows' buffer split in its two halves. -/
theorem hsplit (c : Dev nD) :
    (Pipeline.arrBufs spec0 c (V m c) : sProp 𝕄) ⊢ (dats m 0 c).arrays ((dats m 0 c).arrAt · 0) := by
  rw [arrays_chain]
  unfold Pipeline.arrBufs
  rw [bigSep_eq_bigSepL_of_eq [main_v14, main_v15, main_v16, main_v17_0, main_v17_1] arrRefs_eq (by decide)]
  show iprop((((c.tc : Thread nD τ).loc main_v14) ↦{fullShare} V m c main_v14) ∗ (((c.tc : Thread nD τ).loc main_v15) ↦{fullShare} V m c main_v15)
      ∗ (((c.tc : Thread nD τ).loc main_v16) ↦{fullShare} V m c main_v16) ∗ (((c.tc : Thread nD τ).loc main_v17_0) ↦{fullShare} V m c main_v17_0)
      ∗ (((c.tc : Thread nD τ).loc main_v17_1) ↦{fullShare} V m c main_v17_1)) ⊢ _
  iintro ⟨H14, H15, H16, H170, H171⟩
  ihave H14 := (pointsTo_share (PosShare.mem_left_op_right fullShare)).1 $$ H14
  icases H14 with ⟨Hl, Hr⟩
  isplitl [Hl]; · iexact Hl
  isplitl [Hr]; · iexact Hr
  isplitl [H15]; · iexact H15
  isplitl [H16]; · iexact H16
  isplitl [H170]; · iexact H170
  iexact H171

/-! ## The operations after the region -/

theorem v170_not_mem : main_v17_0 ∉ insert main_v17_1 (Pipeline.restRefs sig spec0) := by decide
theorem v171_not_mem : main_v17_1 ∉ Pipeline.restRefs sig spec0 := by decide

/-- The buffers the operations after the region may touch: the two output arrays' and those that bypass the region. -/
def tailSet : Finset (DevRef τ sig) :=
  (insert main_v17_0 (insert main_v17_1 (Pipeline.restRefs sig spec0))).map ⟨Proc.devRef (sig := sig) .tc, Proc.devRef_injective _⟩

theorem mem_tailSet (r : Ref sig .tc) (h : r ∈ insert main_v17_0 (insert main_v17_1 (Pipeline.restRefs sig spec0))) :
    Proc.devRef (τ := τ) .tc r ∈ tailSet := Finset.mem_map_of_mem _ h

/-- That set held at a valuation: the two output arrays' buffers, then the bypassing buffers. -/
theorem held_tailSet (c : Dev nD) (W : Valuation τ sig (Elt F)) :
    (StableHlo.held (c.tc : Thread nD τ) tailSet W : sProp 𝕄)
      = iprop((((c.tc : Thread nD τ).loc main_v17_0) ↦{fullShare} W (Proc.devRef .tc main_v17_0))
          ∗ (((c.tc : Thread nD τ).loc main_v17_1) ↦{fullShare} W (Proc.devRef .tc main_v17_1))
          ∗ bigSep (Pipeline.restRefs sig spec0) fun b => ((c.tc : Thread nD τ).loc b) ↦{fullShare} W (Proc.devRef .tc b)) := by
  unfold StableHlo.held tailSet
  rw [bigSep_map, bigSep_insert v170_not_mem, bigSep_insert v171_not_mem]
  rfl

/-- Every operation after the region stays within that set. -/
theorem tail_sub : ∀ ops ∈ ([hostOps1] : List (List (HloOp τ sig (Elt F)))), ∀ op ∈ ops, op.bufs ⊆ tailSet := by
  intro ops hops op hop
  simp only [List.mem_cons, List.mem_nil_iff, or_false] at hops
  subst hops
  simp only [hostOps1, List.mem_cons, List.mem_nil_iff, or_false] at hop
  rcases hop with rfl | rfl | rfl | rfl | rfl | rfl | rfl
  all_goals
    intro b hb
    simp only [StableHlo.nullary_bufs, StableHlo.binary_bufs, Finset.mem_insert, Finset.mem_singleton] at hb
    first
      | (rcases hb with rfl | rfl | rfl <;> exact mem_tailSet _ (by decide))
      | (subst hb; exact mem_tailSet _ (by decide))

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- No operation after the region writes an output array. -/
theorem tail_keeps0 : ∀ op ∈ (hostOps1 : List (HloOp τ sig (Elt F))), Proc.devRef .tc main_v17_0 ∉ op.writes := by
  intro op hop
  simp only [hostOps1, List.mem_cons, List.mem_nil_iff, or_false] at hop
  rcases hop with rfl | rfl | rfl | rfl | rfl | rfl | rfl
  all_goals simp only [StableHlo.nullary_writes, StableHlo.binary_writes, Finset.mem_singleton]; exact StableHlo.devRef_ne_of_ne (by decide)
theorem tail_keeps1 : ∀ op ∈ (hostOps1 : List (HloOp τ sig (Elt F))), Proc.devRef .tc main_v17_1 ∉ op.writes := by
  intro op hop
  simp only [hostOps1, List.mem_cons, List.mem_nil_iff, or_false] at hop
  rcases hop with rfl | rfl | rfl | rfl | rfl | rfl | rfl
  all_goals simp only [StableHlo.nullary_writes, StableHlo.binary_writes, Finset.mem_singleton]; exact StableHlo.devRef_ne_of_ne (by decide)

/-- The exit contents at the two output arrays' buffers and at a bypassing buffer. -/
theorem exitVal_term (c : Dev nD) : exitVal m c (Proc.devRef .tc main_v17_0) = termArr m c := by
  unfold exitVal
  rw [Function.update_of_ne (StableHlo.devRef_ne_of_ne (by decide)), Function.update_self]
theorem exitVal_count (c : Dev nD) : exitVal m c (Proc.devRef .tc main_v17_1) = countArr m c := by
  unfold exitVal
  rw [Function.update_self]
theorem exitVal_rest (c : Dev nD) (b : Ref sig .tc) (hb : b ∈ Pipeline.restRefs sig spec0) :
    exitVal m c (Proc.devRef .tc b) = V m c b := by
  have h0 : b ≠ main_v17_0 := fun e => by subst e; exact absurd hb (by decide)
  have h1 : b ≠ main_v17_1 := fun e => by subst e; exact absurd hb (by decide)
  unfold exitVal
  rw [Function.update_of_ne (StableHlo.devRef_ne_of_ne h1), Function.update_of_ne (StableHlo.devRef_ne_of_ne h0)]

/-- The operations after the region leave the two output arrays as they found them. -/
theorem after_term (c : Dev nD) : StableHlo.after hostOps1 (exitVal m c) (Proc.devRef .tc main_v17_0) = termArr m c :=
  (StableHlo.after_of_forall_not_mem _ _ tail_keeps0).trans (exitVal_term m c)
theorem after_count (c : Dev nD) : StableHlo.after hostOps1 (exitVal m c) (Proc.devRef .tc main_v17_1) = countArr m c :=
  (StableHlo.after_of_forall_not_mem _ _ tail_keeps1).trans (exitVal_count m c)

/-! ## The run -/

section Run

open Idealize.ShloMosaic.Pipeline

local notation "𝔻" => Pipeline.defs (fun q => Cfg.toPCfg (Val := Elt F) (cfgs q)) (defs₀ (F := F))
local notation "𝕍" => Variants.lift Variants.none

set_option maxHeartbeats 2000000 in
set_option backward.isDefEq.respectTransparency.types false in
/-- The operations after the region, from the region's exit — the arrays as the pipeline leaves them, the bypassing
    buffers as the region found them — to the same with the bypassing buffers at what those operations leave. -/
theorem htail (c : Dev nD) (Q' : PUnit → sProp 𝕄) :
    iprop((iprop((dats m 0 c).arrays ((dats m 0 c).arrAt · cfg0.N) ∗ unscopedRestP (Ix := Unit) (Name := ℕ) (U := UR sig nD τ) (Lvl := ℕ) Prefetch.none spec0 c (exitAfter m c)) -∗ Q' ⟨⟩)
        ∗ boundary (c.tc : Thread nD τ) ∗ (dats m 0 c).arrays ((dats m 0 c).arrAt · cfg0.N)
        ∗ unscopedRestP (Ix := Unit) (Name := ℕ) (U := UR sig nD τ) (Lvl := ℕ) Prefetch.none spec0 c (V m c))
      ⊢ wp frame (wpE 𝔻 𝕍 (c.tc : Thread nD τ) none) Set.univ (Pipeline.chain [StableHlo.seq hostOps1]) Q' := by
  rw [arrays_chain, unscopedRestP_none, unscopedRestP_none]
  unfold unscopedRest
  have hW : (StableHlo.held (c.tc : Thread nD τ) tailSet (exitVal m c) : sProp 𝕄)
      = iprop((((c.tc : Thread nD τ).loc main_v17_0) ↦{fullShare} (dats m 0 c).arrAt 4 cfg0.N)
          ∗ (((c.tc : Thread nD τ).loc main_v17_1) ↦{fullShare} (dats m 0 c).arrAt 5 cfg0.N)
          ∗ bigSep (Pipeline.restRefs sig spec0) fun b => ((c.tc : Thread nD τ).loc b) ↦{fullShare} V m c b) := by
    have e : (bigSep (Pipeline.restRefs sig spec0) fun b => (((c.tc : Thread nD τ).loc b) ↦{fullShare} exitVal m c (Proc.devRef .tc b) : sProp 𝕄))
        = bigSep (Pipeline.restRefs sig spec0) fun b => ((c.tc : Thread nD τ).loc b) ↦{fullShare} V m c b :=
      bigSep_congr fun b hb => by rw [exitVal_rest m c b hb]
    rw [held_tailSet, exitVal_term, exitVal_count, e]
    unfold termArr countArr
    rfl
  have hW' : (StableHlo.held (c.tc : Thread nD τ) tailSet (StableHlo.after ([hostOps1] : List (List (HloOp τ sig (Elt F)))).flatten (exitVal m c)) : sProp 𝕄)
      = iprop((((c.tc : Thread nD τ).loc main_v17_0) ↦{fullShare} (dats m 0 c).arrAt 4 cfg0.N)
          ∗ (((c.tc : Thread nD τ).loc main_v17_1) ↦{fullShare} (dats m 0 c).arrAt 5 cfg0.N)
          ∗ bigSep (Pipeline.restRefs sig spec0) fun b => ((c.tc : Thread nD τ).loc b) ↦{fullShare} exitAfter m c b) := by
    rw [held_tailSet, List.flatten_cons, List.flatten_nil, List.append_nil, after_term, after_count]
    unfold termArr countArr exitAfter
    rfl
  have hcont : iprop((iprop(iprop((((c.tc : Thread nD τ).loc main_v14) ↦{fullShare.left} (dats m 0 c).arrAt 0 cfg0.N) ∗ (((c.tc : Thread nD τ).loc main_v14) ↦{fullShare.right} (dats m 0 c).arrAt 1 cfg0.N)
          ∗ (((c.tc : Thread nD τ).loc main_v15) ↦{fullShare} (dats m 0 c).arrAt 2 cfg0.N) ∗ (((c.tc : Thread nD τ).loc main_v16) ↦{fullShare} (dats m 0 c).arrAt 3 cfg0.N)
          ∗ (((c.tc : Thread nD τ).loc main_v17_0) ↦{fullShare} (dats m 0 c).arrAt 4 cfg0.N) ∗ (((c.tc : Thread nD τ).loc main_v17_1) ↦{fullShare} (dats m 0 c).arrAt 5 cfg0.N))
          ∗ bigSep (Pipeline.restRefs sig spec0) fun b => ((c.tc : Thread nD τ).loc b) ↦{fullShare} exitAfter m c b) -∗ Q' ⟨⟩)
        ∗ (((c.tc : Thread nD τ).loc main_v14) ↦{fullShare.left} (dats m 0 c).arrAt 0 cfg0.N) ∗ (((c.tc : Thread nD τ).loc main_v14) ↦{fullShare.right} (dats m 0 c).arrAt 1 cfg0.N)
        ∗ (((c.tc : Thread nD τ).loc main_v15) ↦{fullShare} (dats m 0 c).arrAt 2 cfg0.N) ∗ (((c.tc : Thread nD τ).loc main_v16) ↦{fullShare} (dats m 0 c).arrAt 3 cfg0.N))
      ⊢ iprop((boundary (c.tc : Thread nD τ) ∗ (StableHlo.held (c.tc : Thread nD τ) tailSet (StableHlo.after ([hostOps1] : List (List (HloOp τ sig (Elt F)))).flatten (exitVal m c)) : sProp 𝕄))
          -∗ wp frame (wpE 𝔻 𝕍 (c.tc : Thread nD τ) none) Set.univ (Pipeline.chain []) Q') := by
    rw [chain_nil, wp_pure, hW']
    iintro ⟨Hk, H0, H1, H2, H3⟩ ⟨-, H4, H5, HZ⟩
    imodintro
    iapply Hk
    isplitr [HZ]
    · isplitl [H0]; · iexact H0
      isplitl [H1]; · iexact H1
      isplitl [H2]; · iexact H2
      isplitl [H3]; · iexact H3
      isplitl [H4]; · iexact H4
      iexact H5
    iexact HZ
  rw [← List.append_nil ([StableHlo.seq hostOps1] : List _)]
  iintro ⟨Hk, Hb, ⟨H0, H1, H2, H3, H4, H5⟩, HZ⟩
  ihave Hh : (StableHlo.held (c.tc : Thread nD τ) tailSet (exitVal m c) : sProp 𝕄) $$ [H4 H5 HZ]
  · rw [hW]
    isplitl [H4]; · iexact H4
    isplitl [H5]; · iexact H5
    iexact HZ
  iapply (wp_seqs_then (fun q => Cfg.toPCfg (Val := Elt F) (cfgs q)) (defs₀ (F := F)) Variants.none c tailSet [] [hostOps1] tail_sub tail_fresh (exitVal m c)) $$ [Hb Hh]
  · isplitl [Hb]; · iexact Hb
    iexact Hh
  iapply hcont
  isplitl [Hk]; · iexact Hk
  isplitl [H0]; · iexact H0
  isplitl [H1]; · iexact H1
  isplitl [H2]; · iexact H2
  iexact H3

set_option maxHeartbeats 2000000 in
set_option backward.isDefEq.respectTransparency.types false in
/-- From any memory with zero counters every weakly fair execution of @main terminates, and ends with every array of the
    pipeline at what the proof data computes and every other unscoped buffer at what the operations after the region
    leave — given the body's obligation at every point and the invariant's two ends. -/
theorem run_main_of
    (hbody : ∀ c, BodyObligation (dats (F := F) m 0 c) (defs₀ (F := F)) Variants.none () Set.univ)
    (hin : ∀ c, (ΦA spec0 c : sProp 𝕄) ⊢ (dats m 0 c).Φ 0)
    (hout : ∀ c, (dats m 0 c).Φ (Fin.last cfg0.N) ⊢ (ΦA spec0 c : sProp 𝕄)) :
    θ_run (defs (F := F)) (onTc (τ := τ) (main (F := F))) ⟨m, fun _ => 0, ρ⟩ (FramePost cfgs (dats m) 0 (exitAfter m)) := by
  classical
  have hinj : Function.Injective (cellOf (nD := nD) (τ := τ) (pin (fun q => (cfgs q).toPCfg (Val := Elt F)) (fun q => (cfgs q).toPCfg_adm))) := cellOf_inj
  exact θ_run_region_pf_tail (fun q => (cfgs q).toPCfg (Val := Elt F)) (fun q => (cfgs q).toPCfg_adm) (dats m) () hinj 0 winFacts₀0
    (OwnSemFacts.none spec0) (PreFacts.none _) emb₁ (defs₀ (F := F)) Variants.none m ρ main
    (fun _ => chain [StableHlo.seq hostOps1]) (fun c => (hbody c).loose)
    block_pos0 arr_whole0 stage_whole0 (fun _ _ => rfl)
    (G := fun _ => iprop(emp)) (u₀ := initOf (cells (pin (fun q => (cfgs q).toPCfg (Val := Elt F)) (fun q => (cfgs q).toPCfg_adm)) hinj) (launchToks (pin (fun q => (cfgs q).toPCfg (Val := Elt F)) (fun q => (cfgs q).toPCfg_adm)) hinj))
    (hu₀ := by
      iintro Hu; imodintro
      isplitl [Hu]; · iapply (show (ownU _ : sProp 𝕄) ⊢ BI.own (emb₁ (initOf (cells (pin (fun q => (cfgs q).toPCfg (Val := Elt F)) (fun q => (cfgs q).toPCfg_adm)) hinj) (launchToks (pin (fun q => (cfgs q).toPCfg (Val := Elt F)) (fun q => (cfgs q).toPCfg_adm)) hinj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (exitAfter m c))
    (hX := fun c => by
      iintro ⟨HU, -, -, -, Hp, -⟩; imodintro
      isplitl [Hp]; · iexists _; iexact Hp
      iexact HU)
    (hin := fun c => (show _ ⊢ (ΦA spec0 c : sProp 𝕄) by
      unfold ΦA; iintro ⟨Hp, -, Hr⟩
      isplitl [Hr] <;> iassumption).trans (hin c))
    (hout := fun c => (hout c).trans (by
      rw [ownSems0_none]; unfold ΦA
      iintro ⟨Hr, Hp⟩
      isplitl [Hp]; · iexact Hp
      isplitr; · iempintro
      iexact Hr))
    (htail := htail m)
    (QY := fun c s => ∀ b ∈ restRefs sig spec0, s.mem ((c.tc : Thread nD τ).loc b) = exitAfter m c b)
    (hY := fun c s' => by
      rw [unscopedRestP_none]; unfold unscopedRest
      iintro ⟨-, HU, HSI⟩
      imodintro
      iapply (pointsTo_read_all (restRefs sig spec0) (fun b => (c.tc : Thread nD τ).loc b) (exitAfter m c) s')
      isplitl [HU] <;> iassumption)
    (hQ := fun s h c => ⟨(h c).1, (h c).2.2⟩)

end Run

end Cert.KernelIdeal.Hand

end
-- ==== Proof.KI.Frame.lean ====
/-
  What the run of @main says of the two argument arrays and of the result: no host operation before or after the region
  writes an argument, and no window stages one, so both end as launched; the result is the buffer the last operation
  after the region writes.
-/
import proofs.«417721_j28690381537966_3_alg».proof.Proof.KI.Launch

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- No host operation before the region writes the embeddings: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.reshape_writes,
      StableHlo.TRef.nullary, StableHlo.TRef.unary, StableHlo.TRef.binary, StableHlo.TRef.ternary, Finset.mem_singleton]
    repeat' apply And.intro
    all_goals exact StableHlo.devRef_ne_of_ne (by decide)))

/-- Nor the labels. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, List.flatten_cons, List.flatten_nil, List.append_nil, List.cons_append,
      List.nil_append, List.Forall, StableHlo.nullary_writes, StableHlo.unary_writes, StableHlo.binary_writes, StableHlo.ternary_writes, StableHlo.reshape_writes,
      StableHlo.TRef.nullary, StableHlo.TRef.unary, StableHlo.TRef.binary, StableHlo.TRef.ternary, Finset.mem_singleton]
    repeat' apply And.intro
    all_goals exact StableHlo.devRef_ne_of_ne (by decide)))

theorem tail_keeps (b : Ref sig .tc) (h0 : b ≠ main_cst) (h1 : b ≠ main_v18) (h2 : b ≠ main_cst_6) (h3 : b ≠ main_v19) (h4 : b ≠ main_cst_7)
    (h5 : b ≠ main_v20) (h6 : b ≠ main_v21) : ∀ op ∈ (hostOps1 : List (HloOp τ sig (Elt F))), Proc.devRef .tc b ∉ op.writes := by
  intro op hop
  simp only [hostOps1, List.mem_cons, List.mem_nil_iff, or_false] at hop
  rcases hop with rfl | rfl | rfl | rfl | rfl | rfl | rfl
  all_goals simp only [StableHlo.nullary_writes, StableHlo.binary_writes, Finset.mem_singleton]
  · exact StableHlo.devRef_ne_of_ne h0
  · exact StableHlo.devRef_ne_of_ne h1
  · exact StableHlo.devRef_ne_of_ne h2
  · exact StableHlo.devRef_ne_of_ne h3
  · exact StableHlo.devRef_ne_of_ne h4
  · exact StableHlo.devRef_ne_of_ne h5
  · exact StableHlo.devRef_ne_of_ne h6

/-- The arguments after the operations that follow the region: as launched. -/
theorem exit_main_arg0 (c : Dev nD) : exitAfter m c main_arg0 = m ((c : Thread nD τ).loc main_arg0) :=
  (StableHlo.after_of_forall_not_mem (b := Proc.devRef .tc main_arg0) _ _
      (tail_keeps main_arg0 (by decide) (by decide) (by decide) (by decide) (by decide) (by decide) (by decide))).trans
    ((exitVal_rest m c main_arg0 (Pipeline.mem_restRefs_of main_arg0 (by decide) (by decide))).trans (V_main_arg0 m c))
theorem exit_main_arg1 (c : Dev nD) : exitAfter m c main_arg1 = m ((c : Thread nD τ).loc main_arg1) :=
  (StableHlo.after_of_forall_not_mem (b := Proc.devRef .tc main_arg1) _ _
      (tail_keeps main_arg1 (by decide) (by decide) (by decide) (by decide) (by decide) (by decide) (by decide))).trans
    ((exitVal_rest m c main_arg1 (Pipeline.mem_restRefs_of main_arg1 (by decide) (by decide))).trans (V_main_arg1 m c))

/-- From the run's post: the result buffer at what the operations after the region leave in it, the arguments as launched. -/
theorem post_of (h : θ_run (defs (F := F)) (onTc (τ := τ) (main (F := F))) ⟨m, fun _ => 0, ρ⟩ (Pipeline.FramePost cfgs (dats m) 0 (exitAfter m))) :
    θ_run (defs (F := F)) (onTc (τ := τ) (main (F := F))) ⟨m, fun _ => 0, ρ⟩ (fun r => ∀ c : Dev nD,
      r.2.mem ((c.tc : Thread nD τ).loc main_v21) = exitAfter m c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v21 (Pipeline.mem_restRefs_of main_v21 (by decide) (by decide)),
     ((h c).2 main_arg0 (Pipeline.mem_restRefs_of main_arg0 (by decide) (by decide))).trans (exit_main_arg0 m c),
     ((h c).2 main_arg1 (Pipeline.mem_restRefs_of main_arg1 (by decide) (by decide))).trans (exit_main_arg1 m c)⟩) h

end Cert.KernelIdeal.Hand

end
-- ==== Proof.KI.Run.lean ====
/-
  The run of @main and the frame: every weakly fair execution terminates with every array of the pipeline at what the
  proof data computes, every other unscoped buffer at what the operations after the region leave — in particular
  the two arguments as launched.
-/
import proofs.«417721_j28690381537966_3_alg».proof.Proof.KI.Body
import proofs.«417721_j28690381537966_3_alg».proof.Proof.KI.Frame

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

theorem run_main :
    θ_run (defs (F := F)) (onTc (τ := τ) (main (F := F))) ⟨m, fun _ => 0, ρ⟩ (Pipeline.FramePost cfgs (dats m) 0 (exitAfter m)) :=
  run_main_of m ρ (body_obligation m) (hin m) (hout m)

/-- The result buffer at what the operations after the region leave in it, the arguments as launched. -/
theorem run_post :
    θ_run (defs (F := F)) (onTc (τ := τ) (main (F := F))) ⟨m, fun _ => 0, ρ⟩ (fun r => ∀ c : Dev nD,
      r.2.mem ((c.tc : Thread nD τ).loc main_v21) = exitAfter m c main_v21
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  post_of m ρ (run_main m ρ)

/-- The frame: @main runs to the end, nothing faulting, and leaves its two arguments as launched. -/
theorem frame :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_post m ρ)

end Cert.KernelIdeal.Hand

end
-- ==== Proof.Shared.lean ====
/-
  The two whole-array computations both programs begin with, each written once, operation for
  operation as both print them:
  * `famArr lab`: the family code of every label — the label clamped into the table's range `[0, 5]`,
    looked up in the table `[0, 1, 2, 1, 3, 3]`, and replaced by `-1` where the label is not below `6`;
  * `eArr x`: every row of `x` divided by its Euclidean norm, `x r d / √(0 + ∑ d', x r d' · x r d')`.
-/
import Idealize.ShloMosaic.Lib.StableHlo
import Idealize.ShloMosaic.PureOps

noncomputable section

namespace Cert.Shared

open Idealize.ShloMosaic

abbrev S8192x256 : Shape := ⟨2, ![8192, 256]⟩
abbrev S8192 : Shape := ⟨1, ![8192]⟩
abbrev S6 : Shape := ⟨1, ![6]⟩
abbrev S_ : Shape := ⟨0, ![]⟩
abbrev S8192x1 : Shape := ⟨2, ![8192, 1]⟩

theorem bcast_S_S8192 : S_.BroadcastsInDim S8192 (![] : Fin 0 → Fin S8192.rank) := by decide
theorem bcast_S8192_S8192x1_0 : S8192.BroadcastsInDim S8192x1 (![0] : Fin 1 → Fin S8192x1.rank) := by decide
theorem reducesTo_S8192x256_S8192_d1 : S8192x256.ReducesTo [1] S8192 := by decide
theorem h_S_ : 0 < S_.numel := by decide
theorem bcast_S8192x1_S8192x256_0_1 : S8192x1.BroadcastsInDim S8192x256 (![0, 1] : Fin 2 → Fin S8192x256.rank) := by decide
theorem gather_wf : GatherDims.WF S6 S8192x1 S8192 [] [0] [] [0] [] 1 ![1] := by decide

/-- The family table, row-major. -/
abbrev table : Fin 6 → BitVec 32 := fun
  | 0 => 0#32 | 1 => 1#32 | 2 => 2#32 | 3 => 1#32 | 4 => 3#32 | 5 => 3#32
  | _ => 0#32

/-- One index per label into the table's one axis. -/
def lookup : GatherDims S6 S8192x1 S8192 where
  offsetDims := []
  collapsedSliceDims := [0]
  operandBatchingDims := []
  startIndicesBatchingDims := []
  startIndexMap := [0]
  indexVectorDim := 1
  sliceSizes := ![1]
  wf := gather_wf

/-- The family code of every label. -/
def famArr (lab : IVec S8192 32) : IVec S8192 32 :=
  let tbl : IVec S6 32 := fun i => table (S6.rowMajor i)
  let six : IVec S8192 32 := broadcastInDim S8192 ![] bcast_S_S8192 (constantI S_ 32 6#32)
  let below : IVec S8192 1 := cmpi .slt lab six
  let lo : IVec S8192 32 := broadcastInDim S8192 ![] bcast_S_S8192 (constantI S_ 32 0#32)
  let atLeast : IVec S8192 32 := maxsi lo lab
  let hi : IVec S8192 32 := broadcastInDim S8192 ![] bcast_S_S8192 (constantI S_ 32 5#32)
  let clamped : IVec S8192 32 := minsi hi atLeast
  let zero : IVec S8192 32 := broadcastInDim S8192 ![] bcast_S_S8192 (constantI S_ 32 0#32)
  let neg : IVec S8192 1 := cmpi .slt clamped zero
  let six' : IVec S8192 32 := broadcastInDim S8192 ![] bcast_S_S8192 (constantI S_ 32 6#32)
  let wrapped : IVec S8192 32 := addi clamped six'
  let at_ : IVec S8192 32 := select neg wrapped clamped
  let col : IVec S8192x1 32 := broadcastInDim S8192x1 ![0] bcast_S8192_S8192x1_0 at_
  let looked : IVec S8192 32 := Host.gather lookup tbl col
  let none : IVec S8192 32 := broadcastInDim S8192 ![] bcast_S_S8192 (constantI S_ 32 4294967295#32)
  select below looked none

variable {F : FTy → Type} [FloatOps F]

/-- The sum of each row's squares (over a zero initial value). -/
def sumSq (x : FVec F S8192x256 .f32) : FVec F S8192 .f32 :=
  Host.reduceAdd (mulf x x) (constant S_ .f32 0x00000000#32) reducesTo_S8192x256_S8192_d1 h_S_

/-- Every row divided by its norm. -/
def eArr (x : FVec F S8192x256 .f32) : FVec F S8192x256 .f32 :=
  let nrm : FVec F S8192x1 .f32 := Host.sqrt (broadcastInDim S8192x1 ![0] bcast_S8192_S8192x1_0 (sumSq x))
  Host.divf x (broadcastInDim S8192x256 ![0, 1] bcast_S8192x1_S8192x256_0_1 nrm)

end Cert.Shared

end
-- ==== Proof.KI.Entry.lean ====
/-
  What the region is entered with.

  Before the region the host operations compute two arrays from the arguments: every row of the embeddings divided by
  its Euclidean norm (then narrowed to a 16-bit format, which changes nothing over the extended reals), and the family
  code of every label, laid out once as a column `[8192, 1]` and once as a row `[1, 8192]`. Operation for operation
  these are `Cert.Shared.eArr` of the embeddings and `Cert.Shared.famArr` of the labels.

  At grid point `t` the four input blocks are read off these arrays: the row tile is rows `2048 (t / 8) + p`, the
  column tile is rows `1024 (t % 8) + q`, and the two family-code blocks are the codes of the same rows. A block's
  element `y` sits in its array, on each axis, at the block's index times the block's extent plus `y`'s coordinate.
-/
import proofs.«417721_j28690381537966_3_alg».proof.Proof.KI.Exit
import proofs.«417721_j28690381537966_3_alg».proof.Proof.Shared
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)
open Idealize.ShloMosaic.ValueIdx

variable (m : (ℓ : Loc nD τ sig) → Buf (Elt Ideal) ℓ)

/-! ## The arrays the windows stage -/

/-- The unit rows: the array the row-tile and column-tile windows both stage is every row of the embeddings divided
    by its norm; the narrowing to 16 bits that follows the division is the identity on extended reals. -/
theorem V_unit (c : Dev nD) :
    (V (F := Ideal) m c main_v14 : S8192x256.Idx → EReal) = Cert.Shared.eArr (F := Ideal) (m ((c : Thread nD τ).loc main_arg0)) := by
  dsimp only [V, V0]
  simp only [hostOps0, hostOps0_1, hostOps0_2, hostOps0_3, hostOps0_4, hostOps0_5, List.flatten_cons, List.flatten_nil, List.append_nil, List.cons_append, List.nil_append]
  after_results
  rfl

/-- The family table and the lookup's dimension numbers are the shared ones. -/
theorem lit0_eq_table : (lit0 : Fin 6 → BitVec 32) = Cert.Shared.table := by
  funext i; fin_cases i <;> rfl

theorem gather_eq_lookup : gather_S6_S8192x1_S8192_n_0_n_n_0_1_1 = Cert.Shared.lookup := rfl

/-- The family codes: the label clamped into `[0, 5]`, looked up in the table, and replaced by `-1` where the label
    is not below `6`. -/
theorem V_fam (c : Dev nD) :
    (V (F := Ideal) m c main_v10 : S8192.Idx → BitVec 32) = Cert.Shared.famArr (m ((c : Thread nD τ).loc main_arg1)) := by
  dsimp only [V, V0]
  simp only [hostOps0, hostOps0_1, hostOps0_2, hostOps0_3, hostOps0_4, hostOps0_5, List.flatten_cons, List.flatten_nil, List.append_nil, List.cons_append, List.nil_append]
  after_results_simp
  rw [gather_eq_lookup, lit0_eq_table]
  unfold Cert.Shared.famArr
  dsimp only [TRef.toBuf, TRef.ofBuf, id]
  simp only [cast_eq]
  rfl

/-- The family codes as a column and as a row are re-layings of the same 8192 codes. -/
theorem V_famCol_cast (c : Dev nD) :
    (V (F := Ideal) m c main_v15 : S8192x1.Idx → BitVec 32)
      = shapeCast S8192x1 (V (F := Ideal) m c main_v10 : S8192.Idx → BitVec 32) shapeCasts_S8192_S8192x1 := by
  dsimp only [V, V0]
  simp only [hostOps0, hostOps0_1, hostOps0_2, hostOps0_3, hostOps0_4, hostOps0_5, List.flatten_cons, List.flatten_nil, List.append_nil, List.cons_append, List.nil_append]
  after_results_simp
  rfl

theorem V_famRow_cast (c : Dev nD) :
    (V (F := Ideal) m c main_v16 : S1x8192.Idx → BitVec 32)
      = shapeCast S1x8192 (V (F := Ideal) m c main_v10 : S8192.Idx → BitVec 32) shapeCasts_S8192_S1x8192 := by
  dsimp only [V, V0]
  simp only [hostOps0, hostOps0_1, hostOps0_2, hostOps0_3, hostOps0_4, hostOps0_5, List.flatten_cons, List.flatten_nil, List.append_nil, List.cons_append, List.nil_append]
  after_results_simp
  rfl

/-- The unit rows and the family codes, row by row. -/
abbrev unitRow (c : Dev nD) : Fin 8192 → Fin 256 → EReal :=
  fun r d => Cert.Shared.eArr (F := Ideal) (m ((c : Thread nD τ).loc main_arg0)) (ix2 r d)
abbrev famCode (c : Dev nD) : Fin 8192 → BitVec 32 :=
  fun r => Cert.Shared.famArr (m ((c : Thread nD τ).loc main_arg1)) (ix1 r)

/-- Row `r` of the column of codes, and column `r` of the row of codes, hold row `r`'s family code: both layouts
    keep the row-major position `r`. -/
theorem V_famCol (c : Dev nD) (r : Fin 8192) : V (F := Ideal) m c main_v15 (ix2 r 0) = famCode m c r := by
  rw [V_famCol_cast, shapeCast_apply _ _ _ (ix1 r) (by
    rw [Shape.rowMajor_val_one, Shape.rowMajor_val_two]
    show r.val = r.val * 1 + 0
    omega), V_fam]

theorem V_famRow (c : Dev nD) (r : Fin 8192) : V (F := Ideal) m c main_v16 (ix2 0 r) = famCode m c r := by
  rw [V_famRow_cast, shapeCast_apply _ _ _ (ix1 r) (by
    rw [Shape.rowMajor_val_one, Shape.rowMajor_val_two]
    show r.val = 0 * 8192 + r.val
    omega), V_fam]

/-! ## The blocks at a point -/

/-- Where the four input windows' blocks sit at point `t`: the row-tile windows at row tile `t / 8`, the column-tile
    windows at column tile `t % 8`, each on its one tiled axis. -/
theorem inIdx : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8 :=
  (by decide +kernel : ∀ t : Fin grid0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8)

/-- Row `p` of the row tile at point `t` is unit row `2048 (t / 8) + p`. -/
theorem rowsBlk_apply (c : Dev nD) (t : Fin cfg0.N) (p : Fin 2048) (d : Fin 256) :
    rowsBlk (F := Ideal) m c t (ix2 p d) = unitRow m c (rowOf t p) d := by
  obtain ⟨e0, e1, -, -, -, -, -, -⟩ := inIdx t
  show V m c main_v14 (((cfg0.win 0).blk t).view.emb (ix2 p d)) = _
  rw [V_unit]
  refine congrArg _ (funext fun a => Fin.ext ?_)
  match a with
  | ⟨0, _⟩ =>
    show win0_0.index t (0 : Fin 2) * 2048 + 1 * p.val = 2048 * (t.val / 8) + p.val
    rw [e0]; omega
  | ⟨1, _⟩ =>
    show win0_0.index t (1 : Fin 2) * 256 + 1 * d.val = d.val
    rw [e1]; omega

/-- Row `q` of the column tile at point `t` is unit row `1024 (t % 8) + q`. -/
theorem colsBlk_apply (c : Dev nD) (t : Fin cfg0.N) (q : Fin 1024) (d : Fin 256) :
    colsBlk (F := Ideal) m c t (ix2 q d) = unitRow m c (colOf t q) d := by
  obtain ⟨-, -, e0, e1, -, -, -, -⟩ := inIdx t
  show V m c main_v14 (((cfg0.win 1).blk t).view.emb (ix2 q d)) = _
  rw [V_unit]
  refine congrArg _ (funext fun a => Fin.ext ?_)
  match a with
  | ⟨0, _⟩ =>
    show win0_1.index t (0 : Fin 2) * 1024 + 1 * q.val = 1024 * (t.val % 8) + q.val
    rw [e0]; omega
  | ⟨1, _⟩ =>
    show win0_1.index t (1 : Fin 2) * 256 + 1 * d.val = d.val
    rw [e1]; omega

/-- The row tile's family codes are those of the rows `2048 (t / 8) + p`. -/
theorem famColBlk_apply (c : Dev nD) (t : Fin cfg0.N) (p : Fin 2048) :
    famColBlk (F := Ideal) m c t (ix2 p 0) = famCode m c (rowOf t p) := by
  obtain ⟨-, -, -, -, e0, e1, -, -⟩ := inIdx t
  show V m c main_v15 (((cfg0.win 2).blk t).view.emb (ix2 p 0)) = _
  rw [← V_famCol]
  refine congrArg _ (funext fun a => Fin.ext ?_)
  match a with
  | ⟨0, _⟩ =>
    show win0_2.index t (0 : Fin 2) * 2048 + 1 * p.val = 2048 * (t.val / 8) + p.val
    rw [e0]; omega
  | ⟨1, _⟩ =>
    show win0_2.index t (1 : Fin 2) * 1 + 1 * 0 = 0
    rw [e1]

/-- The column tile's family codes are those of the rows `1024 (t % 8) + q`. -/
theorem famRowBlk_apply (c : Dev nD) (t : Fin cfg0.N) (q : Fin 1024) :
    famRowBlk (F := Ideal) m c t (ix2 0 q) = famCode m c (colOf t q) := by
  obtain ⟨-, -, -, -, -, -, e0, e1⟩ := inIdx t
  show V m c main_v16 (((cfg0.win 3).blk t).view.emb (ix2 0 q)) = _
  rw [← V_famRow]
  refine congrArg _ (funext fun a => Fin.ext ?_)
  match a with
  | ⟨0, _⟩ =>
    show win0_3.index t (0 : Fin 2) * 1 + 1 * 0 = 0
    rw [e0]
  | ⟨1, _⟩ =>
    show win0_3.index t (1 : Fin 2) * 1024 + 1 * q.val = 1024 * (t.val % 8) + q.val
    rw [e1]; omega

end Cert.KernelIdeal.Hand

end
-- ==== Proof.Consts.lean ====
/- The float words this certificate's two programs spell, each as the extended real its IEEE pattern
   denotes at `Ideal`. Every word is decoded once here (sign, biased exponent, mantissa fraction), so that
   the other modules rewrite with these equations and never unfold the decoding themselves. -/
import Idealize.ShloMosaic.PureOps.Ideal

noncomputable section

namespace Cert.Consts

open Idealize.ShloMosaic

/-- `3.0`: sign `+`, exponent `2^1`, mantissa `1.5`. -/
theorem ofBits_three : Ideal.ofBits .f32 0x40400000#32 = ((3 : ℝ) : EReal) := by
  simp [Ideal.ofBits, Ideal.ieee, -EReal.coe_mul]; norm_num

/-- `-3.0`: sign `-`, exponent `2^1`, mantissa `1.5`. -/
theorem ofBits_negThree : Ideal.ofBits .f32 0xC0400000#32 = ((-3 : ℝ) : EReal) := by
  simp [Ideal.ofBits, Ideal.ieee, -EReal.coe_mul]; norm_num

/-- `2.0`: sign `+`, exponent `2^1`, mantissa `1`. -/
theorem ofBits_two : Ideal.ofBits .f32 0x40000000#32 = ((2 : ℝ) : EReal) := by
  simp [Ideal.ofBits, Ideal.ieee, -EReal.coe_mul]; norm_num

/-- `-2.0`: sign `-`, exponent `2^1`, mantissa `1`. -/
theorem ofBits_negTwo : Ideal.ofBits .f32 0xC0000000#32 = ((-2 : ℝ) : EReal) := by
  simp [Ideal.ofBits, Ideal.ieee, -EReal.coe_mul]; norm_num

/-- `4.0`: sign `+`, exponent `2^2`, mantissa `1`. -/
theorem ofBits_four : Ideal.ofBits .f32 0x40800000#32 = ((4 : ℝ) : EReal) := by
  simp [Ideal.ofBits, Ideal.ieee, -EReal.coe_mul]; norm_num

/-- `1.0`: sign `+`, exponent `2^0`, mantissa `1`. -/
theorem ofBits_one : Ideal.ofBits .f32 0x3F800000#32 = ((1 : ℝ) : EReal) := by
  simp [Ideal.ofBits, Ideal.ieee, -EReal.coe_mul]; norm_num

/-- `+0.0` denotes `0`. -/
theorem ofBits_zero : Ideal.ofBits .f32 0x00000000#32 = ((0 : ℝ) : EReal) := by
  simp [Ideal.ofBits, Ideal.ieee]

/-- The all-ones exponent with a zero mantissa and sign `+` denotes `+∞`. -/
theorem ofBits_posInf : Ideal.ofBits .f32 0x7F800000#32 = (⊤ : EReal) := by
  simp [Ideal.ofBits, Ideal.ieee]

/-- The all-ones exponent with a zero mantissa and sign `-` denotes `-∞`. -/
theorem ofBits_negInf : Ideal.ofBits .f32 0xFF800000#32 = (⊥ : EReal) := by
  simp [Ideal.ofBits, Ideal.ieee]

end Cert.Consts

end
-- ==== Proof.KI.Tile.lean ====
/-
  The body's named values read at one index, over the extended reals.

  A row tile of 2048 unit rows meets a column tile of 1024 unit rows. The similarity of row `p` of the first to row `q`
  of the second is the inner product of the two rows, `tsim`. Per row `p` the body keeps the least similarity to a
  row of the same family and the greatest similarity to a row of another family; on the tiles that can meet the
  diagonal of the whole similarity matrix a row is not compared with itself. At the last column tile the two running
  values become the row's loss term and its count. Each lemma below reads one of the body's values at one index as that
  formula; nothing here ranges over the 2048 × 1024 tile.

  The conditionals on propositions are stated with the decidability instances Lean infers for them (equality of
  32-bit words, equality of naturals, the order of the extended reals); no classical instance is opened.
-/
import proofs.«417721_j28690381537966_3_alg».proof.Proof.Gen.KernelIdeal.Skeleton
import proofs.«417721_j28690381537966_3_alg».proof.Proof.Consts
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen
open Idealize.ShloMosaic Idealize.ShloMosaic.ValueIdx
open scoped BigOperators

/-- The similarity of row `p` of the row tile to row `q` of the column tile: the inner product of the two rows. -/
def tsim (x0 : Vec Ideal S2048x256 .bf16) (x1 : Vec Ideal S1024x256 .bf16) (p : Fin 2048) (q : Fin 1024) : EReal :=
  ∑ d : Fin 256, x0 (ix2 p d) * x1 (ix2 q d)

/-! ## The sentinels -/

/-- The running least same-family similarity starts at `3`, above every similarity of unit rows. -/
theorem pay1_apply (p : Fin 2048) : k0_pay1 (F := Ideal) (ix2 p 0) = ((3 : ℝ) : EReal) := by
  unfold k0_pay1
  rw [shapeCast_self]
  exact Cert.Consts.ofBits_three

/-- The running greatest other-family similarity starts at `-3`, below every similarity of unit rows. -/
theorem pay2_apply (p : Fin 2048) : k0_pay2 (F := Ideal) (ix2 p 0) = ((-3 : ℝ) : EReal) := by
  unfold k0_pay2
  rw [shapeCast_self]
  exact Cert.Consts.ofBits_negThree

/-! ## The tile's similarities -/

/-- The left operand's row coordinate is the result's row coordinate. -/
theorem lhs_axis0 (i : S2048x1024.Idx) (k : dot_S2048x256_S1024x256_S2048x1024_1_1_0_0_n_n.contr.Idx) :
    (dot_S2048x256_S1024x256_S2048x1024_1_1_0_0_n_n.lhsIdx i k 0).val = (i 0).val := by
  unfold DotDims.lhsIdx
  rw [dif_neg (show ¬(0 : Fin S2048x256.rank) ∈ dot_S2048x256_S1024x256_S2048x1024_1_1_0_0_n_n.lhsBatch by decide),
    dif_pos (show (0 : Fin S2048x256.rank) ∈ dot_S2048x256_S1024x256_S2048x1024_1_1_0_0_n_n.lhsNonContracting by decide)]
  rfl
/-- The left operand's column coordinate is the summation index. -/
theorem lhs_axis1 (i : S2048x1024.Idx) (k : dot_S2048x256_S1024x256_S2048x1024_1_1_0_0_n_n.contr.Idx) :
    (dot_S2048x256_S1024x256_S2048x1024_1_1_0_0_n_n.lhsIdx i k 1).val = (k ⟨0, by decide⟩).val :=
  dot_S2048x256_S1024x256_S2048x1024_1_1_0_0_n_n.lhsIdx_val_of_single rfl i k
/-- The right operand's row coordinate is the result's column coordinate. -/
theorem rhs_axis0 (i : S2048x1024.Idx) (k : dot_S2048x256_S1024x256_S2048x1024_1_1_0_0_n_n.contr.Idx) :
    (dot_S2048x256_S1024x256_S2048x1024_1_1_0_0_n_n.rhsIdx i k 0).val = (i 1).val := by
  unfold DotDims.rhsIdx
  rw [dif_neg (show ¬(0 : Fin S1024x256.rank) ∈ dot_S2048x256_S1024x256_S2048x1024_1_1_0_0_n_n.rhsBatch by decide),
    dif_pos (show (0 : Fin S1024x256.rank) ∈ dot_S2048x256_S1024x256_S2048x1024_1_1_0_0_n_n.rhsNonContracting by decide)]
  rfl
/-- The right operand's column coordinate is the summation index. -/
theorem rhs_axis1 (i : S2048x1024.Idx) (k : dot_S2048x256_S1024x256_S2048x1024_1_1_0_0_n_n.contr.Idx) :
    (dot_S2048x256_S1024x256_S2048x1024_1_1_0_0_n_n.rhsIdx i k 1).val = (k ⟨0, by decide⟩).val :=
  dot_S2048x256_S1024x256_S2048x1024_1_1_0_0_n_n.rhsIdx_val_of_single rfl i k

/-- The product of the row tile with the transposed column tile, at `(p, q)`: the inner product of row `p` and row `q`. -/
theorem pay3_apply (x0 : Vec Ideal S2048x256 .bf16) (x1 : Vec Ideal S1024x256 .bf16) (p : Fin 2048) (q : Fin 1024) :
    k0_pay3 x0 x1 (ix2 p q) = tsim x0 x1 p q := by
  unfold k0_pay3 tsim
  simp only [shapeCast_self, matmul]
  rw [Ideal.matmul_constant_zero_apply,
    ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 p q)
      ((contrEquiv1 dot_S2048x256_S1024x256_S2048x1024_1_1_0_0_n_n 256 rfl rfl).symm k) = ix2 p k :=
    funext fun a => Fin.ext (by
      match a with
      | ⟨0, _⟩ => exact lhs_axis0 _ _
      | ⟨1, _⟩ => exact (lhs_axis1 _ _).trans hk)
  have er : dot_S2048x256_S1024x256_S2048x1024_1_1_0_0_n_n.rhsIdx (ix2 p q)
      ((contrEquiv1 dot_S2048x256_S1024x256_S2048x1024_1_1_0_0_n_n 256 rfl rfl).symm k) = ix2 q k :=
    funext fun a => Fin.ext (by
      match a with
      | ⟨0, _⟩ => exact rhs_axis0 _ _
      | ⟨1, _⟩ => exact (rhs_axis1 _ _).trans hk)
  rw [el, er]

/-! ## Same family -/

/-- The row tile's family codes, a column, spread over the tile: at `(p, q)` row `p`'s code. -/
theorem bcastCol_apply {α : Type} (v : S2048x1.Idx → α) (p : Fin 2048) (q : Fin 1024) :
    broadcastTo S2048x1024 v broadcasts_S2048x1_S2048x1024 (ix2 p q) = v (ix2 p 0) := by
  refine broadcastTo_apply v _ (ix2 p q) (ix2 p 0) fun ax => ?_
  match ax with
  | ⟨0, _⟩ => rfl
  | ⟨1, _⟩ => rfl

/-- The column tile's family codes, a row, spread over the tile: at `(p, q)` row `q`'s code. -/
theorem bcastRow_apply {α : Type} (v : S1x1024.Idx → α) (p : Fin 2048) (q : Fin 1024) :
    broadcastTo S2048x1024 v broadcasts_S1x1024_S2048x1024 (ix2 p q) = v (ix2 0 q) :=
  broadcastTo_1b_ab_apply v _ p q

/-- Whether row `p` of the row tile and row `q` of the column tile carry the same family code. -/
theorem pay4_apply (x2 : Vec Ideal S2048x1 .i32) (x3 : Vec Ideal S1x1024 .i32) (p : Fin 2048) (q : Fin 1024) :
    k0_pay4 (F := Ideal) x2 x3 (ix2 p q) = (if x2 (ix2 p 0) = x3 (ix2 0 q) then 1#1 else 0#1) := by
  unfold k0_pay4
  simp only [shapeCast_self]
  show IntOp.cmpi .eq _ _ = _
  rw [bcastCol_apply, bcastRow_apply]
  unfold IntOp.cmpi
  by_cases h : x2 (ix2 p 0) = x3 (ix2 0 q)
  · rw [if_pos h, h, beq_self_eq_true]; rfl
  · rw [if_neg h, beq_eq_false_iff_ne.mpr h]; rfl

/-! ## A row's least and greatest over the lanes -/

/-- The tile index over row `p` whose lane is `q`. -/
theorem lift_row (p : Fin 2048) (q : Fin 1024) : reduces_S2048x1024_S2048.lift (ix1 p) q = ix2 p q :=
  funext fun c => Fin.ext (by
    match c with
    | ⟨0, _⟩ => rfl
    | ⟨1, _⟩ => rfl)

/-- Folding `min` from `⊤` over every index is the infimum. -/
theorem fold_min_univ {ι : Type} [Fintype ι] (b : EReal) (hb : b = ⊤) (f g : ι → EReal) (hfg : ∀ k, f k = g k) :
    (Finset.univ : Finset ι).fold min b f = ⨅ k, g k := by
  subst hb
  rw [show f = g from funext hfg, ← Finset.inf_univ_eq_iInf]
  rfl
/-- Folding `max` from `⊥` over every index is the supremum. -/
theorem fold_max_univ {ι : Type} [Fintype ι] (b : EReal) (hb : b = ⊥) (f g : ι → EReal) (hfg : ∀ k, f k = g k) :
    (Finset.univ : Finset ι).fold max b f = ⨆ k, g k := by
  subst hb
  rw [show f = g from funext hfg, ← Finset.sup_univ_eq_iSup]
  rfl

/-- The least over the lanes, from `+∞`, at row `p`: the infimum of the row. -/
theorem rowMin_apply (v : FVec Ideal S2048x1024 .f32) (hφ : FKind.Formats .f32)
    (hacc : (0x7F800000#32 : BitVec 32) = FKind.minimumf.neutral .f32 hφ) (p : Fin 2048) :
    multiReduction (F := Ideal) .minimumf [1] S2048 v 0x7F800000#32 reduces_S2048x1024_S2048 hφ hacc (ix1 p)
      = ⨅ q : Fin 1024, v (ix2 p q) := by
  rw [multiReduction_minimumf_eq_fold, reduces_S2048x1024_S2048.fold_filter_drop_single]
  exact fold_min_univ _ Cert.Consts.ofBits_posInf _ _ fun q => congrArg v (lift_row p q)

/-- The greatest over the lanes, from `-∞`, at row `p`: the supremum of the row. -/
theorem rowMax_apply (v : FVec Ideal S2048x1024 .f32) (hφ : FKind.Formats .f32)
    (hacc : (0xFF800000#32 : BitVec 32) = FKind.maximumf.neutral .f32 hφ) (p : Fin 2048) :
    multiReduction (F := Ideal) .maximumf [1] S2048 v 0xFF800000#32 reduces_S2048x1024_S2048 hφ hacc (ix1 p)
      = ⨆ q : Fin 1024, v (ix2 p q) := by
  rw [Ideal.multiReduction_maximumf_single]
  exact fold_max_univ _ Cert.Consts.ofBits_negInf _ _ fun q => congrArg v (lift_row p q)

/-- A vector of 2048 values seen as a column reads, at `(p, 0)`, its value at `p`. -/
theorem colCast_apply {α : Type} (v : S2048.Idx → α) (p : Fin 2048) :
    shapeCast S2048x1 v shapeCasts_S2048_S2048x1 (ix2 p 0) = v (ix1 p) :=
  shapeCast_apply v _ _ _ (by
    rw [Shape.rowMajor_val_two, Shape.rowMajor_val_one]
    show p.val = p.val * 1 + 0
    omega)

/-! ## Conditions as bits -/

/-- A select on a decided condition's bit is the conditional. -/
theorem sel_apply (c : Prop) [Decidable c] (a b : EReal) :
    Scalar.select (if c then 1#1 else 0#1) a b = if c then a else b := by
  by_cases h : c
  · rw [if_pos h, if_pos h]; exact select_one a b
  · rw [if_neg h, if_neg h]; exact select_zero a b

/-- A select on the flipped bit of a decided condition is the conditional on its negation. -/
theorem sel_not_apply (c : Prop) [Decidable c] (a b : EReal) :
    Scalar.select (IntOp.xori (if c then 1#1 else 0#1) 1#1) a b = if ¬c then a else b := by
  by_cases h : c
  · rw [if_pos h, if_neg (not_not.mpr h)]; exact select_zero a b
  · rw [if_neg h, if_pos h]; exact select_one a b

/-- The bit of "both": the conjunction. -/
theorem and_bit (c d : Prop) [Decidable c] [Decidable d] :
    IntOp.andi (if c then 1#1 else 0#1) (if d then 1#1 else 0#1) = if c ∧ d then 1#1 else 0#1 := by
  by_cases hc : c <;> by_cases hd : d <;> simp only [hc, hd, if_true, if_false, and_self, and_false, false_and] <;> rfl

/-- The bit of "the first and not the second". -/
theorem and_not_bit (c d : Prop) [Decidable c] [Decidable d] :
    IntOp.andi (if c then 1#1 else 0#1) (IntOp.xori (if d then 1#1 else 0#1) 1#1) = if c ∧ ¬d then 1#1 else 0#1 := by
  by_cases hc : c <;> by_cases hd : d <;>
    simp only [hc, hd, if_true, if_false, and_self, and_false, false_and, not_true_eq_false, not_false_eq_true, and_true] <;> rfl

/-- Equality of two words as a bit. -/
theorem cmpi_eq_bit (a b : BitVec 32) : IntOp.cmpi .eq a b = if a = b then 1#1 else 0#1 := by
  unfold IntOp.cmpi
  by_cases h : a = b
  · rw [if_pos h, h, beq_self_eq_true]; rfl
  · rw [if_neg h, beq_eq_false_iff_ne.mpr h]; rfl

/-! ## The plain update -/

/-- Off the diagonal's tiles the running least same-family similarity of row `p` takes in every same-family row of the
    column tile; a row of another family counts as the sentinel `3`. -/
theorem pay7_apply (x0 : Vec Ideal S2048x256 .bf16) (x1 : Vec Ideal S1024x256 .bf16) (x2 : Vec Ideal S2048x1 .i32)
    (x3 : Vec Ideal S1x1024 .i32) (s : Vec Ideal S2048x1 .f32) (p : Fin 2048) :
    k0_pay7 x0 x1 x2 x3 s (ix2 p 0)
      = min (s (ix2 p 0)) (⨅ q : Fin 1024, if x2 (ix2 p 0) = x3 (ix2 0 q) then tsim x0 x1 p q else ((3 : ℝ) : EReal)) := by
  unfold k0_pay7
  rw [shapeCast_self]
  refine (minimumf_apply _ _ _).trans ?_
  refine congrArg (min (s (ix2 p 0))) ?_
  refine (colCast_apply _ p).trans ?_
  refine (rowMin_apply _ _ _ p).trans ?_
  refine iInf_congr fun q => ?_
  rw [select_apply, pay4_apply, pay3_apply, sel_apply, broadcast_apply]
  exact if_congr Iff.rfl rfl Cert.Consts.ofBits_three

/-- Likewise the running greatest other-family similarity takes in every other-family row of the column tile; a row of
    the same family counts as the sentinel `-3`. -/
theorem pay8_apply (x0 : Vec Ideal S2048x256 .bf16) (x1 : Vec Ideal S1024x256 .bf16) (x2 : Vec Ideal S2048x1 .i32)
    (x3 : Vec Ideal S1x1024 .i32) (s : Vec Ideal S2048x1 .f32) (p : Fin 2048) :
    k0_pay8 x0 x1 x2 x3 s (ix2 p 0)
      = max (s (ix2 p 0)) (⨆ q : Fin 1024, if x2 (ix2 p 0) ≠ x3 (ix2 0 q) then tsim x0 x1 p q else ((-3 : ℝ) : EReal)) := by
  unfold k0_pay8
  rw [shapeCast_self]
  refine (maximumf_apply _ _ _).trans ?_
  refine congrArg (max (s (ix2 p 0))) ?_
  refine (colCast_apply _ p).trans ?_
  refine (rowMax_apply _ _ _ p).trans ?_
  refine iSup_congr fun q => ?_
  rw [select_apply, pay3_apply, broadcast_apply]
  show Scalar.select (IntOp.xori (k0_pay4 (F := Ideal) x2 x3 (ix2 p q)) 1#1) _ _ = _
  rw [pay4_apply, sel_not_apply]
  exact if_congr Iff.rfl rfl Cert.Consts.ofBits_negThree

/-! ## The update on a tile that can meet the diagonal -/

/-- The row number along the tile's rows. -/
theorem iotaRow_apply (p : Fin 2048) (q : Fin 1024) :
    iota .tc S2048x1024 32 [0] iota_S2048x1024_d0_w32 (ix2 p q) = BitVec.ofNat 32 p.val :=
  iota_single_apply .tc S2048x1024 32 0 _ (ix2 p q)
/-- The lane number along the tile's lanes. -/
theorem iotaCol_apply (p : Fin 2048) (q : Fin 1024) :
    iota .tc S2048x1024 32 [1] iota_S2048x1024_d1_w32 (ix2 p q) = BitVec.ofNat 32 q.val :=
  iota_single_apply .tc S2048x1024 32 1 _ (ix2 p q)

/-- Row `p` of row tile `a` and row `q` of column tile `b` are the same row of the whole array exactly when their
    32-bit row numbers agree: with at most 4 row tiles of 2048 and 8 column tiles of 1024 nothing wraps. -/
theorem diag_word (a b p q : ℕ) (ha : a < 4) (hb : b < 8) (hp : p < 2048) (hq : q < 1024) :
    IntOp.addi (Scalar.muli (BitVec.ofNat 32 a) 2048#32) (BitVec.ofNat 32 p)
        = IntOp.addi (Scalar.muli (BitVec.ofNat 32 b) 1024#32) (BitVec.ofNat 32 q)
      ↔ 2048 * a + p = 1024 * b + q := by
  show BitVec.ofNat 32 a * 2048#32 + BitVec.ofNat 32 p = BitVec.ofNat 32 b * 1024#32 + BitVec.ofNat 32 q ↔ _
  rw [← BitVec.toNat_inj]
  simp only [BitVec.toNat_add, BitVec.toNat_mul, BitVec.toNat_ofNat]
  omega

/-- On a tile that can meet the diagonal the running least same-family similarity of row `p` leaves out row `p` itself. -/
theorem pay5_apply (i : grid0.Coords) (x0 : Vec Ideal S2048x256 .bf16) (x1 : Vec Ideal S1024x256 .bf16)
    (x2 : Vec Ideal S2048x1 .i32) (x3 : Vec Ideal S1x1024 .i32) (s : Vec Ideal S2048x1 .f32) (p : Fin 2048) :
    k0_pay5 i x0 x1 x2 x3 s (ix2 p 0)
      = min (s (ix2 p 0)) (⨅ q : Fin 1024,
          if x2 (ix2 p 0) = x3 (ix2 0 q) ∧ 2048 * (i 0).val + p.val ≠ 1024 * (i 1).val + q.val then tsim x0 x1 p q
          else ((3 : ℝ) : EReal)) := by
  unfold k0_pay5
  rw [shapeCast_self]
  refine (minimumf_apply _ _ _).trans ?_
  refine congrArg (min (s (ix2 p 0))) ?_
  refine (colCast_apply _ p).trans ?_
  refine (rowMin_apply _ _ _ p).trans ?_
  refine iInf_congr fun q => ?_
  rw [select_apply, pay3_apply, broadcast_apply]
  show Scalar.select (IntOp.andi (k0_pay4 (F := Ideal) x2 x3 (ix2 p q))
    (IntOp.xori (IntOp.cmpi .eq
      (IntOp.addi (Scalar.muli (BitVec.ofNat 32 (i 0).val) 2048#32) (iota .tc S2048x1024 32 [0] iota_S2048x1024_d0_w32 (ix2 p q)))
      (IntOp.addi (Scalar.muli (BitVec.ofNat 32 (i 1).val) 1024#32) (iota .tc S2048x1024 32 [1] iota_S2048x1024_d1_w32 (ix2 p q))))
      1#1)) _ _ = _
  rw [pay4_apply, iotaRow_apply, iotaCol_apply, cmpi_eq_bit, and_not_bit, sel_apply]
  exact if_congr (and_congr Iff.rfl (not_congr (diag_word _ _ _ _ (i 0).isLt (i 1).isLt p.isLt q.isLt))) rfl
    Cert.Consts.ofBits_three

/-- There the running greatest other-family similarity is updated as everywhere: a row is of its own family. -/
theorem pay6_apply (x0 : Vec Ideal S2048x256 .bf16) (x1 : Vec Ideal S1024x256 .bf16) (x2 : Vec Ideal S2048x1 .i32)
    (x3 : Vec Ideal S1x1024 .i32) (s : Vec Ideal S2048x1 .f32) (p : Fin 2048) :
    k0_pay6 x0 x1 x2 x3 s (ix2 p 0)
      = max (s (ix2 p 0)) (⨆ q : Fin 1024, if x2 (ix2 p 0) ≠ x3 (ix2 0 q) then tsim x0 x1 p q else ((-3 : ℝ) : EReal)) := by
  unfold k0_pay6
  rw [shapeCast_self]
  refine (maximumf_apply _ _ _).trans ?_
  refine congrArg (max (s (ix2 p 0))) ?_
  refine (colCast_apply _ p).trans ?_
  refine (rowMax_apply _ _ _ p).trans ?_
  refine iSup_congr fun q => ?_
  rw [select_apply, pay3_apply, broadcast_apply]
  show Scalar.select (IntOp.xori (k0_pay4 (F := Ideal) x2 x3 (ix2 p q)) 1#1) _ _ = _
  rw [pay4_apply, sel_not_apply]
  exact if_congr Iff.rfl rfl Cert.Consts.ofBits_negThree

/-! ## The row's term and count -/

/-- "Less than" on the extended reals as a bit. -/
theorem cmp_olt_bit (x y : EReal) : Ideal.cmp .olt x y = if x < y then 1#1 else 0#1 := by
  unfold Ideal.cmp
  by_cases h : x < y
  · rw [if_pos h, decide_eq_true h]; rfl
  · rw [if_neg h, decide_eq_false h]; rfl
/-- "Greater than" on the extended reals as a bit. -/
theorem cmp_ogt_bit (x y : EReal) : Ideal.cmp .ogt x y = if y < x then 1#1 else 0#1 := by
  unfold Ideal.cmp
  by_cases h : y < x
  · rw [if_pos h, decide_eq_true h]; rfl
  · rw [if_neg h, decide_eq_false h]; rfl

/-- A decided condition's bit, widened to a word and read as a signed integer, is `1` or `0`. -/
theorem bit_toReal (c : Prop) [Decidable c] :
    FloatOps.sitofp (F := Ideal) .f32 ((if c then 1#1 else 0#1 : BitVec 1).setWidth 32)
      = if c then ((1 : ℝ) : EReal) else ((0 : ℝ) : EReal) := by
  by_cases h : c
  · rw [if_pos h, if_pos h]
    show ((((1#1 : BitVec 1).setWidth 32).toInt : ℝ) : EReal) = _
    rw [show ((1#1 : BitVec 1).setWidth 32).toInt = 1 by decide, Int.cast_one]
  · rw [if_neg h, if_neg h]
    show ((((0#1 : BitVec 1).setWidth 32).toInt : ℝ) : EReal) = _
    rw [show ((0#1 : BitVec 1).setWidth 32).toInt = 0 by decide, Int.cast_zero]

/-- Whether row `p` has both a same-family row other than itself (its least such similarity `a` stayed below `2`) and an
    other-family row (its greatest such similarity `b` rose above `-2`). -/
theorem pay9_apply (a b : Vec Ideal S2048x1 .f32) (p : Fin 2048) :
    k0_pay9 a b (ix2 p 0)
      = (if a (ix2 p 0) < ((2 : ℝ) : EReal) ∧ ((-2 : ℝ) : EReal) < b (ix2 p 0) then 1#1 else 0#1) := by
  unfold k0_pay9
  show IntOp.andi (Ideal.cmp .olt (a (ix2 p 0)) (Ideal.ofBits .f32 0x40000000#32))
    (Ideal.cmp .ogt (b (ix2 p 0)) (Ideal.ofBits .f32 0xC0000000#32)) = _
  rw [Cert.Consts.ofBits_two, Cert.Consts.ofBits_negTwo, cmp_olt_bit, cmp_ogt_bit, and_bit]

/-- The row's count: `1` when it has both, else `0`. -/
theorem pay11_apply (a b : Vec Ideal S2048x1 .f32) (p : Fin 2048) :
    k0_pay11 a b (ix2 p 0)
      = (if a (ix2 p 0) < ((2 : ℝ) : EReal) ∧ ((-2 : ℝ) : EReal) < b (ix2 p 0) then ((1 : ℝ) : EReal) else ((0 : ℝ) : EReal)) := by
  unfold k0_pay11
  show FloatOps.sitofp (F := Ideal) .f32 ((k0_pay9 a b (ix2 p 0)).setWidth 32) = _
  rw [pay9_apply, bit_toReal]

/-- The row's loss term: the distance to the hardest same-family row minus the distance to the hardest other-family
    row plus the margin, cut off below at `0`, counted only when the row has both. -/
theorem pay10_apply (a b : Vec Ideal S2048x1 .f32) (p : Fin 2048) :
    k0_pay10 a b (ix2 p 0)
      = max (((((1 : ℝ) : EReal) - a (ix2 p 0)) - (((1 : ℝ) : EReal) - b (ix2 p 0))) + Ideal.ofBits .f32 0x3E99999A#32)
            ((0 : ℝ) : EReal)
          * (if a (ix2 p 0) < ((2 : ℝ) : EReal) ∧ ((-2 : ℝ) : EReal) < b (ix2 p 0) then ((1 : ℝ) : EReal)
             else ((0 : ℝ) : EReal)) := by
  unfold k0_pay10
  show max (((Ideal.ofBits .f32 0x3F800000#32 - a (ix2 p 0)) - (Ideal.ofBits .f32 0x3F800000#32 - b (ix2 p 0)))
        + Ideal.ofBits .f32 0x3E99999A#32) (Ideal.ofBits .f32 0x00000000#32)
      * FloatOps.sitofp (F := Ideal) .f32 ((k0_pay9 a b (ix2 p 0)).setWidth 32) = _
  rw [pay9_apply, bit_toReal, Cert.Consts.ofBits_one, Cert.Consts.ofBits_zero]

end Cert.KernelIdeal.Tile

end
-- ==== Proof.Spec.lean ====
/-
  The two results as formulas, index by index, over the unit rows `e` (row `r`, coordinate `d`), the family
  code `fam r` of each row and the margin `mg`.

  Both sides mine, for every row `r`, its hardest positive (the least similar row of the same family, `r` itself
  apart) and its hardest negative (the most similar row of another family), where the similarity of two rows is
  their inner product `sim r c = ∑ d, e r d · e c d`.

  * One side works on similarities: `kMin r` is the least similarity to a same-family row, started from the
    sentinel `3`, `kMax r` the greatest similarity to an other-family row, started from `-3`; the row counts when
    `kMin r < 2` and `-2 < kMax r`; its term is `max ((1 - kMin r) - (1 - kMax r) + mg) 0`.
  * The other side works on distances `1 - sim r c`: `rPos r` is the greatest distance to a same-family row (fill
    `-2`), `rNeg r` the least distance to an other-family row (fill `4`), both only among rows whose family code is
    not negative; the row counts when its code is not negative and it has a same-family and an other-family row;
    its term is `max (rPos r - rNeg r + mg) 0`.
  Each side divides the sum of the counting rows' terms by the number of counting rows, or by `1` if there is none.

  `kOut_eq_rOut`: when every row of `e` is a real unit vector and no family code is negative, the two agree. The
  reason is the Cauchy–Schwarz inequality: every similarity lies in `[-1, 1]`, so the sentinels `3`, `-3` never win
  against a real similarity and the thresholds `2`, `-2` tell exactly whether one was met, while
  `max (1 - s) = 1 - min s` turns the one side's extrema into the other's.
-/
import Idealize.ShloMosaic.PureOps.Ideal
import Mathlib.Data.EReal.Operations
import Mathlib.Algebra.Order.BigOperators.Ring.Finset
import Mathlib.Algebra.BigOperators.Ring.Finset
import Mathlib.Algebra.Order.Ring.Abs
import Mathlib.Data.Finset.Max
import Mathlib.Data.Nat.Cast.Order.Ring

noncomputable section

namespace Cert.Spec

open Idealize.ShloMosaic
open scoped BigOperators

variable (e : Fin 8192 → Fin 256 → EReal) (fam : Fin 8192 → BitVec 32) (mg : EReal)

/-- The similarity of rows `r` and `c`. -/
def sim (r c : Fin 8192) : EReal := ∑ d : Fin 256, e r d * e c d

/-! ## Mining on similarities -/

def kMin (r : Fin 8192) : EReal :=
  min ((3 : ℝ) : EReal) (⨅ c : Fin 8192, if fam r = fam c ∧ r ≠ c then sim e r c else ((3 : ℝ) : EReal))

def kMax (r : Fin 8192) : EReal :=
  max ((-3 : ℝ) : EReal) (⨆ c : Fin 8192, if fam r ≠ fam c then sim e r c else ((-3 : ℝ) : EReal))

def kValid (r : Fin 8192) : Prop := kMin e fam r < ((2 : ℝ) : EReal) ∧ ((-2 : ℝ) : EReal) < kMax e fam r

open Classical in
def kInd (r : Fin 8192) : EReal := if kValid e fam r then ((1 : ℝ) : EReal) else ((0 : ℝ) : EReal)

def kTerm (r : Fin 8192) : EReal :=
  max (((((1 : ℝ) : EReal) - kMin e fam r) - (((1 : ℝ) : EReal) - kMax e fam r)) + mg) ((0 : ℝ) : EReal) * kInd e fam r

def kOut : EReal :=
  Ideal.div (∑ r : Fin 8192, kTerm e fam mg r) (max (∑ r : Fin 8192, kInd e fam r) ((1 : ℝ) : EReal))

/-! ## Mining on distances -/

def okRow (r : Fin 8192) : Prop := 0 ≤ (fam r).toInt

def rSame (r c : Fin 8192) : Prop := (fam r = fam c ∧ okRow fam r) ∧ r ≠ c

def rDiff (r c : Fin 8192) : Prop := (fam r ≠ fam c ∧ okRow fam c) ∧ okRow fam r

open Classical in
def rPos (r : Fin 8192) : EReal :=
  ⨆ c : Fin 8192, if rSame fam r c then ((1 : ℝ) : EReal) - sim e r c else ((-2 : ℝ) : EReal)

open Classical in
def rNeg (r : Fin 8192) : EReal :=
  ⨅ c : Fin 8192, if rDiff fam r c then ((1 : ℝ) : EReal) - sim e r c else ((4 : ℝ) : EReal)

def rValid (r : Fin 8192) : Prop := (okRow fam r ∧ ∃ c, rSame fam r c) ∧ ∃ c, rDiff fam r c

open Classical in
def rInd (r : Fin 8192) : EReal := if rValid fam r then ((1 : ℝ) : EReal) else ((0 : ℝ) : EReal)

def rTerm (r : Fin 8192) : EReal :=
  max ((rPos e fam r - rNeg e fam r) + mg) ((0 : ℝ) : EReal) * rInd fam r

open Classical in
/-- How many rows count. -/
def rCount : ℕ := (Finset.univ.filter fun r : Fin 8192 => rValid fam r).card

def rOut : EReal :=
  Ideal.div (∑ r : Fin 8192, rTerm e fam mg r) (((max (rCount fam) 1 : ℕ) : ℝ) : EReal)

/-! ## Real sums read in the extended reals -/

/-- A finite sum of reals, read in the extended reals, is the sum of the readings. -/
theorem coe_sum_coords (S : Finset (Fin 256)) (g : Fin 256 → ℝ) :
    (∑ d ∈ S, ((g d : ℝ) : EReal)) = ((∑ d ∈ S, g d : ℝ) : EReal) := by
  classical
  induction S using Finset.induction_on with
  | empty => simp
  | insert a S ha ih => rw [Finset.sum_insert ha, Finset.sum_insert ha, ih, EReal.coe_add]

/-- Cauchy–Schwarz for two unit vectors: their inner product lies in `[-1, 1]`. -/
theorem unit_inner_bounds (u v : Fin 256 → ℝ) (hu : ∑ d : Fin 256, u d * u d = 1)
    (hv : ∑ d : Fin 256, v d * v d = 1) :
    -1 ≤ ∑ d : Fin 256, u d * v d ∧ ∑ d : Fin 256, u d * v d ≤ 1 := by
  have h := Finset.sum_mul_sq_le_sq_mul_sq Finset.univ u v
  have hu' : ∑ d : Fin 256, u d ^ 2 = 1 := by simpa only [sq] using hu
  have hv' : ∑ d : Fin 256, v d ^ 2 = 1 := by simpa only [sq] using hv
  rw [hu', hv', mul_one, sq_le_one_iff_abs_le_one] at h
  exact abs_le.mp h

/-! ## Extrema over the rows picked by a predicate -/

section Mining

variable (P P' : Fin 8192 → Prop) [DecidablePred P] [DecidablePred P']
  (t : Fin 8192 → EReal) (s : Fin 8192 → ℝ)

/-- Among the rows a predicate picks, if there is one, some row has the least value. -/
theorem exists_least (h : ∃ c, P c) : ∃ c₁, P c₁ ∧ ∀ c, P c → s c₁ ≤ s c := by
  classical
  obtain ⟨c₀, h₀⟩ := h
  obtain ⟨c₁, h₁, hmin⟩ := Finset.exists_min_image (Finset.univ.filter P) s ⟨c₀, by simp [h₀]⟩
  refine ⟨c₁, by simpa using h₁, fun c hc => hmin c (by simp [hc])⟩

/-- Among the rows a predicate picks, if there is one, some row has the greatest value. -/
theorem exists_greatest (h : ∃ c, P c) : ∃ c₁, P c₁ ∧ ∀ c, P c → s c ≤ s c₁ := by
  classical
  obtain ⟨c₀, h₀⟩ := h
  obtain ⟨c₁, h₁, hmax⟩ := Finset.exists_max_image (Finset.univ.filter P) s ⟨c₀, by simp [h₀]⟩
  refine ⟨c₁, by simpa using h₁, fun c hc => hmax c (by simp [hc])⟩

/-- The least value over the picked rows, started from the sentinel `3`, and the greatest distance
`1 - value` over the same rows, filled with `-2`: when a row is picked and no value exceeds `1`, the first is a
real `m ≤ 1` and the second is `1 - m`. -/
theorem mine_least (hPP' : ∀ c, P c ↔ P' c) (ht : ∀ c, t c = ((s c : ℝ) : EReal))
    (hhi : ∀ c, s c ≤ 1) (h : ∃ c, P c) :
    ∃ m : ℝ, m ≤ 1 ∧
      min ((3 : ℝ) : EReal) (⨅ c : Fin 8192, if P c then t c else ((3 : ℝ) : EReal)) = ((m : ℝ) : EReal) ∧
      (⨆ c : Fin 8192, if P' c then ((1 : ℝ) : EReal) - t c else ((-2 : ℝ) : EReal))
        = (((1 : ℝ) - m : ℝ) : EReal) := by
  obtain ⟨c₁, h₁, hmin⟩ := exists_least P s h
  have hinf : (⨅ c : Fin 8192, if P c then t c else ((3 : ℝ) : EReal)) = ((s c₁ : ℝ) : EReal) := by
    apply le_antisymm
    · refine iInf_le_of_le c₁ ?_
      rw [if_pos h₁, ht]
    · refine le_iInf fun c => ?_
      by_cases hc : P c
      · rw [if_pos hc, ht, EReal.coe_le_coe_iff]
        exact hmin c hc
      · rw [if_neg hc, EReal.coe_le_coe_iff]
        linarith [hhi c₁]
  refine ⟨s c₁, hhi c₁, ?_, ?_⟩
  · rw [hinf, min_eq_right]
    rw [EReal.coe_le_coe_iff]
    linarith [hhi c₁]
  · apply le_antisymm
    · refine iSup_le fun c => ?_
      by_cases hc : P' c
      · rw [if_pos hc, ht, ← EReal.coe_sub, EReal.coe_le_coe_iff]
        linarith [hmin c ((hPP' c).2 hc)]
      · rw [if_neg hc, EReal.coe_le_coe_iff]
        linarith [hhi c₁]
    · refine le_iSup_of_le c₁ ?_
      rw [if_pos ((hPP' c₁).1 h₁), ht, ← EReal.coe_sub]

/-- With no picked row the least value stays at its sentinel `3`. -/
theorem mine_least_none (h : ¬ ∃ c, P c) :
    min ((3 : ℝ) : EReal) (⨅ c : Fin 8192, if P c then t c else ((3 : ℝ) : EReal)) = ((3 : ℝ) : EReal) := by
  have hinf : (⨅ c : Fin 8192, if P c then t c else ((3 : ℝ) : EReal)) = ((3 : ℝ) : EReal) := by
    have : ∀ c : Fin 8192, (if P c then t c else ((3 : ℝ) : EReal)) = ((3 : ℝ) : EReal) :=
      fun c => if_neg fun hc => h ⟨c, hc⟩
    simp only [this, iInf_const]
  rw [hinf, min_self]

/-- The greatest value over the picked rows, started from the sentinel `-3`, and the least distance
`1 - value` over the same rows, filled with `4`: when a row is picked and no value is below `-1`, the first is a
real `M ≥ -1` and the second is `1 - M`. -/
theorem mine_greatest (hPP' : ∀ c, P c ↔ P' c) (ht : ∀ c, t c = ((s c : ℝ) : EReal))
    (hlo : ∀ c, -1 ≤ s c) (h : ∃ c, P c) :
    ∃ M : ℝ, -1 ≤ M ∧
      max ((-3 : ℝ) : EReal) (⨆ c : Fin 8192, if P c then t c else ((-3 : ℝ) : EReal)) = ((M : ℝ) : EReal) ∧
      (⨅ c : Fin 8192, if P' c then ((1 : ℝ) : EReal) - t c else ((4 : ℝ) : EReal))
        = (((1 : ℝ) - M : ℝ) : EReal) := by
  obtain ⟨c₁, h₁, hmax⟩ := exists_greatest P s h
  have hsup : (⨆ c : Fin 8192, if P c then t c else ((-3 : ℝ) : EReal)) = ((s c₁ : ℝ) : EReal) := by
    apply le_antisymm
    · refine iSup_le fun c => ?_
      by_cases hc : P c
      · rw [if_pos hc, ht, EReal.coe_le_coe_iff]
        exact hmax c hc
      · rw [if_neg hc, EReal.coe_le_coe_iff]
        linarith [hlo c₁]
    · refine le_iSup_of_le c₁ ?_
      rw [if_pos h₁, ht]
  refine ⟨s c₁, hlo c₁, ?_, ?_⟩
  · rw [hsup, max_eq_right]
    rw [EReal.coe_le_coe_iff]
    linarith [hlo c₁]
  · apply le_antisymm
    · refine iInf_le_of_le c₁ ?_
      rw [if_pos ((hPP' c₁).1 h₁), ht, ← EReal.coe_sub]
    · refine le_iInf fun c => ?_
      by_cases hc : P' c
      · rw [if_pos hc, ht, ← EReal.coe_sub, EReal.coe_le_coe_iff]
        linarith [hmax c ((hPP' c).2 hc)]
      · rw [if_neg hc, EReal.coe_le_coe_iff]
        linarith [hlo c₁]

/-- With no picked row the greatest value stays at its sentinel `-3`. -/
theorem mine_greatest_none (h : ¬ ∃ c, P c) :
    max ((-3 : ℝ) : EReal) (⨆ c : Fin 8192, if P c then t c else ((-3 : ℝ) : EReal)) = ((-3 : ℝ) : EReal) := by
  have hsup : (⨆ c : Fin 8192, if P c then t c else ((-3 : ℝ) : EReal)) = ((-3 : ℝ) : EReal) := by
    have : ∀ c : Fin 8192, (if P c then t c else ((-3 : ℝ) : EReal)) = ((-3 : ℝ) : EReal) :=
      fun c => if_neg fun hc => h ⟨c, hc⟩
    simp only [this, iSup_const]
  rw [hsup, max_self]

end Mining

/-! ## The two minings, row by row -/

section Rows

/-- When no family code is negative, "same family, another row" needs no further test. -/
theorem rSame_iff (hfam : ∀ r, 0 ≤ (fam r).toInt) (r c : Fin 8192) :
    rSame fam r c ↔ (fam r = fam c ∧ r ≠ c) := by
  unfold rSame okRow
  constructor
  · rintro ⟨⟨h1, _⟩, h2⟩
    exact ⟨h1, h2⟩
  · rintro ⟨h1, h2⟩
    exact ⟨⟨h1, hfam r⟩, h2⟩

/-- When no family code is negative, "another family" needs no further test. -/
theorem rDiff_iff (hfam : ∀ r, 0 ≤ (fam r).toInt) (r c : Fin 8192) :
    rDiff fam r c ↔ fam r ≠ fam c := by
  unfold rDiff okRow
  constructor
  · rintro ⟨⟨h1, _⟩, _⟩
    exact h1
  · intro h1
    exact ⟨⟨h1, hfam c⟩, hfam r⟩

variable (s : Fin 8192 → Fin 8192 → ℝ)

/-- A row counts on one side exactly when it counts on the other: a similarity in `[-1, 1]` was met by the
running least value exactly when that value is below `2`, and by the running greatest value exactly when that
value is above `-2`. -/
theorem row_valid_iff (hsim : ∀ r c, sim e r c = ((s r c : ℝ) : EReal))
    (hlo : ∀ r c, -1 ≤ s r c) (hhi : ∀ r c, s r c ≤ 1) (hfam : ∀ r, 0 ≤ (fam r).toInt)
    (r : Fin 8192) : kValid e fam r ↔ rValid fam r := by
  classical
  have hA : kMin e fam r < ((2 : ℝ) : EReal) ↔ ∃ c, rSame fam r c := by
    by_cases h : ∃ c, fam r = fam c ∧ r ≠ c
    · obtain ⟨m, hm1, hm, -⟩ := mine_least (fun c => fam r = fam c ∧ r ≠ c) (fun c => rSame fam r c)
        (sim e r) (s r) (fun c => (rSame_iff fam hfam r c).symm) (hsim r) (hhi r) h
      have hk : kMin e fam r = ((m : ℝ) : EReal) := hm
      obtain ⟨c, hc⟩ := h
      refine iff_of_true ?_ ⟨c, (rSame_iff fam hfam r c).2 hc⟩
      rw [hk, EReal.coe_lt_coe_iff]
      linarith
    · have hk : kMin e fam r = ((3 : ℝ) : EReal) :=
        mine_least_none (fun c => fam r = fam c ∧ r ≠ c) (sim e r) h
      refine iff_of_false ?_ fun ⟨c, hc⟩ => h ⟨c, (rSame_iff fam hfam r c).1 hc⟩
      rw [hk, EReal.coe_lt_coe_iff]
      norm_num
  have hB : ((-2 : ℝ) : EReal) < kMax e fam r ↔ ∃ c, rDiff fam r c := by
    by_cases h : ∃ c, fam r ≠ fam c
    · obtain ⟨M, hM1, hM, -⟩ := mine_greatest (fun c => fam r ≠ fam c) (fun c => rDiff fam r c)
        (sim e r) (s r) (fun c => (rDiff_iff fam hfam r c).symm) (hsim r) (hlo r) h
      have hk : kMax e fam r = ((M : ℝ) : EReal) := hM
      obtain ⟨c, hc⟩ := h
      refine iff_of_true ?_ ⟨c, (rDiff_iff fam hfam r c).2 hc⟩
      rw [hk, EReal.coe_lt_coe_iff]
      linarith
    · have hk : kMax e fam r = ((-3 : ℝ) : EReal) :=
        mine_greatest_none (fun c => fam r ≠ fam c) (sim e r) h
      refine iff_of_false ?_ fun ⟨c, hc⟩ => h ⟨c, (rDiff_iff fam hfam r c).1 hc⟩
      rw [hk, EReal.coe_lt_coe_iff]
      norm_num
  unfold kValid rValid
  rw [hA, hB]
  constructor
  · rintro ⟨h1, h2⟩
    exact ⟨⟨hfam r, h1⟩, h2⟩
  · rintro ⟨⟨_, h1⟩, h2⟩
    exact ⟨h1, h2⟩

/-- The two indicators of a counting row agree. -/
theorem row_ind_eq (hsim : ∀ r c, sim e r c = ((s r c : ℝ) : EReal))
    (hlo : ∀ r c, -1 ≤ s r c) (hhi : ∀ r c, s r c ≤ 1) (hfam : ∀ r, 0 ≤ (fam r).toInt)
    (r : Fin 8192) : kInd e fam r = rInd fam r := by
  have hv := row_valid_iff e fam s hsim hlo hhi hfam r
  unfold kInd rInd
  by_cases h : rValid fam r
  · rw [if_pos (hv.2 h), if_pos h]
  · rw [if_neg (fun hk => h (hv.1 hk)), if_neg h]

/-- The two terms of a row agree: on a counting row the least similarity `m` and the greatest similarity `M` are
real, the greatest distance is `1 - m` and the least distance is `1 - M`; on any other row both terms are `0`. -/
theorem row_term_eq (hsim : ∀ r c, sim e r c = ((s r c : ℝ) : EReal))
    (hlo : ∀ r c, -1 ≤ s r c) (hhi : ∀ r c, s r c ≤ 1) (hfam : ∀ r, 0 ≤ (fam r).toInt)
    (r : Fin 8192) : kTerm e fam mg r = rTerm e fam mg r := by
  classical
  have hv := row_valid_iff e fam s hsim hlo hhi hfam r
  unfold kTerm rTerm kInd rInd
  by_cases h : rValid fam r
  · rw [if_pos (hv.2 h), if_pos h]
    obtain ⟨⟨_, c₁, hc₁⟩, c₂, hc₂⟩ := h
    obtain ⟨m, -, hm, hp⟩ := mine_least (fun c => fam r = fam c ∧ r ≠ c) (fun c => rSame fam r c)
      (sim e r) (s r) (fun c => (rSame_iff fam hfam r c).symm) (hsim r) (hhi r)
      ⟨c₁, (rSame_iff fam hfam r c₁).1 hc₁⟩
    obtain ⟨M, -, hM, hn⟩ := mine_greatest (fun c => fam r ≠ fam c) (fun c => rDiff fam r c)
      (sim e r) (s r) (fun c => (rDiff_iff fam hfam r c).symm) (hsim r) (hlo r)
      ⟨c₂, (rDiff_iff fam hfam r c₂).1 hc₂⟩
    have hkmin : kMin e fam r = ((m : ℝ) : EReal) := hm
    have hkmax : kMax e fam r = ((M : ℝ) : EReal) := hM
    have hrpos : rPos e fam r = (((1 : ℝ) - m : ℝ) : EReal) := hp
    have hrneg : rNeg e fam r = (((1 : ℝ) - M : ℝ) : EReal) := hn
    rw [hkmin, hkmax, hrpos, hrneg, EReal.coe_sub, EReal.coe_sub]
  · rw [if_neg (fun hk => h (hv.1 hk)), if_neg h, EReal.coe_zero, mul_zero, mul_zero]

/-- The indicators of the counting rows add up to their number. -/
theorem sum_rInd : ∑ r : Fin 8192, rInd fam r = (((rCount fam : ℕ) : ℝ) : EReal) := by
  classical
  unfold rInd rCount
  rw [EReal.coe_natCast]
  simp only [EReal.coe_one, EReal.coe_zero]
  exact Finset.sum_boole _ _

end Rows

/-- The two minings agree on unit rows with no negative family code. -/
theorem kOut_eq_rOut
    (he : ∀ r, ∃ f : Fin 256 → ℝ, (∀ d, e r d = ((f d : ℝ) : EReal)) ∧ ∑ d : Fin 256, f d * f d = 1)
    (hfam : ∀ r, 0 ≤ (fam r).toInt) :
    kOut e fam mg = rOut e fam mg := by
  choose f hf hunit using he
  have hsim : ∀ r c, sim e r c = ((∑ d : Fin 256, f r d * f c d : ℝ) : EReal) := by
    intro r c
    unfold sim
    rw [← coe_sum_coords]
    refine Finset.sum_congr rfl fun d _ => ?_
    rw [hf r d, hf c d, EReal.coe_mul]
  have hlo : ∀ r c, -1 ≤ ∑ d : Fin 256, f r d * f c d :=
    fun r c => (unit_inner_bounds (f r) (f c) (hunit r) (hunit c)).1
  have hhi : ∀ r c, ∑ d : Fin 256, f r d * f c d ≤ 1 :=
    fun r c => (unit_inner_bounds (f r) (f c) (hunit r) (hunit c)).2
  have hterms : ∑ r : Fin 8192, kTerm e fam mg r = ∑ r : Fin 8192, rTerm e fam mg r :=
    Finset.sum_congr rfl fun r _ => row_term_eq e fam mg _ hsim hlo hhi hfam r
  have hinds : ∑ r : Fin 8192, kInd e fam r = ∑ r : Fin 8192, rInd fam r :=
    Finset.sum_congr rfl fun r _ => row_ind_eq e fam _ hsim hlo hhi hfam r
  have hmax : max (((rCount fam : ℕ) : ℝ) : EReal) ((1 : ℝ) : EReal)
      = (((max (rCount fam) 1 : ℕ) : ℝ) : EReal) := by
    rw [Nat.cast_max, Nat.cast_one]
    exact (EReal.coe_strictMono.monotone.map_max).symm
  unfold kOut rOut
  rw [hterms, hinds, sum_rInd, hmax]

end Cert.Spec

end
-- ==== Proof.KI.Sweep.lean ====
/-
  The sweep of a row tile over its eight column tiles.

  Row tile `i` (2048 rows) meets the column tiles `j = 0 … 7` (1024 rows each) in turn. After the tile `j` the two
  scratch columns hold, for row `R = 2048 i + p`, the least similarity to a same-family row other than `R` among the
  columns `c' < 1024 (j + 1)`, started from the sentinel `3`, and the greatest similarity to an other-family row among
  the same columns, started from `-3`. A tile's infimum over its 1024 columns extends the infimum over the columns
  before it to the columns up to its end, so by induction on the point the last tile leaves the infimum and the
  supremum over all 8192 columns: the row's hardest positive and hardest negative.

  The row `R` itself is left out of "same family" on the tiles that can hold the column `R` (column tiles `2 i` and
  `2 i + 1`) by a test on the row and column numbers; on every other tile no column is `R`, so nothing is left out
  and nothing needs to be.
-/
import proofs.«417721_j28690381537966_3_alg».proof.Proof.KI.Exit
import proofs.«417721_j28690381537966_3_alg».proof.Proof.KI.Tile
import proofs.«417721_j28690381537966_3_alg».proof.Proof.Spec
import Idealize.ShloMosaic.Lib.ValueIdx
import Mathlib.Order.CompleteLattice.Basic
import Mathlib.Data.EReal.Basic

noncomputable section

namespace Cert.KernelIdeal.Sweep

open Cert.KernelIdeal Cert.KernelIdeal.Gen Cert.KernelIdeal.Hand Cert.KernelIdeal.Tile
open Idealize.ShloMosaic Idealize.ShloMosaic.TcCoe Idealize.ShloMosaic.ValueIdx
open Idealize.SL Idealize.SL.Sem
open scoped BigOperators

/-! ## Extending an infimum over the columns by one tile -/

section Tiles

variable (f : Fin 8192 → EReal) (b : ℕ) (col : Fin 1024 → Fin 8192) (hcol : ∀ q : Fin 1024, (col q).val = b + q.val)

section
include hcol

/-- The infimum over the columns below `b + 1024` is the infimum over the columns below `b` met with the infimum over
    the 1024 columns `b + q`. -/
theorem iInf_extend :
    (⨅ c' : Fin 8192, if c'.val < b + 1024 then f c' else (⊤ : EReal))
      = min (⨅ c' : Fin 8192, if c'.val < b then f c' else (⊤ : EReal)) (⨅ q : Fin 1024, f (col q)) := by
  apply le_antisymm
  · refine le_min (le_iInf fun c' => ?_) (le_iInf fun q => ?_)
    · by_cases h : c'.val < b
      · refine iInf_le_of_le c' ?_
        rw [if_pos h, if_pos (by omega)]
      · rw [if_neg h]; exact le_top
    · refine iInf_le_of_le (col q) ?_
      rw [if_pos (by have := hcol q; have := q.isLt; omega)]
  · refine le_iInf fun c' => ?_
    by_cases h : c'.val < b + 1024
    · rw [if_pos h]
      by_cases h2 : c'.val < b
      · refine (min_le_left _ _).trans (iInf_le_of_le c' ?_)
        rw [if_pos h2]
      · refine (min_le_right _ _).trans (iInf_le_of_le (⟨c'.val - b, by omega⟩ : Fin 1024) ?_)
        refine le_of_eq (congrArg f (Fin.ext ?_))
        rw [hcol]; show b + (c'.val - b) = c'.val; omega
    · rw [if_neg h]; exact le_top

/-- The supremum over the columns below `b + 1024` is the supremum over the columns below `b` joined with the supremum
    over the 1024 columns `b + q`. -/
theorem iSup_extend :
    (⨆ c' : Fin 8192, if c'.val < b + 1024 then f c' else (⊥ : EReal))
      = max (⨆ c' : Fin 8192, if c'.val < b then f c' else (⊥ : EReal)) (⨆ q : Fin 1024, f (col q)) := by
  apply le_antisymm
  · refine iSup_le fun c' => ?_
    by_cases h : c'.val < b + 1024
    · rw [if_pos h]
      by_cases h2 : c'.val < b
      · refine le_trans (le_iSup_of_le c' ?_) (le_max_left _ _)
        rw [if_pos h2]
      · refine le_trans (le_iSup_of_le (⟨c'.val - b, by omega⟩ : Fin 1024) ?_) (le_max_right _ _)
        refine le_of_eq (congrArg f (Fin.ext ?_))
        rw [hcol]; show c'.val = b + (c'.val - b); omega
    · rw [if_neg h]; exact bot_le
  · refine max_le (iSup_le fun c' => ?_) (iSup_le fun q => ?_)
    · by_cases h : c'.val < b
      · refine le_iSup_of_le c' ?_
        rw [if_pos h, if_pos (by omega)]
      · rw [if_neg h]; exact bot_le
    · refine le_iSup_of_le (col q) ?_
      rw [if_pos (by have := hcol q; have := q.isLt; omega)]

end

/-- Below column `0` there is no column: the infimum is `⊤`. -/
theorem iInf_none : (⨅ c' : Fin 8192, if c'.val < 0 then f c' else (⊤ : EReal)) = ⊤ := by
  simp only [Nat.not_lt_zero, if_false, iInf_const]

/-- Below column `0` there is no column: the supremum is `⊥`. -/
theorem iSup_none : (⨆ c' : Fin 8192, if c'.val < 0 then f c' else (⊥ : EReal)) = ⊥ := by
  simp only [Nat.not_lt_zero, if_false, iSup_const]

/-- Below column `8192` lie all the columns. -/
theorem iInf_all : (⨅ c' : Fin 8192, if c'.val < 8192 then f c' else (⊤ : EReal)) = ⨅ c' : Fin 8192, f c' :=
  iInf_congr fun c' => if_pos c'.isLt

theorem iSup_all : (⨆ c' : Fin 8192, if c'.val < 8192 then f c' else (⊥ : EReal)) = ⨆ c' : Fin 8192, f c' :=
  iSup_congr fun c' => if_pos c'.isLt

end Tiles

/-! ## The grid point's two coordinates -/

theorem coords0 (t : Fin cfg0.N) : (grid0.coords t 0).val = t.val / 8 := by
  revert t; decide +kernel

theorem coords1 (t : Fin cfg0.N) : (grid0.coords t 1).val = t.val % 8 := by
  revert t; decide +kernel

/-! ## The sweep -/

section Sweep

variable (m : (ℓ : Loc nD τ sig) → Buf (Elt Ideal) ℓ) (c : Dev nD)
variable (E : Fin 8192 → Fin 256 → EReal) (Fm : Fin 8192 → BitVec 32)

/-- What column `c'` offers row `R`'s least same-family similarity: their similarity if `c'` is another row of
    `R`'s family, else the sentinel `3`. -/
def offerMin (R c' : Fin 8192) : EReal :=
  if Fm R = Fm c' ∧ R ≠ c' then Spec.sim E R c' else ((3 : ℝ) : EReal)

/-- What column `c'` offers row `R`'s greatest other-family similarity: their similarity if `c'` is of another
    family, else the sentinel `-3`. -/
def offerMax (R c' : Fin 8192) : EReal :=
  if Fm R ≠ Fm c' then Spec.sim E R c' else ((-3 : ℝ) : EReal)

/-- Row `R`'s least same-family similarity among the columns below `b`, started from `3`. -/
def minUpTo (R : Fin 8192) (b : ℕ) : EReal :=
  min ((3 : ℝ) : EReal) (⨅ c' : Fin 8192, if c'.val < b then offerMin E Fm R c' else (⊤ : EReal))

/-- Row `R`'s greatest other-family similarity among the columns below `b`, started from `-3`. -/
def maxUpTo (R : Fin 8192) (b : ℕ) : EReal :=
  max ((-3 : ℝ) : EReal) (⨆ c' : Fin 8192, if c'.val < b then offerMax E Fm R c' else (⊥ : EReal))

theorem minUpTo_zero (R : Fin 8192) : minUpTo E Fm R 0 = ((3 : ℝ) : EReal) := by
  unfold minUpTo; rw [iInf_none]; exact min_eq_left le_top

theorem maxUpTo_zero (R : Fin 8192) : maxUpTo E Fm R 0 = ((-3 : ℝ) : EReal) := by
  unfold maxUpTo; rw [iSup_none]; exact max_eq_left bot_le

theorem minUpTo_extend (R : Fin 8192) (b : ℕ) (col : Fin 1024 → Fin 8192) (hcol : ∀ q : Fin 1024, (col q).val = b + q.val) :
    minUpTo E Fm R (b + 1024) = min (minUpTo E Fm R b) (⨅ q : Fin 1024, offerMin E Fm R (col q)) := by
  unfold minUpTo; rw [iInf_extend (offerMin E Fm R) b col hcol, min_assoc]

theorem maxUpTo_extend (R : Fin 8192) (b : ℕ) (col : Fin 1024 → Fin 8192) (hcol : ∀ q : Fin 1024, (col q).val = b + q.val) :
    maxUpTo E Fm R (b + 1024) = max (maxUpTo E Fm R b) (⨆ q : Fin 1024, offerMax E Fm R (col q)) := by
  unfold maxUpTo; rw [iSup_extend (offerMax E Fm R) b col hcol, max_assoc]

/-- Over all the columns these are the row's hardest positive and hardest negative. -/
theorem minUpTo_all (R : Fin 8192) : minUpTo E Fm R 8192 = Spec.kMin E Fm R := by
  unfold minUpTo Spec.kMin; rw [iInf_all]; rfl

theorem maxUpTo_all (R : Fin 8192) : maxUpTo E Fm R 8192 = Spec.kMax E Fm R := by
  unfold maxUpTo Spec.kMax; rw [iSup_all]; rfl

/-! ### Rows and columns of a tile -/

theorem t_lt (t : Fin cfg0.N) : t.val < 32 := lt_of_lt_of_eq t.isLt N_0

/-- A row of a tile and a column of it are different rows of the array exactly when their numbers, as the body computes them
    from the point's coordinates, differ. -/
theorem row_ne_col_iff (t : Fin cfg0.N) (p : Fin 2048) (q : Fin 1024) :
    rowOf t p ≠ colOf t q ↔ 2048 * (grid0.coords t 0).val + p.val ≠ 1024 * (grid0.coords t 1).val + q.val := by
  rw [coords0, coords1, Ne, Fin.ext_iff]; rfl

/-- On a tile whose column tile is neither of the two that overlap the row tile, no column is any of the tile's rows. -/
theorem row_ne_col_of_off (t : Fin cfg0.N) (h : ¬ (t.val % 8) / 2 = t.val / 8) (p : Fin 2048) (q : Fin 1024) :
    rowOf t p ≠ colOf t q := by
  intro he
  have hv : 2048 * (t.val / 8) + p.val = 1024 * (t.val % 8) + q.val := congrArg Fin.val he
  have := p.isLt; have := q.isLt
  omega

/-! ### The four blocks of a point, read at an index: the array's rows and family codes at the tile's rows and columns
    (hypotheses of this section) -/

variable
  (hrows : ∀ (t : Fin cfg0.N) (p : Fin 2048) (d : Fin 256), rowsBlk (F := Ideal) m c t (ix2 p d) = E (rowOf t p) d)
  (hcols : ∀ (t : Fin cfg0.N) (q : Fin 1024) (d : Fin 256), colsBlk (F := Ideal) m c t (ix2 q d) = E (colOf t q) d)
  (hfamc : ∀ (t : Fin cfg0.N) (p : Fin 2048), famColBlk (F := Ideal) m c t (ix2 p 0) = Fm (rowOf t p))
  (hfamr : ∀ (t : Fin cfg0.N) (q : Fin 1024), famRowBlk (F := Ideal) m c t (ix2 0 q) = Fm (colOf t q))

section
include hrows hcols

/-- The similarity a tile computes is the similarity of the two rows of the array. -/
theorem tsim_eq (t : Fin cfg0.N) (p : Fin 2048) (q : Fin 1024) :
    tsim (rowsBlk m c t) (colsBlk m c t) p q = Spec.sim E (rowOf t p) (colOf t q) := by
  unfold tsim Spec.sim
  exact Finset.sum_congr rfl fun d _ => by rw [hrows, hcols]

end

/-! ### One point's update -/

theorem stepS_true_fst (i : grid0.Coords) (x0 : Vec Ideal S2048x256 .bf16) (x1 : Vec Ideal S1024x256 .bf16) (x2 : Vec Ideal S2048x1 .i32)
    (x3 : Vec Ideal S1x1024 .i32) (s : Vec Ideal S2048x1 .f32 × Vec Ideal S2048x1 .f32) :
    (stepS true i x0 x1 x2 x3 s).1 = k0_pay5 i x0 x1 x2 x3 s.1 := rfl
theorem stepS_true_snd (i : grid0.Coords) (x0 : Vec Ideal S2048x256 .bf16) (x1 : Vec Ideal S1024x256 .bf16) (x2 : Vec Ideal S2048x1 .i32)
    (x3 : Vec Ideal S1x1024 .i32) (s : Vec Ideal S2048x1 .f32 × Vec Ideal S2048x1 .f32) :
    (stepS true i x0 x1 x2 x3 s).2 = k0_pay6 x0 x1 x2 x3 s.2 := rfl
theorem stepS_false_fst (i : grid0.Coords) (x0 : Vec Ideal S2048x256 .bf16) (x1 : Vec Ideal S1024x256 .bf16) (x2 : Vec Ideal S2048x1 .i32)
    (x3 : Vec Ideal S1x1024 .i32) (s : Vec Ideal S2048x1 .f32 × Vec Ideal S2048x1 .f32) :
    (stepS false i x0 x1 x2 x3 s).1 = k0_pay7 x0 x1 x2 x3 s.1 := rfl
theorem stepS_false_snd (i : grid0.Coords) (x0 : Vec Ideal S2048x256 .bf16) (x1 : Vec Ideal S1024x256 .bf16) (x2 : Vec Ideal S2048x1 .i32)
    (x3 : Vec Ideal S1x1024 .i32) (s : Vec Ideal S2048x1 .f32 × Vec Ideal S2048x1 .f32) :
    (stepS false i x0 x1 x2 x3 s).2 = k0_pay8 x0 x1 x2 x3 s.2 := rfl

/-- At a first column tile the point starts from the sentinels … -/
theorem scIn_first (t : Fin cfg0.N) (h : t.val % 8 = 0) :
    scIn m c t = (k0_pay1 (F := Ideal), k0_pay2 (F := Ideal)) := by
  unfold scIn; exact if_pos h

/-- … and at a later one from what the point before left. -/
theorem scIn_next (n : ℕ) (hn : n + 1 < cfg0.N) (h : ¬ (n + 1) % 8 = 0) :
    scIn m c ⟨n + 1, hn⟩ = scAt m c n (Nat.lt_of_succ_lt hn) := by
  unfold scIn; exact if_neg h

theorem lastPt_bound (i : Fin 4) : 1024 * ((lastPt i).val % 8) + 1024 = 8192 := by
  show 1024 * ((8 * i.val + 7) % 8) + 1024 = 8192; omega

section
include hrows hcols hfamc hfamr

/-- A point's update takes the least same-family similarity over the columns before the tile to the one over the columns
    up to the tile's end. On a tile that can hold the row's own column the body's test on the row and column numbers is
    "another row"; on any other tile every column is another row. -/
theorem step_min (t : Fin cfg0.N) (p : Fin 2048) (s : Vec Ideal S2048x1 .f32 × Vec Ideal S2048x1 .f32)
    (hs : s.1 (ix2 p 0) = minUpTo E Fm (rowOf t p) (1024 * (t.val % 8))) :
    (stepS (onDiag t.val) (grid0.coords t) (rowsBlk m c t) (colsBlk m c t) (famColBlk m c t) (famRowBlk m c t) s).1 (ix2 p 0)
      = minUpTo E Fm (rowOf t p) (1024 * (t.val % 8) + 1024) := by
  rw [minUpTo_extend E Fm (rowOf t p) (1024 * (t.val % 8)) (colOf t) (fun q => rfl), ← hs]
  by_cases hd : (t.val % 8) / 2 = t.val / 8
  · rw [show onDiag t.val = true from decide_eq_true hd, stepS_true_fst, pay5_apply]
    refine congrArg (min (s.1 (ix2 p 0))) (iInf_congr fun q => ?_)
    unfold offerMin
    rw [tsim_eq m c E hrows hcols, hfamc, hfamr]
    exact if_congr (and_congr Iff.rfl (row_ne_col_iff t p q).symm) rfl rfl
  · rw [show onDiag t.val = false from decide_eq_false hd, stepS_false_fst, pay7_apply]
    refine congrArg (min (s.1 (ix2 p 0))) (iInf_congr fun q => ?_)
    unfold offerMin
    rw [tsim_eq m c E hrows hcols, hfamc, hfamr]
    exact if_congr (iff_self_and.mpr fun _ => row_ne_col_of_off t hd p q) rfl rfl

/-- A point's update takes the greatest other-family similarity over the columns before the tile to the one over the
    columns up to the tile's end. -/
theorem step_max (t : Fin cfg0.N) (p : Fin 2048) (s : Vec Ideal S2048x1 .f32 × Vec Ideal S2048x1 .f32)
    (hs : s.2 (ix2 p 0) = maxUpTo E Fm (rowOf t p) (1024 * (t.val % 8))) :
    (stepS (onDiag t.val) (grid0.coords t) (rowsBlk m c t) (colsBlk m c t) (famColBlk m c t) (famRowBlk m c t) s).2 (ix2 p 0)
      = maxUpTo E Fm (rowOf t p) (1024 * (t.val % 8) + 1024) := by
  rw [maxUpTo_extend E Fm (rowOf t p) (1024 * (t.val % 8)) (colOf t) (fun q => rfl), ← hs]
  have key : (⨆ q : Fin 1024, if famColBlk m c t (ix2 p 0) ≠ famRowBlk m c t (ix2 0 q)
        then tsim (rowsBlk m c t) (colsBlk m c t) p q else ((-3 : ℝ) : EReal))
      = ⨆ q : Fin 1024, offerMax E Fm (rowOf t p) (colOf t q) := by
    refine iSup_congr fun q => ?_
    unfold offerMax
    rw [tsim_eq m c E hrows hcols, hfamc, hfamr]
  cases onDiag t.val
  · rw [stepS_false_snd, pay8_apply, key]
  · rw [stepS_true_snd, pay6_apply, key]

/-! ### The induction over the points -/

/-- After point `n` (row tile `n / 8`, column tile `n % 8`) the two scratch columns hold, for each row of the row tile, its least
    same-family and greatest other-family similarity among the columns up to the end of column tile `n % 8`: at the first
    column tile the columns start from the sentinels, at a later one from what the point before left, which is the same
    row tile's. -/
theorem scAt_inv : ∀ (n : ℕ) (hn : n < cfg0.N) (p : Fin 2048),
    (scAt m c n hn).1 (ix2 p 0) = minUpTo E Fm (rowOf ⟨n, hn⟩ p) (1024 * (n % 8) + 1024) ∧
    (scAt m c n hn).2 (ix2 p 0) = maxUpTo E Fm (rowOf ⟨n, hn⟩ p) (1024 * (n % 8) + 1024) := by
  intro n
  induction n with
  | zero =>
    intro hn p
    rw [show scAt m c 0 hn = _ from scAt_eq m c ⟨0, hn⟩]
    rw [scIn_first m c ⟨0, hn⟩ rfl]
    refine ⟨step_min m c E Fm hrows hcols hfamc hfamr ⟨0, hn⟩ p _ ?_, step_max m c E Fm hrows hcols hfamc hfamr ⟨0, hn⟩ p _ ?_⟩
    · exact (pay1_apply p).trans (minUpTo_zero E Fm _).symm
    · exact (pay2_apply p).trans (maxUpTo_zero E Fm _).symm
  | succ n ih =>
    intro hn p
    have hn' : n < cfg0.N := Nat.lt_of_succ_lt hn
    rw [show scAt m c (n + 1) hn = _ from scAt_eq m c ⟨n + 1, hn⟩]
    by_cases h0 : (n + 1) % 8 = 0
    · rw [scIn_first m c ⟨n + 1, hn⟩ h0]
      refine ⟨step_min m c E Fm hrows hcols hfamc hfamr ⟨n + 1, hn⟩ p _ ?_,
        step_max m c E Fm hrows hcols hfamc hfamr ⟨n + 1, hn⟩ p _ ?_⟩
      · show k0_pay1 (F := Ideal) (ix2 p 0) = minUpTo E Fm _ (1024 * ((n + 1) % 8))
        rw [h0, pay1_apply]; exact (minUpTo_zero E Fm _).symm
      · show k0_pay2 (F := Ideal) (ix2 p 0) = maxUpTo E Fm _ (1024 * ((n + 1) % 8))
        rw [h0, pay2_apply]; exact (maxUpTo_zero E Fm _).symm
    · rw [scIn_next m c n hn h0]
      obtain ⟨ih1, ih2⟩ := ih hn' p
      have hR : rowOf ⟨n, hn'⟩ p = rowOf ⟨n + 1, hn⟩ p :=
        Fin.ext (by show 2048 * (n / 8) + p.val = 2048 * ((n + 1) / 8) + p.val; omega)
      have hb : 1024 * (n % 8) + 1024 = 1024 * ((n + 1) % 8) := by omega
      refine ⟨step_min m c E Fm hrows hcols hfamc hfamr ⟨n + 1, hn⟩ p _ ?_,
        step_max m c E Fm hrows hcols hfamc hfamr ⟨n + 1, hn⟩ p _ ?_⟩
      · rw [ih1, hR, hb]
      · rw [ih2, hR, hb]

/-! ### The last column tile: the row's hardest positive and hardest negative, its term and its count -/

/-- After a row tile's last point the first scratch column holds each row's least similarity to another row of its family,
    over all the columns. -/
theorem scAt_min (i : Fin 4) (p : Fin 2048) :
    (scAt (F := Ideal) m c (lastPt i).val (lastPt i).isLt).1 (ix2 p 0) = Spec.kMin E Fm (rowOf (lastPt i) p) := by
  have h := (scAt_inv m c E Fm hrows hcols hfamc hfamr (lastPt i).val (lastPt i).isLt p).1
  rw [lastPt_bound, minUpTo_all] at h
  exact h

/-- And the second its greatest similarity to a row of another family. -/
theorem scAt_max (i : Fin 4) (p : Fin 2048) :
    (scAt (F := Ideal) m c (lastPt i).val (lastPt i).isLt).2 (ix2 p 0) = Spec.kMax E Fm (rowOf (lastPt i) p) := by
  have h := (scAt_inv m c E Fm hrows hcols hfamc hfamr (lastPt i).val (lastPt i).isLt p).2
  rw [lastPt_bound, maxUpTo_all] at h
  exact h

/-- The term column the last point writes is the row's loss term. -/
theorem termAt_apply (i : Fin 4) (p : Fin 2048) :
    termAt (F := Ideal) m c (lastPt i) (ix2 p 0)
      = Spec.kTerm E Fm (Ideal.ofBits .f32 0x3E99999A#32) (rowOf (lastPt i) p) := by
  unfold termAt
  rw [pay10_apply, scAt_min m c E Fm hrows hcols hfamc hfamr, scAt_max m c E Fm hrows hcols hfamc hfamr]
  unfold Spec.kTerm Spec.kInd Spec.kValid
  by_cases h : Spec.kMin E Fm (rowOf (lastPt i) p) < ((2 : ℝ) : EReal) ∧ ((-2 : ℝ) : EReal) < Spec.kMax E Fm (rowOf (lastPt i) p)
  · rw [if_pos h, if_pos h]
  · rw [if_neg h, if_neg h]

/-- The count column the last point writes is `1` on a row that counts and `0` on any other. -/
theorem countAt_apply (i : Fin 4) (p : Fin 2048) :
    countAt (F := Ideal) m c (lastPt i) (ix2 p 0) = Spec.kInd E Fm (rowOf (lastPt i) p) := by
  unfold countAt
  rw [pay11_apply, scAt_min m c E Fm hrows hcols hfamc hfamr, scAt_max m c E Fm hrows hcols hfamc hfamr]
  unfold Spec.kInd Spec.kValid
  by_cases h : Spec.kMin E Fm (rowOf (lastPt i) p) < ((2 : ℝ) : EReal) ∧ ((-2 : ℝ) : EReal) < Spec.kMax E Fm (rowOf (lastPt i) p)
  · rw [if_pos h, if_pos h]
  · rw [if_neg h, if_neg h]

end

end Sweep

end Cert.KernelIdeal.Sweep

end
-- ==== Proof.KI.Result.lean ====
/-
  The two output columns as whole arrays, and the final quotient.

  Each output column has 8192 rows in four row tiles of 2048. A row tile's block is written back only at the tile's
  last column point (`t % 8 = 7`), so after the region row `2048 i + p` of the term column holds what point
  `8 i + 7` left for row `p` of its tile, and likewise for the count column. The operations after the region add up
  each column (from a zero initial value), take the larger of the count sum and one, and divide: the result is
  `(0 + ∑ R, term R) / max (0 + ∑ R, count R) 1`. Once every row's term and count are identified with the
  specification's `kTerm` and `kInd`, that is the specification's `kOut`, since `0 + s = s`; the sweep over the
  column tiles identifies them, from the blocks the region is entered with.
-/
import proofs.«417721_j28690381537966_3_alg».proof.Proof.KI.Exit
import proofs.«417721_j28690381537966_3_alg».proof.Proof.KI.Entry
import proofs.«417721_j28690381537966_3_alg».proof.Proof.KI.Sweep
import proofs.«417721_j28690381537966_3_alg».proof.Proof.Spec
import proofs.«417721_j28690381537966_3_alg».proof.Proof.Consts
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open Idealize.ShloMosaic.Pipeline (Dat Cfg Window)
open Idealize.ShloMosaic.ValueIdx
open scoped BigOperators

/-! ## The two output columns after the region -/

section Arrays

variable {F : FTy → Type} [FloatOps F]
variable (m : (ℓ : Loc nD τ sig) → Buf (Elt F) ℓ)

/-- Where the two output windows' blocks sit: point `t`'s block is row tile `t / 8` of the one column. -/
theorem outIdx : ∀ t : Fin cfg0.N, win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, win0_4.index t (0 : Fin 2) = t.val / 8 ∧ win0_4.index t (1 : Fin 2) = 0
    ∧ win0_5.index t (0 : Fin 2) = t.val / 8 ∧ win0_5.index t (1 : Fin 2) = 0)

/-- The row tile a row of the whole column lies in, and its place inside the tile. -/
def tileOf (R : S8192x1.Idx) : Fin 4 := ⟨(R 0).val / 2048, by have := idx2_lt0 R; omega⟩
def inTile (R : S8192x1.Idx) : Fin 2048 := ⟨(R 0).val % 2048, Nat.mod_lt _ (by decide)⟩

/-- The whole term column and the whole count column: row `R` holds what the last column point of its row tile
    wrote for it. -/
def termG (c : Dev nD) : Vec F S8192x1 .f32 := fun R => termAt m c (lastPt (tileOf R)) (ix2 (inTile R) 0)
def countG (c : Dev nD) : Vec F S8192x1 .f32 := fun R => countAt m c (lastPt (tileOf R)) (ix2 (inTile R) 0)

/-- A point in the last column is the last point of its row tile. -/
theorem lastPt_of_mod (t : Fin cfg0.N) (h : t.val % 8 = 7) (i : Fin 4) (hi : i.val = t.val / 8) : lastPt i = t :=
  Fin.ext (by show 8 * i.val + 7 = t.val; omega)

/-- What a point that writes the term block back writes is its block of the whole term column: the point is the last
    of its row tile, and element `y` of its block is row `2048 (t / 8) + y 0` of the column. -/
theorem termG_flushed (c : Dev nD) (t : Fin cfg0.N) (hf : (cfg0.win 4).flush t = true) :
    (dats m 0 c).flushed 4 t = ((cfg0.win 4).blk t).view.read (Elt F) (termG m c) := by
  have h7 : t.val % 8 = 7 := (flush0_4 t).mp hf
  obtain ⟨e0, e1, -, -⟩ := outIdx t
  show (cfg0.win 4).cut (grid0.coords t) ((dats m 0 c).after 4 t) = _
  rw [after0_4]
  funext y
  show termAt m c t y = termG m c (((cfg0.win 4).blk t).view.emb y)
  have hy0 : (y 0).val < 2048 := idx2_lt0 y
  have hy1 : (y 1).val < 1 := idx2_lt1 y
  have hv : ((((cfg0.win 4).blk t).view.emb y) 0).val = win0_4.index t (0 : Fin 2) * 2048 + 1 * (y 0).val := rfl
  have ht : tileOf (((cfg0.win 4).blk t).view.emb y) = ⟨t.val / 8, by have := lt_of_lt_of_eq t.isLt N_0; omega⟩ :=
    Fin.ext (by show ((((cfg0.win 4).blk t).view.emb y) 0).val / 2048 = t.val / 8; rw [hv, e0]; omega)
  have hp : inTile (((cfg0.win 4).blk t).view.emb y) = y 0 :=
    Fin.ext (by show ((((cfg0.win 4).blk t).view.emb y) 0).val % 2048 = (y 0).val; rw [hv, e0]; omega)
  unfold termG
  rw [ht, hp, lastPt_of_mod t h7 _ rfl]
  exact congrArg (termAt m c t) ((eq_ix2 y).trans (congrArg (ix2 (y 0)) (Fin.ext (by show (y 1).val = 0; omega))))

/-- The same for the count block. -/
theorem countG_flushed (c : Dev nD) (t : Fin cfg0.N) (hf : (cfg0.win 5).flush t = true) :
    (dats m 0 c).flushed 5 t = ((cfg0.win 5).blk t).view.read (Elt F) (countG m c) := by
  have h7 : t.val % 8 = 7 := (flush0_5 t).mp hf
  obtain ⟨-, -, e0, e1⟩ := outIdx t
  show (cfg0.win 5).cut (grid0.coords t) ((dats m 0 c).after 5 t) = _
  rw [after0_5]
  funext y
  show countAt m c t y = countG m c (((cfg0.win 5).blk t).view.emb y)
  have hy0 : (y 0).val < 2048 := idx2_lt0 y
  have hy1 : (y 1).val < 1 := idx2_lt1 y
  have hv : ((((cfg0.win 5).blk t).view.emb y) 0).val = win0_5.index t (0 : Fin 2) * 2048 + 1 * (y 0).val := rfl
  have ht : tileOf (((cfg0.win 5).blk t).view.emb y) = ⟨t.val / 8, by have := lt_of_lt_of_eq t.isLt N_0; omega⟩ :=
    Fin.ext (by show ((((cfg0.win 5).blk t).view.emb y) 0).val / 2048 = t.val / 8; rw [hv, e0]; omega)
  have hp : inTile (((cfg0.win 5).blk t).view.emb y) = y 0 :=
    Fin.ext (by show ((((cfg0.win 5).blk t).view.emb y) 0).val % 2048 = (y 0).val; rw [hv, e0]; omega)
  unfold countG
  rw [ht, hp, lastPt_of_mod t h7 _ rfl]
  exact congrArg (countAt m c t) ((eq_ix2 y).trans (congrArg (ix2 (y 0)) (Fin.ext (by show (y 1).val = 0; omega))))

/-- The last point of a row tile writes both output blocks back. -/
theorem lastPt_flush4 (i : Fin 4) : (cfg0.win 4).flush (lastPt i) = true :=
  (flush0_4 _).mpr (by show (8 * i.val + 7) % 8 = 7; omega)
theorem lastPt_flush5 (i : Fin 4) : (cfg0.win 5).flush (lastPt i) = true :=
  (flush0_5 _).mpr (by show (8 * i.val + 7) % 8 = 7; omega)

/-- Row `p` of row tile `i`, as an index of the whole column, is element `p` of the block the tile's last point
    writes back. -/
theorem row_emb4 (i : Fin 4) (p : Fin 2048) :
    (ix2 (rowOf (lastPt i) p) 0 : S8192x1.Idx) = ((cfg0.win 4).blk (lastPt i)).view.emb (ix2 p 0) := by
  obtain ⟨e0, e1, -, -⟩ := outIdx (lastPt i)
  funext a; apply Fin.ext
  match a with
  | ⟨0, _⟩ =>
    show 2048 * ((8 * i.val + 7) / 8) + p.val = win0_4.index (lastPt i) (0 : Fin 2) * 2048 + 1 * p.val
    rw [e0]; show _ = (8 * i.val + 7) / 8 * 2048 + 1 * p.val; omega
  | ⟨1, _⟩ =>
    show 0 = win0_4.index (lastPt i) (1 : Fin 2) * 1 + 1 * 0
    rw [e1]
theorem row_emb5 (i : Fin 4) (p : Fin 2048) :
    (ix2 (rowOf (lastPt i) p) 0 : S8192x1.Idx) = ((cfg0.win 5).blk (lastPt i)).view.emb (ix2 p 0) := by
  obtain ⟨-, -, e0, e1⟩ := outIdx (lastPt i)
  funext a; apply Fin.ext
  match a with
  | ⟨0, _⟩ =>
    show 2048 * ((8 * i.val + 7) / 8) + p.val = win0_5.index (lastPt i) (0 : Fin 2) * 2048 + 1 * p.val
    rw [e0]; show _ = (8 * i.val + 7) / 8 * 2048 + 1 * p.val; omega
  | ⟨1, _⟩ =>
    show 0 = win0_5.index (lastPt i) (1 : Fin 2) * 1 + 1 * 0
    rw [e1]

theorem tileOf_row (i : Fin 4) (p : Fin 2048) : tileOf (ix2 (rowOf (lastPt i) p) 0 : S8192x1.Idx) = i :=
  Fin.ext (by show (2048 * ((8 * i.val + 7) / 8) + p.val) / 2048 = i.val; have := p.isLt; omega)
theorem inTile_row (i : Fin 4) (p : Fin 2048) : inTile (ix2 (rowOf (lastPt i) p) 0 : S8192x1.Idx) = p :=
  Fin.ext (by show (2048 * ((8 * i.val + 7) / 8) + p.val) % 2048 = p.val; have := p.isLt; omega)

/-- The term column after the region, row by row: what the row tile's last column point wrote. -/
theorem termArr_apply (c : Dev nD) (i : Fin 4) (p : Fin 2048) :
    termArr m c (ix2 (rowOf (lastPt i) p) 0) = termAt m c (lastPt i) (ix2 p 0) := by
  have h := (dats m 0 c).arrAt_apply_of_mem 4 (termG m c) (termG_flushed m c) cfg0.N (lastPt i)
    (((cfg0.win 4).blk (lastPt i)).view.emb (ix2 p 0)) (lastPt i).isLt (lastPt_flush4 i)
    (((cfg0.win 4).blk (lastPt i)).view.emb_mem_set (ix2 p 0))
  rw [← row_emb4 i p] at h
  unfold termArr
  rw [h]
  unfold termG
  rw [tileOf_row, inTile_row]

/-- The count column after the region, row by row. -/
theorem countArr_apply (c : Dev nD) (i : Fin 4) (p : Fin 2048) :
    countArr m c (ix2 (rowOf (lastPt i) p) 0) = countAt m c (lastPt i) (ix2 p 0) := by
  have h := (dats m 0 c).arrAt_apply_of_mem 5 (countG m c) (countG_flushed m c) cfg0.N (lastPt i)
    (((cfg0.win 5).blk (lastPt i)).view.emb (ix2 p 0)) (lastPt i).isLt (lastPt_flush5 i)
    (((cfg0.win 5).blk (lastPt i)).view.emb_mem_set (ix2 p 0))
  rw [← row_emb5 i p] at h
  unfold countArr
  rw [h]
  unfold countG
  rw [tileOf_row, inTile_row]

end Arrays

/-! ## The operations after the region -/

section Tail

variable (m : (ℓ : Loc nD τ sig) → Buf (Elt Ideal) ℓ)

/-- When the region is left the two output arrays hold the two columns. -/
theorem exitVal_read_term (c : Dev nD) : exitVal m c (Proc.devRef .tc main_v17_0) = termArr m c := by
  unfold exitVal
  rw [Function.update_of_ne (devRef_ne_of_ne (by decide)), Function.update_self]

theorem exitVal_read_count (c : Dev nD) : exitVal m c (Proc.devRef .tc main_v17_1) = countArr m c := by
  unfold exitVal
  rw [Function.update_self]

/-- A sum over a one-column array is the sum over its rows. -/
theorem sum_col (f : S8192x1.Idx → EReal) : ∑ i, f i = ∑ R : Fin 8192, f (ix2 R 0) := by
  rw [sum_idx2]
  refine Finset.sum_congr rfl fun R _ => ?_
  rw [Fin.sum_univ_one]

/-- The result: the sum of the term column over the larger of the sum of the count column and one, each sum taken
    from a zero initial value. -/
theorem result_tail (c : Dev nD) :
    exitAfter (F := Ideal) m c main_v21 = fun _ => Ideal.div (((0:ℝ):EReal) + ∑ R : Fin 8192, termArr m c (ix2 R 0))
      (max (((0:ℝ):EReal) + ∑ R : Fin 8192, countArr m c (ix2 R 0)) ((1:ℝ):EReal)) := by
  unfold exitAfter
  simp only [hostOps1]
  after_results
  rw [exitVal_read_term, exitVal_read_count]
  funext j
  rw [hostDivf_apply, maximumf_apply, hostReduceAdd_apply, hostReduceAdd_apply,
    Ideal.hostReduceAdd_total _ (fun b => b.elim0), Ideal.hostReduceAdd_total _ (fun b => b.elim0),
    constant_apply, constant_apply, Cert.Consts.ofBits_zero, Cert.Consts.ofBits_one, sum_col, sum_col]

/-- Every row of the whole column is a row of some row tile. -/
theorem row_split (R : Fin 8192) :
    R = rowOf (lastPt ⟨R.val / 2048, by have := R.isLt; omega⟩) ⟨R.val % 2048, Nat.mod_lt _ (by decide)⟩ :=
  Fin.ext (by show R.val = 2048 * ((8 * (R.val / 2048) + 7) / 8) + R.val % 2048; omega)

/-- The result is the specification's, once each row's term and count at its row tile's last point are the
    specification's `kTerm` and `kInd` of that row: the two sums agree term by term and `0 + s = s`. -/
theorem result_eq_of (c : Dev nD) (E : Fin 8192 → Fin 256 → EReal) (Fm : Fin 8192 → BitVec 32) (mg : EReal)
    (hterm : ∀ (i : Fin 4) (p : Fin 2048), termAt m c (lastPt i) (ix2 p 0) = Cert.Spec.kTerm E Fm mg (rowOf (lastPt i) p))
    (hcount : ∀ (i : Fin 4) (p : Fin 2048), countAt m c (lastPt i) (ix2 p 0) = Cert.Spec.kInd E Fm (rowOf (lastPt i) p)) :
    exitAfter (F := Ideal) m c main_v21 = fun _ => Cert.Spec.kOut E Fm mg := by
  rw [result_tail]
  funext _
  have h1 : ∀ R : Fin 8192, termArr m c (ix2 R 0) = Cert.Spec.kTerm E Fm mg R := fun R => by
    conv_lhs => rw [row_split R]
    rw [termArr_apply, hterm, ← row_split R]
  have h2 : ∀ R : Fin 8192, countArr m c (ix2 R 0) = Cert.Spec.kInd E Fm R := fun R => by
    conv_lhs => rw [row_split R]
    rw [countArr_apply, hcount, ← row_split R]
  unfold Cert.Spec.kOut
  rw [Finset.sum_congr rfl fun R _ => h1 R, Finset.sum_congr rfl fun R _ => h2 R, EReal.coe_zero, zero_add, zero_add]

/-- The result is the specification's mining on similarities, of the unit rows and family codes the region is
    entered with and the margin as the program spells it. -/
theorem result_eq (c : Dev nD) :
    exitAfter (F := Ideal) m c main_v21
      = fun _ => Cert.Spec.kOut (unitRow m c) (famCode m c) (Ideal.ofBits .f32 0x3E99999A#32) :=
  result_eq_of m c (unitRow m c) (famCode m c) (Ideal.ofBits .f32 0x3E99999A#32)
    (Cert.KernelIdeal.Sweep.termAt_apply m c (unitRow m c) (famCode m c)
      (rowsBlk_apply m c) (colsBlk_apply m c) (famColBlk_apply m c) (famRowBlk_apply m c))
    (Cert.KernelIdeal.Sweep.countAt_apply m c (unitRow m c) (famCode m c)
      (rowsBlk_apply m c) (colsBlk_apply m c) (famColBlk_apply m c) (famRowBlk_apply m c))

end Tail

end Cert.KernelIdeal.Hand

end
-- ==== Proof.KI.Value.lean ====
/-
  The idealized kernel's result: the mining on similarities of the specification, of the unit rows and the family codes
  of the launched arguments.
-/
import proofs.«417721_j28690381537966_3_alg».proof.Proof.KI.Run
import proofs.«417721_j28690381537966_3_alg».proof.Proof.KI.Result

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

theorem run_value :
    θ_run (defs (F := Ideal)) (onTc (τ := τ) (main (F := Ideal))) ⟨m, fun _ => 0, ρ⟩ (fun r => ∀ c : Dev nD,
      r.2.mem ((c.tc : Thread nD τ).loc main_v21)
          = (fun _ => Cert.Spec.kOut (unitRow m c) (famCode m c) (Ideal.ofBits .f32 0x3E99999A#32))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m c), (h c).2⟩) (run_post m ρ)

end Cert.KernelIdeal.Hand

end
-- ==== Proof.RefTerm.lean ====
/-
  The reference program after its two opening chains, as one array-level term: from the unit rows `e` and the
  family codes `fam` to the scalar result, operation for operation in the order the program lists them, cut into
  named stages.

  * `simArr`, `distArr`: the similarity matrix `e · eᵀ` and the distance matrix `1 - e · eᵀ`;
  * `okArr`: which rows have a family (a code that is not negative);
  * `sameArr`: the pairs of the same family, the row's code not negative, the diagonal left out;
    `diffArr`: the pairs of different families, both codes not negative;
  * `posArr`, `negArr`: per row, the greatest distance over the first mask (fill `-2`) and the least over the
    second (fill `4`);
  * `validArr`: the rows that count (a family, an entry in each mask);
  * `termArr`: the hinge `max (d_pos - d_neg + margin) 0` of the rows that count, `0` for the others;
  * `tail`: the sum of the hinges divided by the number of rows that count (at least 1).
-/
import proofs.«417721_j28690381537966_3_alg».proof.ReferenceIdeal
import proofs.«417721_j28690381537966_3_alg».proof.Proof.Gen.ReferenceIdeal
import proofs.«417721_j28690381537966_3_alg».proof.Proof.Shared

noncomputable section

namespace Cert.RefTerm

open Idealize.ShloMosaic
open Cert.ReferenceIdeal Cert.ReferenceIdeal.Facts₀

/-! ## The masks -/

/-- Which rows have a family: the code compared, signed, with zero. -/
noncomputable def okArr (fam : IVec S8192 32) : IVec S8192 1 :=
  let v18 : IVec S8192 32 := broadcastInDim S8192 ![] bcast_S_S8192 (constantI S_ 32 0#32)
  cmpi .sge fam v18

/-- Same family, the row's code not negative, off the diagonal. -/
noncomputable def sameArr (fam : IVec S8192 32) : IVec S8192x8192 1 :=
  let v19 : IVec S8192 1 := okArr fam
  let v20 : IVec S8192x1 32 := broadcastInDim S8192x1 ![0] bcast_S8192_S8192x1_0 fam
  let v21 : IVec S1x8192 32 := broadcastInDim S1x8192 ![1] bcast_S8192_S1x8192_1 fam
  let v22 : IVec S8192x8192 32 := broadcastInDim S8192x8192 ![0, 1] bcast_S8192x1_S8192x8192_0_1 v20
  let v23 : IVec S8192x8192 32 := broadcastInDim S8192x8192 ![0, 1] bcast_S1x8192_S8192x8192_0_1 v21
  let v24 : IVec S8192x8192 1 := cmpi .eq v22 v23
  let v25 : IVec S8192x1 1 := broadcastInDim S8192x1 ![0] bcast_S8192_S8192x1_0 v19
  let v26 : IVec S8192x8192 1 := broadcastInDim S8192x8192 ![0, 1] bcast_S8192x1_S8192x8192_0_1 v25
  let v27 : IVec S8192x8192 1 := andi v24 v26
  let v28 : IVec S8192x8192 32 := iotaInDim S8192x8192 32 0
  let v29 : IVec S8192x8192 32 := iotaInDim S8192x8192 32 1
  let v30 : IVec S8192x8192 32 := broadcastInDim S8192x8192 ![] bcast_S_S8192x8192 (constantI S_ 32 0#32)
  let v31 : IVec S8192x8192 32 := addi v28 v30
  let v32 : IVec S8192x8192 1 := cmpi .eq v31 v29
  let v33 : IVec S8192x8192 1 := noti v32
  andi v27 v33

/-- Different families, both codes not negative. -/
noncomputable def diffArr (fam : IVec S8192 32) : IVec S8192x8192 1 :=
  let v19 : IVec S8192 1 := okArr fam
  let v35 : IVec S8192x1 32 := broadcastInDim S8192x1 ![0] bcast_S8192_S8192x1_0 fam
  let v36 : IVec S1x8192 32 := broadcastInDim S1x8192 ![1] bcast_S8192_S1x8192_1 fam
  let v37 : IVec S8192x8192 32 := broadcastInDim S8192x8192 ![0, 1] bcast_S8192x1_S8192x8192_0_1 v35
  let v38 : IVec S8192x8192 32 := broadcastInDim S8192x8192 ![0, 1] bcast_S1x8192_S8192x8192_0_1 v36
  let v39 : IVec S8192x8192 1 := cmpi .ne v37 v38
  let v40 : IVec S1x8192 1 := broadcastInDim S1x8192 ![1] bcast_S8192_S1x8192_1 v19
  let v41 : IVec S8192x8192 1 := broadcastInDim S8192x8192 ![0, 1] bcast_S1x8192_S8192x8192_0_1 v40
  let v42 : IVec S8192x8192 1 := andi v39 v41
  let v43 : IVec S8192x1 1 := broadcastInDim S8192x1 ![0] bcast_S8192_S8192x1_0 v19
  let v44 : IVec S8192x8192 1 := broadcastInDim S8192x8192 ![0, 1] bcast_S8192x1_S8192x8192_0_1 v43
  andi v42 v44

/-- Which rows count: a family, a same-family row, an other-family row. -/
noncomputable def validArr (fam : IVec S8192 32) : IVec S8192 1 :=
  let v50 : IVec S8192 1 :=
    Host.reduce IntOp.ori (sameArr fam) (constantI S_ 1 0#1) reducesTo_S8192x8192_S8192_d1 h_S_
  let v51 : IVec S8192 1 := andi (okArr fam) v50
  let v52 : IVec S8192 1 :=
    Host.reduce IntOp.ori (diffArr fam) (constantI S_ 1 0#1) reducesTo_S8192x8192_S8192_d1 h_S_
  andi v51 v52

variable {F : FTy → Type} [FloatOps F]

/-! ## The distances -/

/-- The similarity matrix: the rows against their own transpose. -/
noncomputable def simArr (e : FVec F S8192x256 .f32) : FVec F S8192x8192 .f32 :=
  let v14 : FVec F S256x8192 .f32 := transpose S256x8192 [1, 0] e transposes_S8192x256_S256x8192_1_0
  Host.dotGeneral dot_S8192x256_S256x8192_S8192x8192_1_0_0_1_n_n none e v14

/-- The distance matrix: one minus the similarity. -/
noncomputable def distArr (e : FVec F S8192x256 .f32) : FVec F S8192x8192 .f32 :=
  let v16 : FVec F S8192x8192 .f32 :=
    broadcastInDim S8192x8192 ![] bcast_S_S8192x8192 (constant S_ .f32 0x3F800000#32)
  subf v16 (simArr e)

/-- The greatest same-family distance of every row, `-2` standing where the mask is off, from `-∞`. -/
noncomputable def posArr (e : FVec F S8192x256 .f32) (fam : IVec S8192 32) : FVec F S8192 .f32 :=
  let v46 : FVec F S8192x8192 .f32 :=
    select (sameArr fam) (distArr e)
      (broadcastInDim S8192x8192 ![] bcast_S_S8192x8192 (id (constant S_ .f32 0xC0000000#32)))
  Host.reduce FloatOps.maximumf v46 (constant S_ .f32 0xFF800000#32) reducesTo_S8192x8192_S8192_d1 h_S_

/-- The least other-family distance of every row, `4` standing where the mask is off, from `+∞`. -/
noncomputable def negArr (e : FVec F S8192x256 .f32) (fam : IVec S8192 32) : FVec F S8192 .f32 :=
  let v48 : FVec F S8192x8192 .f32 :=
    select (diffArr fam) (distArr e)
      (broadcastInDim S8192x8192 ![] bcast_S_S8192x8192 (id (constant S_ .f32 0x40800000#32)))
  Host.reduce FloatOps.minimumf v48 (constant S_ .f32 0x7F800000#32) reducesTo_S8192x8192_S8192_d1 h_S_

/-! ## The hinges and the mean -/

/-- The hinge of every row, kept where the row counts. -/
noncomputable def termArr (e : FVec F S8192x256 .f32) (fam : IVec S8192 32) : FVec F S8192 .f32 :=
  let v54 : FVec F S8192 .f32 := subf (posArr e fam) (negArr e fam)
  let v55 : FVec F S8192 .f32 := broadcastInDim S8192 ![] bcast_S_S8192 (constant S_ .f32 0x3E99999A#32)
  let v56 : FVec F S8192 .f32 := addf v54 v55
  let v57 : FVec F S8192 .f32 :=
    maximumf v56 (broadcastInDim S8192 ![] bcast_S_S8192 (constant S_ .f32 0x00000000#32))
  let v58 : FVec F S8192 .f32 := uitofp .f32 (validArr fam)
  mulf v57 v58

/-- The reference from the unit rows and the family codes to its result: the sum of the hinges over the number of
    rows that count, or over `1` if none does. -/
noncomputable def tail (e : FVec F Cert.ReferenceIdeal.S8192x256 .f32) (fam : IVec Cert.ReferenceIdeal.S8192 32) :
    FVec F Cert.ReferenceIdeal.S_ .f32 :=
  let v60 : IVec S8192 32 := extui 32 (validArr fam) natLt_1_32
  let v61 : IVec S_ 32 := Host.reduce IntOp.addi v60 (constantI S_ 32 0#32) reducesTo_S8192_S_d0 h_S_
  let v62 : FVec F S_ .f32 :=
    Host.reduceAdd (termArr e fam) (constant S_ .f32 0x00000000#32) reducesTo_S8192_S_d0 h_S_
  let v63 : IVec S_ 32 := maxsi v61 (constantI S_ 32 1#32)
  let v64 : FVec F S_ .f32 := sitofp .f32 v63
  Host.divf v62 v64

/-- The whole reference: the tail over the rows divided by their norms and the labels' family codes. -/
noncomputable def result (x : FVec F Cert.ReferenceIdeal.S8192x256 .f32) (lab : IVec Cert.ReferenceIdeal.S8192 32) :
    FVec F Cert.ReferenceIdeal.S_ .f32 :=
  tail (Cert.Shared.eArr x) (Cert.Shared.famArr lab)

end Cert.RefTerm

end
-- ==== Proof.RefRun.lean ====
/-
  The reference computation as one straight line: its operations in the order they run, and what
  the line leaves in its result.

  The line has two stretches. The opening stretch computes, from the labels, the family code of every
  row (the label clamped into the table's range, looked up, `-1` where the label is past the table) and,
  from the embeddings, every row divided by its Euclidean norm. The second stretch reads only those
  two arrays: the matrix of distances `1 - ⟨e r, e c⟩`, the mask of pairs of one family (the row itself
  apart) and the mask of pairs of two families, each row's greatest distance over the first and least
  over the second, which rows have both, and the mean over those rows of `max (pos - neg + margin) 0`.

  Run from any memory, the line ends with its result holding the second stretch's composed term at the
  first stretch's two arrays, and with both arguments as they were.
-/
import proofs.«417721_j28690381537966_3_alg».proof.ReferenceIdeal
import proofs.«417721_j28690381537966_3_alg».proof.Proof.Gen.ReferenceIdeal
import proofs.«417721_j28690381537966_3_alg».proof.Proof.RefTerm
import Idealize.ShloMosaic.Lib.StableHlo.Run
import Idealize.ShloMosaic.PureOps.Ideal

set_option Elab.async false

noncomputable section

namespace Cert.RefRun

open Cert.ReferenceIdeal Cert.ReferenceIdeal.Gen Idealize.ShloMosaic Idealize.ShloMosaic.TcCoe Idealize.SL.Sem
open Idealize.ShloMosaic.StableHlo (seq after after_cons after_nil run_seq tcRefs launchContents)

variable {F : FTy → Type} [FloatOps F]

/-- The opening stretch: the family code of every label, and every row divided by its norm; where the
    program calls one of its functions the function's operations stand in the call's place, over that
    call's own buffers. -/
abbrev opsHead : List (HloOp τ sig (Elt F)) :=
  [ StableHlo.nullary main_c (fun i => lit0 (S6.rowMajor i)),
    StableHlo.nullary main_c_0 (constantI S_ 32 6#32),
    StableHlo.unary main_c_0 main_v0 (broadcastInDim S8192 ![] bcast_S_S8192 : (⟨S_, .i32⟩ : BufTy).Contents (Elt F) → (⟨S8192, .i32⟩ : BufTy).Contents (Elt F)),
    StableHlo.binary main_arg1 main_v0 main_v1 (cmpi .slt : (⟨S8192, .i32⟩ : BufTy).Contents (Elt F) → (⟨S8192, .i32⟩ : BufTy).Contents (Elt F) → (⟨S8192, .i1⟩ : BufTy).Contents (Elt F)),
    StableHlo.nullary main_c_1 (constantI S_ 32 0#32),
    StableHlo.nullary main_c_2 (constantI S_ 32 5#32),
    StableHlo.TRef.unary (.of main_c_1 : StableHlo.TRef sig ⟨S_, .i32⟩) main_call0.v0 id,
    StableHlo.TRef.unary main_call0.v0 main_call0.v1 (broadcastInDim S8192 ![] bcast_S_S8192),
    StableHlo.TRef.binary main_call0.v1 (.of main_arg1 : StableHlo.TRef sig ⟨S8192, .i32⟩) main_call0.v2 maxsi,
    StableHlo.TRef.unary (.of main_c_2 : StableHlo.TRef sig ⟨S_, .i32⟩) main_call0.v3 id,
    StableHlo.TRef.unary main_call0.v3 main_call0.v4 (broadcastInDim S8192 ![] bcast_S_S8192),
    StableHlo.TRef.binary main_call0.v4 main_call0.v2 main_call0.v5 minsi,
    StableHlo.nullary main_c_3 (constantI S_ 32 0#32),
    StableHlo.unary main_c_3 main_v3 (broadcastInDim S8192 ![] bcast_S_S8192 : (⟨S_, .i32⟩ : BufTy).Contents (Elt F) → (⟨S8192, .i32⟩ : BufTy).Contents (Elt F)),
    StableHlo.binary main_v2 main_v3 main_v4 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 6#32),
    StableHlo.unary main_c_4 main_v5 (broadcastInDim S8192 ![] bcast_S_S8192 : (⟨S_, .i32⟩ : BufTy).Contents (Elt F) → (⟨S8192, .i32⟩ : BufTy).Contents (Elt F)),
    StableHlo.binary main_v2 main_v5 main_v6 (addi : (⟨S8192, .i32⟩ : BufTy).Contents (Elt F) → (⟨S8192, .i32⟩ : BufTy).Contents (Elt F) → (⟨S8192, .i32⟩ : BufTy).Contents (Elt F)),
    StableHlo.ternary main_v4 main_v6 main_v2 main_v7 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v7 main_v8 (broadcastInDim S8192x1 ![0] bcast_S8192_S8192x1_0 : (⟨S8192, .i32⟩ : BufTy).Contents (Elt F) → (⟨S8192x1, .i32⟩ : BufTy).Contents (Elt F)),
    StableHlo.binary main_c main_v8 main_v9 ((fun x i => Host.gather gather_S6_S8192x1_S8192_n_0_n_n_0_1_1 x i) : (⟨S6, .i32⟩ : BufTy).Contents (Elt F) → (⟨S8192x1, .i32⟩ : BufTy).Contents (Elt F) → (⟨S8192, .i32⟩ : BufTy).Contents (Elt F)),
    StableHlo.nullary main_c_5 (constantI S_ 32 4294967295#32),
    StableHlo.TRef.unary (.of main_c_5 : StableHlo.TRef sig ⟨S_, .i32⟩) main_call1.v0 id,
    StableHlo.TRef.unary main_call1.v0 main_call1.v1 (broadcastInDim S8192 ![] bcast_S_S8192),
    StableHlo.TRef.ternary (.of main_v1 : StableHlo.TRef sig ⟨S8192, .i1⟩) (.of main_v9 : StableHlo.TRef sig ⟨S8192, .i32⟩) main_call1.v1 main_call1.v2 select,
    StableHlo.TRef.binary (.of main_arg0 : StableHlo.TRef sig ⟨S8192x256, .f32⟩) (.of main_arg0 : StableHlo.TRef sig ⟨S8192x256, .f32⟩) main_call2.v0 mulf,
    StableHlo.TRef.nullary main_call2.cst (constant S_ .f32 0x00000000#32),
    StableHlo.TRef.binary main_call2.v0 main_call2.cst main_call2.v1 (fun x v => Host.reduceAdd x v reducesTo_S8192x256_S8192_d1 h_S_),
    StableHlo.TRef.unary main_call2.v1 main_call2.v2 (broadcastInDim S8192x1 ![0] bcast_S8192_S8192x1_0),
    StableHlo.TRef.unary main_call2.v2 main_call2.v3 Host.sqrt,
    StableHlo.unary main_v11 main_v12 (broadcastInDim S8192x256 ![0, 1] bcast_S8192x1_S8192x256_0_1 : (⟨S8192x1, .f32⟩ : BufTy).Contents (Elt F) → (⟨S8192x256, .f32⟩ : BufTy).Contents (Elt F)),
    StableHlo.binary main_arg0 main_v12 main_v13 (Host.divf : (⟨S8192x256, .f32⟩ : BufTy).Contents (Elt F) → (⟨S8192x256, .f32⟩ : BufTy).Contents (Elt F) → (⟨S8192x256, .f32⟩ : BufTy).Contents (Elt F)) ]

/-- The second stretch: from the unit rows and the family codes to the result. -/
abbrev opsTail : List (HloOp τ sig (Elt F)) :=
  [ StableHlo.unary main_v13 main_v14 ((transpose S256x8192 [1, 0] · transposes_S8192x256_S256x8192_1_0) : (⟨S8192x256, .f32⟩ : BufTy).Contents (Elt F) → (⟨S256x8192, .f32⟩ : BufTy).Contents (Elt F)),
    StableHlo.binary main_v13 main_v14 main_v15 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)),
    StableHlo.nullary main_cst (constant S_ .f32 0x3F800000#32),
    StableHlo.unary main_cst main_v16 (broadcastInDim S8192x8192 ![] bcast_S_S8192x8192 : (⟨S_, .f32⟩ : BufTy).Contents (Elt F) → (⟨S8192x8192, .f32⟩ : BufTy).Contents (Elt F)),
    StableHlo.binary main_v16 main_v15 main_v17 (subf : (⟨S8192x8192, .f32⟩ : BufTy).Contents (Elt F) → (⟨S8192x8192, .f32⟩ : BufTy).Contents (Elt F) → (⟨S8192x8192, .f32⟩ : BufTy).Contents (Elt F)),
    StableHlo.nullary main_c_6 (constantI S_ 32 0#32),
    StableHlo.unary main_c_6 main_v18 (broadcastInDim S8192 ![] bcast_S_S8192 : (⟨S_, .i32⟩ : BufTy).Contents (Elt F) → (⟨S8192, .i32⟩ : BufTy).Contents (Elt F)),
    StableHlo.binary main_v10 main_v18 main_v19 (cmpi .sge : (⟨S8192, .i32⟩ : BufTy).Contents (Elt F) → (⟨S8192, .i32⟩ : BufTy).Contents (Elt F) → (⟨S8192, .i1⟩ : BufTy).Contents (Elt F)),
    StableHlo.unary main_v10 main_v20 (broadcastInDim S8192x1 ![0] bcast_S8192_S8192x1_0 : (⟨S8192, .i32⟩ : BufTy).Contents (Elt F) → (⟨S8192x1, .i32⟩ : BufTy).Contents (Elt F)),
    StableHlo.unary main_v10 main_v21 (broadcastInDim S1x8192 ![1] bcast_S8192_S1x8192_1 : (⟨S8192, .i32⟩ : BufTy).Contents (Elt F) → (⟨S1x8192, .i32⟩ : BufTy).Contents (Elt F)),
    StableHlo.unary main_v20 main_v22 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v21 main_v23 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v22 main_v23 main_v24 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v19 main_v25 (broadcastInDim S8192x1 ![0] bcast_S8192_S8192x1_0 : (⟨S8192, .i1⟩ : BufTy).Contents (Elt F) → (⟨S8192x1, .i1⟩ : BufTy).Contents (Elt F)),
    StableHlo.unary main_v25 main_v26 (broadcastInDim S8192x8192 ![0, 1] bcast_S8192x1_S8192x8192_0_1 : (⟨S8192x1, .i1⟩ : BufTy).Contents (Elt F) → (⟨S8192x8192, .i1⟩ : BufTy).Contents (Elt F)),
    StableHlo.binary main_v24 main_v26 main_v27 (andi : (⟨S8192x8192, .i1⟩ : BufTy).Contents (Elt F) → (⟨S8192x8192, .i1⟩ : BufTy).Contents (Elt F) → (⟨S8192x8192, .i1⟩ : BufTy).Contents (Elt F)),
    StableHlo.nullary main_v28 (iotaInDim S8192x8192 32 0),
    StableHlo.nullary main_v29 (iotaInDim S8192x8192 32 1),
    StableHlo.nullary main_c_7 (constantI S_ 32 0#32),
    StableHlo.unary main_c_7 main_v30 (broadcastInDim S8192x8192 ![] bcast_S_S8192x8192 : (⟨S_, .i32⟩ : BufTy).Contents (Elt F) → (⟨S8192x8192, .i32⟩ : BufTy).Contents (Elt F)),
    StableHlo.binary main_v28 main_v30 main_v31 (addi : (⟨S8192x8192, .i32⟩ : BufTy).Contents (Elt F) → (⟨S8192x8192, .i32⟩ : BufTy).Contents (Elt F) → (⟨S8192x8192, .i32⟩ : BufTy).Contents (Elt F)),
    StableHlo.binary main_v31 main_v29 main_v32 (cmpi .eq : (⟨S8192x8192, .i32⟩ : BufTy).Contents (Elt F) → (⟨S8192x8192, .i32⟩ : BufTy).Contents (Elt F) → (⟨S8192x8192, .i1⟩ : BufTy).Contents (Elt F)),
    StableHlo.unary main_v32 main_v33 (noti : (⟨S8192x8192, .i1⟩ : BufTy).Contents (Elt F) → (⟨S8192x8192, .i1⟩ : BufTy).Contents (Elt F)),
    StableHlo.binary main_v27 main_v33 main_v34 (andi : (⟨S8192x8192, .i1⟩ : BufTy).Contents (Elt F) → (⟨S8192x8192, .i1⟩ : BufTy).Contents (Elt F) → (⟨S8192x8192, .i1⟩ : BufTy).Contents (Elt F)),
    StableHlo.unary main_v10 main_v35 (broadcastInDim S8192x1 ![0] bcast_S8192_S8192x1_0 : (⟨S8192, .i32⟩ : BufTy).Contents (Elt F) → (⟨S8192x1, .i32⟩ : BufTy).Contents (Elt F)),
    StableHlo.unary main_v10 main_v36 (broadcastInDim S1x8192 ![1] bcast_S8192_S1x8192_1 : (⟨S8192, .i32⟩ : BufTy).Contents (Elt F) → (⟨S1x8192, .i32⟩ : BufTy).Contents (Elt F)),
    StableHlo.unary main_v35 main_v37 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v36 main_v38 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v37 main_v38 main_v39 (cmpi .ne : (⟨S8192x8192, .i32⟩ : BufTy).Contents (Elt F) → (⟨S8192x8192, .i32⟩ : BufTy).Contents (Elt F) → (⟨S8192x8192, .i1⟩ : BufTy).Contents (Elt F)),
    StableHlo.unary main_v19 main_v40 (broadcastInDim S1x8192 ![1] bcast_S8192_S1x8192_1 : (⟨S8192, .i1⟩ : BufTy).Contents (Elt F) → (⟨S1x8192, .i1⟩ : BufTy).Contents (Elt F)),
    StableHlo.unary main_v40 main_v41 (broadcastInDim S8192x8192 ![0, 1] bcast_S1x8192_S8192x8192_0_1 : (⟨S1x8192, .i1⟩ : BufTy).Contents (Elt F) → (⟨S8192x8192, .i1⟩ : BufTy).Contents (Elt F)),
    StableHlo.binary main_v39 main_v41 main_v42 (andi : (⟨S8192x8192, .i1⟩ : BufTy).Contents (Elt F) → (⟨S8192x8192, .i1⟩ : BufTy).Contents (Elt F) → (⟨S8192x8192, .i1⟩ : BufTy).Contents (Elt F)),
    StableHlo.unary main_v19 main_v43 (broadcastInDim S8192x1 ![0] bcast_S8192_S8192x1_0 : (⟨S8192, .i1⟩ : BufTy).Contents (Elt F) → (⟨S8192x1, .i1⟩ : BufTy).Contents (Elt F)),
    StableHlo.unary main_v43 main_v44 (broadcastInDim S8192x8192 ![0, 1] bcast_S8192x1_S8192x8192_0_1 : (⟨S8192x1, .i1⟩ : BufTy).Contents (Elt F) → (⟨S8192x8192, .i1⟩ : BufTy).Contents (Elt F)),
    StableHlo.binary main_v42 main_v44 main_v45 (andi : (⟨S8192x8192, .i1⟩ : BufTy).Contents (Elt F) → (⟨S8192x8192, .i1⟩ : BufTy).Contents (Elt F) → (⟨S8192x8192, .i1⟩ : BufTy).Contents (Elt F)),
    StableHlo.nullary main_cst_8 (constant S_ .f32 0xC0000000#32),
    StableHlo.TRef.unary (.of main_cst_8 : StableHlo.TRef sig ⟨S_, .f32⟩) main_call3.v0 id,
    StableHlo.TRef.unary main_call3.v0 main_call3.v1 (broadcastInDim S8192x8192 ![] bcast_S_S8192x8192),
    StableHlo.TRef.ternary (.of main_v34 : StableHlo.TRef sig ⟨S8192x8192, .i1⟩) (.of main_v17 : StableHlo.TRef sig ⟨S8192x8192, .f32⟩) main_call3.v1 main_call3.v2 select,
    StableHlo.nullary main_cst_9 (constant S_ .f32 0xFF800000#32),
    StableHlo.binary main_v46 main_cst_9 main_v47 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_cst_10 (constant S_ .f32 0x40800000#32),
    StableHlo.TRef.unary (.of main_cst_10 : StableHlo.TRef sig ⟨S_, .f32⟩) main_call4.v0 id,
    StableHlo.TRef.unary main_call4.v0 main_call4.v1 (broadcastInDim S8192x8192 ![] bcast_S_S8192x8192),
    StableHlo.TRef.ternary (.of main_v45 : StableHlo.TRef sig ⟨S8192x8192, .i1⟩) (.of main_v17 : StableHlo.TRef sig ⟨S8192x8192, .f32⟩) main_call4.v1 main_call4.v2 select,
    StableHlo.nullary main_cst_11 (constant S_ .f32 0x7F800000#32),
    StableHlo.binary main_v48 main_cst_11 main_v49 ((fun x v => Host.reduce FloatOps.minimumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.nullary main_c_12 (constantI S_ 1 0#1),
    StableHlo.binary main_v34 main_c_12 main_v50 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    StableHlo.binary main_v19 main_v50 main_v51 (andi : (⟨S8192, .i1⟩ : BufTy).Contents (Elt F) → (⟨S8192, .i1⟩ : BufTy).Contents (Elt F) → (⟨S8192, .i1⟩ : BufTy).Contents (Elt F)),
    StableHlo.nullary main_c_13 (constantI S_ 1 0#1),
    StableHlo.binary main_v45 main_c_13 main_v52 ((fun x v => Host.reduce IntOp.ori x v reducesTo_S8192x8192_S8192_d1 h_S_) : (⟨S8192x8192, .i1⟩ : BufTy).Contents (Elt F) → (⟨S_, .i1⟩ : BufTy).Contents (Elt F) → (⟨S8192, .i1⟩ : BufTy).Contents (Elt F)),
    StableHlo.binary main_v51 main_v52 main_v53 (andi : (⟨S8192, .i1⟩ : BufTy).Contents (Elt F) → (⟨S8192, .i1⟩ : BufTy).Contents (Elt F) → (⟨S8192, .i1⟩ : BufTy).Contents (Elt F)),
    StableHlo.binary main_v47 main_v49 main_v54 (subf : (⟨S8192, .f32⟩ : BufTy).Contents (Elt F) → (⟨S8192, .f32⟩ : BufTy).Contents (Elt F) → (⟨S8192, .f32⟩ : BufTy).Contents (Elt F)),
    StableHlo.nullary main_cst_14 (constant S_ .f32 0x3E99999A#32),
    StableHlo.unary main_cst_14 main_v55 (broadcastInDim S8192 ![] bcast_S_S8192 : (⟨S_, .f32⟩ : BufTy).Contents (Elt F) → (⟨S8192, .f32⟩ : BufTy).Contents (Elt F)),
    StableHlo.binary main_v54 main_v55 main_v56 (addf : (⟨S8192, .f32⟩ : BufTy).Contents (Elt F) → (⟨S8192, .f32⟩ : BufTy).Contents (Elt F) → (⟨S8192, .f32⟩ : BufTy).Contents (Elt F)),
    StableHlo.TRef.nullary main_call5.cst (constant S_ .f32 0x00000000#32),
    StableHlo.TRef.unary main_call5.cst main_call5.v0 (broadcastInDim S8192 ![] bcast_S_S8192),
    StableHlo.TRef.binary (.of main_v56 : StableHlo.TRef sig ⟨S8192, .f32⟩) main_call5.v0 main_call5.v1 maximumf,
    StableHlo.unary main_v53 main_v58 (uitofp .f32 : (⟨S8192, .i1⟩ : BufTy).Contents (Elt F) → (⟨S8192, .f32⟩ : BufTy).Contents (Elt F)),
    StableHlo.binary main_v57 main_v58 main_v59 (mulf : (⟨S8192, .f32⟩ : BufTy).Contents (Elt F) → (⟨S8192, .f32⟩ : BufTy).Contents (Elt F) → (⟨S8192, .f32⟩ : BufTy).Contents (Elt F)),
    StableHlo.unary main_v53 main_v60 ((extui 32 · natLt_1_32) : (⟨S8192, .i1⟩ : BufTy).Contents (Elt F) → (⟨S8192, .i32⟩ : BufTy).Contents (Elt F)),
    StableHlo.nullary main_c_15 (constantI S_ 32 0#32),
    StableHlo.binary main_v60 main_c_15 main_v61 ((fun x v => Host.reduce IntOp.addi x v reducesTo_S8192_S_d0 h_S_) : (⟨S8192, .i32⟩ : BufTy).Contents (Elt F) → (⟨S_, .i32⟩ : BufTy).Contents (Elt F) → (⟨S_, .i32⟩ : BufTy).Contents (Elt F)),
    StableHlo.nullary main_cst_16 (constant S_ .f32 0x00000000#32),
    StableHlo.binary main_v59 main_cst_16 main_v62 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_c_17 (constantI S_ 32 1#32),
    StableHlo.binary main_v61 main_c_17 main_v63 (maxsi : (⟨S_, .i32⟩ : BufTy).Contents (Elt F) → (⟨S_, .i32⟩ : BufTy).Contents (Elt F) → (⟨S_, .i32⟩ : BufTy).Contents (Elt F)),
    StableHlo.unary main_v63 main_v64 (sitofp .f32 : (⟨S_, .i32⟩ : BufTy).Contents (Elt F) → (⟨S_, .f32⟩ : BufTy).Contents (Elt F)),
    StableHlo.binary main_v62 main_v64 main_v65 (Host.divf : (⟨S_, .f32⟩ : BufTy).Contents (Elt F) → (⟨S_, .f32⟩ : BufTy).Contents (Elt F) → (⟨S_, .f32⟩ : BufTy).Contents (Elt F)) ]

/-- Every operation of the computation, in order. -/
abbrev ops : List (HloOp τ sig (Elt F)) := opsHead ++ opsTail

set_option maxRecDepth 8192 in
set_option maxHeartbeats 4000000 in
/-- The program is that line: its two halves and the functions it calls unfold to the same chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsHead_sub : (opsHead : List (HloOp τ sig (Elt F))).Forall fun op => op.bufs ⊆ tcRefs τ sig :=
  ⟨StableHlo.nullary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub ..⟩

set_option maxRecDepth 8192 in
theorem opsTail_sub : (opsTail : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.unary_bufs_sub .., StableHlo.unary_bufs_sub .., StableHlo.ternary_bufs_sub .., StableHlo.nullary_bufs_sub .., StableHlo.binary_bufs_sub .., StableHlo.nullary_bufs_sub .., StableHlo.binary_bufs_sub .., StableHlo.binary_bufs_sub .., StableHlo.nullary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.nullary_bufs_sub .., StableHlo.binary_bufs_sub .., StableHlo.nullary_bufs_sub .., StableHlo.binary_bufs_sub .., StableHlo.nullary_bufs_sub .., StableHlo.binary_bufs_sub .., StableHlo.unary_bufs_sub .., StableHlo.binary_bufs_sub ..⟩

/-- Every operation touches TensorCore buffers only. -/
theorem ops_sub : (ops : List (HloOp τ sig (Elt F))).Forall fun op => op.bufs ⊆ tcRefs τ sig :=
  List.forall_iff_forall_mem.mpr fun op h => by
    rcases List.mem_append.mp h with h | h
    exacts [List.forall_iff_forall_mem.mp opsHead_sub op h, List.forall_iff_forall_mem.mp opsTail_sub op h]

/-- Two stretches run one after the other: the second starts from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The opening stretch -/

open Idealize.ShloMosaic.StableHlo in
set_option maxRecDepth 8192 in
set_option maxHeartbeats 1000000 in
/-- It leaves the family codes of the labels. -/
theorem head_fam (V : Valuation τ sig (Elt F)) :
    after opsHead V (Proc.devRef .tc main_v10) = Cert.Shared.famArr (V (Proc.devRef .tc main_arg1)) := by
  after_results_simp
  simp only [Cert.Shared.famArr, TRef.toBuf, TRef.ofBuf, cast_eq, id]
  rfl

open Idealize.ShloMosaic.StableHlo in
set_option maxRecDepth 8192 in
set_option maxHeartbeats 1000000 in
/-- It leaves the rows divided by their norms. -/
theorem head_e (V : Valuation τ sig (Elt F)) :
    after opsHead V (Proc.devRef .tc main_v13) = Cert.Shared.eArr (V (Proc.devRef .tc main_arg0)) := by
  after_results_simp
  simp only [Cert.Shared.eArr, Cert.Shared.sumSq, TRef.toBuf, TRef.ofBuf, cast_eq, id]

set_option maxRecDepth 8192 in
set_option maxHeartbeats 1000000 in
theorem head_arg0 (V : Valuation τ sig (Elt F)) :
    after opsHead V (Proc.devRef .tc main_arg0) = V (Proc.devRef .tc main_arg0) := by
  after_results_simp

set_option maxRecDepth 8192 in
set_option maxHeartbeats 1000000 in
theorem head_arg1 (V : Valuation τ sig (Elt F)) :
    after opsHead V (Proc.devRef .tc main_arg1) = V (Proc.devRef .tc main_arg1) := by
  after_results_simp

/-! ## The second stretch -/

set_option maxRecDepth 8192 in
set_option maxHeartbeats 4000000 in
theorem tail_arg0 (W : Valuation τ sig (Elt F)) :
    after opsTail W (Proc.devRef .tc main_arg0) = W (Proc.devRef .tc main_arg0) := by
  after_results_simp

set_option maxRecDepth 8192 in
set_option maxHeartbeats 4000000 in
theorem tail_arg1 (W : Valuation τ sig (Elt F)) :
    after opsTail W (Proc.devRef .tc main_arg1) = W (Proc.devRef .tc main_arg1) := by
  after_results_simp

open Idealize.ShloMosaic.StableHlo in
set_option maxRecDepth 8192 in
set_option maxHeartbeats 4000000 in
/-- From any contents, it leaves its composed term at the unit rows and the family codes it finds. -/
theorem tail_out (W : Valuation τ sig (Elt F)) :
    after opsTail W (Proc.devRef .tc main_v65)
      = Cert.RefTerm.tail (W (Proc.devRef .tc main_v13)) (W (Proc.devRef .tc main_v10)) := by
  after_results_simp
  simp only [Cert.RefTerm.tail, Cert.RefTerm.termArr, Cert.RefTerm.validArr, Cert.RefTerm.posArr, Cert.RefTerm.negArr,
    Cert.RefTerm.sameArr, Cert.RefTerm.diffArr, Cert.RefTerm.okArr, Cert.RefTerm.distArr, Cert.RefTerm.simArr,
    TRef.toBuf, TRef.ofBuf, cast_eq, id]

/-! ## The whole line -/

theorem out_eq (V : Valuation τ sig (Elt F)) :
    after ops V (Proc.devRef .tc main_v65)
      = Cert.RefTerm.result (V (Proc.devRef .tc main_arg0)) (V (Proc.devRef .tc main_arg1)) := by
  show after (opsHead ++ opsTail) V _ = _
  rw [after_append, tail_out, head_fam, head_e]
  rfl

theorem arg0_eq (V : Valuation τ sig (Elt F)) :
    after ops V (Proc.devRef .tc main_arg0) = V (Proc.devRef .tc main_arg0) := by
  show after (opsHead ++ opsTail) V _ = _
  rw [after_append, tail_arg0, head_arg0]

theorem arg1_eq (V : Valuation τ sig (Elt F)) :
    after ops V (Proc.devRef .tc main_arg1) = V (Proc.devRef .tc main_arg1) := by
  show after (opsHead ++ opsTail) V _ = _
  rw [after_append, tail_arg1, head_arg1]

set_option maxRecDepth 8192 in
/-- On the device, from any memory with zero counters: every weakly fair execution of the program terminates with
    the result at the reference's composed term of the two arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v65)
          = Cert.RefTerm.result (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v65).trans (out_eq _), (h c main_arg0).trans (arg0_eq _),
      (h c main_arg1).trans (arg1_eq _)⟩)
    (run_seq scopedRefs_eq scopedSems_eq defs main (fun _ => ops) main_eq (fun _ => ops_sub) m ρ)

end Cert.RefRun

end
-- ==== Proof.RefValue.lean ====
/-
  The reference's tail, read: from the unit rows `e` and the family codes `fam` the term `Cert.RefTerm.tail` is the
  mining on distances `Cert.Spec.rOut`, for every input.

  Each stage of the term is read at an index. A mask bit is `1` exactly when the pair (or the row) has the property
  the formula names: a signed comparison with zero says the code is not negative, an equality of two broadcasts says
  the two rows' codes agree, the two iotas differ exactly off the diagonal, an `and` is a conjunction and an
  `or`-reduction along a row an existential over the columns. The matrix product against the transpose is the inner
  product of two rows. A maximum-reduction from `-∞` along a row is the supremum over the columns, a minimum-reduction
  from `+∞` the infimum. The sum of the 0/1 words is the number of rows that count, below `2^31`, so its signed
  reading is that number.
-/
import proofs.«417721_j28690381537966_3_alg».proof.Proof.RefTerm
import proofs.«417721_j28690381537966_3_alg».proof.Proof.Spec
import proofs.«417721_j28690381537966_3_alg».proof.Proof.Consts
import Idealize.ShloMosaic.Lib.IdealHost
import Idealize.ShloMosaic.Lib.Affine
import Idealize.ShloMosaic.Lib.IndicatorCount
import Idealize.ShloMosaic.Lib.Pipeline.Value
import Idealize.ShloMosaic.Lib.StackMember
import Idealize.ShloMosaic.Lib.ValueIdxRank1
import Idealize.ShloMosaic.Lib.StableHlo.Predicate
import Idealize.ShloMosaic.PureOps.Reduce
import Idealize.ShloMosaic.PureOps.Ideal.Laws
import Mathlib.Order.CompleteLattice.Finset

noncomputable section

namespace Cert.RefValue

open Idealize.ShloMosaic Idealize.ShloMosaic.ValueIdx
open Cert.ReferenceIdeal (S8192 S_ S8192x1 S1x8192 S8192x8192 S8192x256 S256x8192)
open Cert.RefTerm
open scoped BigOperators

/-! ## Reading tools -/

/-- A vector laid down the rows of the square reads, at `(r, c)`, its entry `r`. -/
theorem bc_col {α : Type} (h₁ : S8192.BroadcastsInDim S8192x1 ![0]) (h₂ : S8192x1.BroadcastsInDim S8192x8192 ![0, 1])
    (x : S8192.Idx → α) (r c : Fin 8192) :
    broadcastInDim S8192x8192 ![0, 1] h₂ (broadcastInDim S8192x1 ![0] h₁ x) (ix2 r c) = x (ix1 r) := by
  rw [broadcastInDim_apply ![0, 1] h₂ _ (ix2 r c) (ix2 r (0 : Fin 1)) (fun a => by
    match a with
    | ⟨0, _⟩ => rfl
    | ⟨1, _⟩ => rfl)]
  exact broadcastInDim_apply ![0] h₁ x (ix2 r (0 : Fin 1)) (ix1 r) (fun a => by
    match a with
    | ⟨0, _⟩ => rfl)

/-- A vector laid along the columns of the square reads, at `(r, c)`, its entry `c`. -/
theorem bc_row {α : Type} (h₁ : S8192.BroadcastsInDim S1x8192 ![1]) (h₂ : S1x8192.BroadcastsInDim S8192x8192 ![0, 1])
    (x : S8192.Idx → α) (r c : Fin 8192) :
    broadcastInDim S8192x8192 ![0, 1] h₂ (broadcastInDim S1x8192 ![1] h₁ x) (ix2 r c) = x (ix1 c) := by
  rw [broadcastInDim_apply ![0, 1] h₂ _ (ix2 r c) (ix2 (0 : Fin 1) c) (fun a => by
    match a with
    | ⟨0, _⟩ => rfl
    | ⟨1, _⟩ => rfl)]
  exact broadcastInDim_apply ![1] h₁ x (ix2 (0 : Fin 1) c) (ix1 c) (fun a => by
    match a with
    | ⟨0, _⟩ => rfl)

/-- A select on a bit that is `1` is its first operand. -/
theorem select_of_one {α : Type} {m : BitVec 1} (h : m = 1#1) (a b : α) : Scalar.select m a b = a := by
  subst h; rfl

/-- A select on a bit that is not `1` is its second operand. -/
theorem select_of_ne_one {α : Type} {m : BitVec 1} (h : ¬m = 1#1) (a b : α) : Scalar.select m a b = b := by
  obtain rfl := eq_zero_of_ne_one h; rfl

/-- The fold of `max` from `⊥` over all of a finite index type is the supremum. -/
theorem fold_max_eq_iSup {ι : Type} [Fintype ι] (f : ι → EReal) :
    (Finset.univ : Finset ι).fold max ⊥ f = ⨆ k, f k := by
  rw [← Finset.sup_univ_eq_iSup]; rfl

/-- The fold of `min` from `⊤` over all of a finite index type is the infimum. -/
theorem fold_min_eq_iInf {ι : Type} [Fintype ι] (f : ι → EReal) :
    (Finset.univ : Finset ι).fold min ⊤ f = ⨅ k, f k := by
  rw [← Finset.inf_univ_eq_iInf]; rfl

/-- A fold of `or` from `0` is `1` exactly when some word is. -/
theorem fold_ori_eq_one {ι : Type} (f : ι → BitVec 1) (S : Finset ι) :
    S.fold IntOp.ori 0#1 f = 1#1 ↔ ∃ k ∈ S, f k = 1#1 := by
  classical
  induction S using Finset.induction_on with
  | empty => simp
  | insert a S ha ih =>
    rw [Finset.fold_insert ha, IntOp.ori_eq_one, ih]
    simp only [Finset.mem_insert, exists_eq_or_imp]

/-- The square reduces along its second axis to a vector. -/
theorem reduces_row : S8192x8192.Reduces [1] S8192 := by decide

/-- The scalar shape has one index. -/
instance : Subsingleton S_.Idx := ⟨fun _ _ => funext fun d => d.elim0⟩

/-- Over row `r`, the square's index with column `k` inserted is `(r, k)`. -/
theorem lift_row (r k : Fin 8192) : reduces_row.lift (ix1 r) k = ix2 r k := by
  funext c; apply Fin.ext
  match c with
  | ⟨0, _⟩ => rfl
  | ⟨1, _⟩ => rfl

/-- An `or`-reduction of a mask along the rows is `1` at row `r` exactly when some column of the row is. -/
theorem reduce_ori_row (m : IVec S8192x8192 1) (h' : S8192x8192.ReducesTo [1] S8192) (hu : 0 < S_.numel) (r : Fin 8192) :
    Host.reduce IntOp.ori m (constantI S_ 1 0#1) h' hu (ix1 r) = 1#1 ↔ ∃ c : Fin 8192, m (ix2 r c) = 1#1 := by
  rw [Host.reduce_eq_fold_single IntOp.ori m (constantI S_ 1 0#1) h' reduces_row hu (ix1 r)]
  have h0 : constantI S_ 1 0#1 (Shape.Idx.first hu) = 0#1 := rfl
  rw [h0, fold_ori_eq_one]
  constructor
  · rintro ⟨k, -, hk⟩; exact ⟨k, (congrArg m (lift_row r k)).symm.trans hk⟩
  · rintro ⟨k, hk⟩; exact ⟨k, Finset.mem_univ _, (congrArg m (lift_row r k)).trans hk⟩

/-- A maximum-reduction from `-∞` along the rows is, at row `r`, the supremum over the columns. -/
theorem reduce_max_row (m : FVec Ideal S8192x8192 .f32) (h' : S8192x8192.ReducesTo [1] S8192) (hu : 0 < S_.numel)
    (r : Fin 8192) :
    Host.reduce FloatOps.maximumf m (constant S_ .f32 0xFF800000#32) h' hu (ix1 r) = ⨆ c : Fin 8192, m (ix2 r c) := by
  rw [Host.reduce_eq_fold_single FloatOps.maximumf m (constant S_ .f32 0xFF800000#32) h' reduces_row hu (ix1 r)]
  have h0 : constant (F := Ideal) S_ .f32 0xFF800000#32 (Shape.Idx.first hu) = (⊥ : EReal) := Consts.ofBits_negInf
  rw [h0]
  exact (fold_max_eq_iSup _).trans (iSup_congr fun k => congrArg m (lift_row r k))

/-- A minimum-reduction from `+∞` along the rows is, at row `r`, the infimum over the columns. -/
theorem reduce_min_row (m : FVec Ideal S8192x8192 .f32) (h' : S8192x8192.ReducesTo [1] S8192) (hu : 0 < S_.numel)
    (r : Fin 8192) :
    Host.reduce FloatOps.minimumf m (constant S_ .f32 0x7F800000#32) h' hu (ix1 r) = ⨅ c : Fin 8192, m (ix2 r c) := by
  rw [Host.reduce_eq_fold_single FloatOps.minimumf m (constant S_ .f32 0x7F800000#32) h' reduces_row hu (ix1 r)]
  have h0 : constant (F := Ideal) S_ .f32 0x7F800000#32 (Shape.Idx.first hu) = (⊤ : EReal) := Consts.ofBits_posInf
  rw [h0]
  exact (fold_min_eq_iInf _).trans (iInf_congr fun k => congrArg m (lift_row r k))

/-- The iota along the rows, plus zero, equals the iota along the columns exactly on the diagonal. -/
theorem iota_eq_iff (r c : Fin 8192) :
    IntOp.addi (BitVec.ofNat 32 r.val) 0#32 = BitVec.ofNat 32 c.val ↔ r = c := by
  show BitVec.ofNat 32 r.val + 0#32 = BitVec.ofNat 32 c.val ↔ r = c
  rw [BitVec.add_zero]
  constructor
  · intro h
    have h' := congrArg BitVec.toNat h
    rw [BitVec.toNat_ofNat, BitVec.toNat_ofNat] at h'
    have hr := r.isLt
    have hc := c.isLt
    rw [Nat.mod_eq_of_lt (by omega), Nat.mod_eq_of_lt (by omega)] at h'
    exact Fin.ext h'
  · rintro rfl; rfl

/-- A conversion of an unsigned word to a float at an index converts the element. -/
theorem uitofp_apply {s : Shape} {w : Nat} (x : IVec s w) (i : s.Idx) :
    (uitofp .f32 x : FVec Ideal s .f32) i = (((x i).toNat : ℝ) : EReal) := rfl

section
variable (e : FVec Ideal S8192x256 .f32) (fam : IVec S8192 32)

/-! ## The masks -/

/-- A row's bit is set exactly when its family code is not negative. -/
theorem okArr_iff (r : Fin 8192) : okArr fam (ix1 r) = 1#1 ↔ Spec.okRow (fun r => fam (ix1 r)) r := by
  have h : okArr fam (ix1 r) = IntOp.cmpi .sge (fam (ix1 r)) 0#32 := by
    simp only [okArr, cmpi]
    rw [broadcastInDim_scalar_apply]
    rfl
  rw [h, IntOp.cmpi_sge, show (0#32 : BitVec 32).toInt = 0 from by decide]
  exact Iff.rfl

/-- The first mask at `(r, c)`: same code, the row's code not negative, `r ≠ c`. -/
theorem sameArr_iff (r c : Fin 8192) : sameArr fam (ix2 r c) = 1#1 ↔ Spec.rSame (fun r => fam (ix1 r)) r c := by
  have h : sameArr fam (ix2 r c)
      = IntOp.andi (IntOp.andi (IntOp.cmpi .eq (fam (ix1 r)) (fam (ix1 c))) (okArr fam (ix1 r)))
          (~~~IntOp.cmpi .eq (IntOp.addi (BitVec.ofNat 32 r.val) 0#32) (BitVec.ofNat 32 c.val)) := by
    simp only [sameArr, andi, cmpi, noti, addi, iotaInDim_apply]
    rw [bc_col, bc_row, bc_col, broadcastInDim_scalar_apply]
    rfl
  rw [h, IntOp.andi_eq_one, IntOp.andi_eq_one, IntOp.not_eq_one, IntOp.cmpi_eq, IntOp.cmpi_eq, okArr_iff, iota_eq_iff]
  exact Iff.rfl

/-- The second mask at `(r, c)`: different codes, both not negative. -/
theorem diffArr_iff (r c : Fin 8192) : diffArr fam (ix2 r c) = 1#1 ↔ Spec.rDiff (fun r => fam (ix1 r)) r c := by
  have h : diffArr fam (ix2 r c)
      = IntOp.andi (IntOp.andi (IntOp.cmpi .ne (fam (ix1 r)) (fam (ix1 c))) (okArr fam (ix1 c))) (okArr fam (ix1 r)) := by
    simp only [diffArr, andi, cmpi]
    rw [bc_col, bc_row, bc_row, bc_col]
  rw [h, IntOp.andi_eq_one, IntOp.andi_eq_one, IntOp.cmpi_ne, okArr_iff, okArr_iff]
  exact Iff.rfl

/-- A row counts exactly when it has a family, a same-family row and an other-family row. -/
theorem validArr_iff (r : Fin 8192) : validArr fam (ix1 r) = 1#1 ↔ Spec.rValid (fun r => fam (ix1 r)) r := by
  have h : validArr fam (ix1 r)
      = IntOp.andi (IntOp.andi (okArr fam (ix1 r))
            (Host.reduce IntOp.ori (sameArr fam) (constantI S_ 1 0#1)
              Cert.ReferenceIdeal.Facts₀.reducesTo_S8192x8192_S8192_d1 Cert.ReferenceIdeal.Facts₀.h_S_ (ix1 r)))
          (Host.reduce IntOp.ori (diffArr fam) (constantI S_ 1 0#1)
              Cert.ReferenceIdeal.Facts₀.reducesTo_S8192x8192_S8192_d1 Cert.ReferenceIdeal.Facts₀.h_S_ (ix1 r)) := rfl
  rw [h, IntOp.andi_eq_one, IntOp.andi_eq_one, okArr_iff, reduce_ori_row, reduce_ori_row,
    exists_congr (sameArr_iff fam r), exists_congr (diffArr_iff fam r)]
  exact Iff.rfl

/-! ## The distances -/

/-- The product against the transpose at `(r, c)` is the inner product of rows `r` and `c`. -/
theorem simArr_apply (r c : Fin 8192) : simArr e (ix2 r c) = Spec.sim (fun r d => e (ix2 r d)) r c := by
  unfold simArr Spec.sim
  dsimp only
  show Host.dotGeneral (DotDims.plain 8192 256 8192) none e
      (transpose S256x8192 [1, 0] e Cert.ReferenceIdeal.Facts₀.transposes_S8192x256_S256x8192_1_0) (ix2 r c) = _
  rw [StackMember.dotGeneral_plain_apply]
  refine Finset.sum_congr rfl fun d _ => ?_
  rw [transpose_apply [1, 0] e Cert.ReferenceIdeal.Facts₀.transposes_S8192x256_S256x8192_1_0 (ix2 d c) (ix2 c d) (fun b => by
    match b with
    | ⟨0, _⟩ => rfl
    | ⟨1, _⟩ => rfl)]

/-- The distance at `(r, c)` is one minus the similarity. -/
theorem distArr_apply (r c : Fin 8192) : distArr e (ix2 r c) = ((1 : ℝ) : EReal) - Spec.sim (fun r d => e (ix2 r d)) r c := by
  simp only [distArr, subf_apply]
  rw [broadcastInDim_scalar_apply, constant_apply, Consts.ofBits_one, simArr_apply]

/-- The maximum-reduction of the masked distances is the supremum the formula names. -/
theorem posArr_apply (r : Fin 8192) : posArr e fam (ix1 r) = Spec.rPos (fun r d => e (ix2 r d)) (fun r => fam (ix1 r)) r := by
  unfold posArr Spec.rPos
  dsimp only
  rw [reduce_max_row]
  refine iSup_congr fun k => ?_
  rw [select_apply, distArr_apply, broadcastInDim_scalar_apply]
  show Scalar.select _ _ (Ideal.ofBits .f32 0xC0000000#32) = _
  rw [Consts.ofBits_negTwo]
  by_cases hs : Spec.rSame (fun r => fam (ix1 r)) r k
  · rw [if_pos hs, select_of_one ((sameArr_iff fam r k).mpr hs)]
  · rw [if_neg hs, select_of_ne_one (fun hm => hs ((sameArr_iff fam r k).mp hm))]

/-- The minimum-reduction of the masked distances is the infimum the formula names. -/
theorem negArr_apply (r : Fin 8192) : negArr e fam (ix1 r) = Spec.rNeg (fun r d => e (ix2 r d)) (fun r => fam (ix1 r)) r := by
  unfold negArr Spec.rNeg
  dsimp only
  rw [reduce_min_row]
  refine iInf_congr fun k => ?_
  rw [select_apply, distArr_apply, broadcastInDim_scalar_apply]
  show Scalar.select _ _ (Ideal.ofBits .f32 0x40800000#32) = _
  rw [Consts.ofBits_four]
  by_cases hs : Spec.rDiff (fun r => fam (ix1 r)) r k
  · rw [if_pos hs, select_of_one ((diffArr_iff fam r k).mpr hs)]
  · rw [if_neg hs, select_of_ne_one (fun hm => hs ((diffArr_iff fam r k).mp hm))]

/-! ## The hinges, their sum and their number -/

/-- The 0/1 word of a row, converted, is the formula's indicator. -/
theorem ind_apply (r : Fin 8192) : (((validArr fam (ix1 r)).toNat : ℝ) : EReal) = Spec.rInd (fun r => fam (ix1 r)) r := by
  unfold Spec.rInd
  by_cases hv : Spec.rValid (fun r => fam (ix1 r)) r
  · rw [if_pos hv, (validArr_iff fam r).mpr hv]
    show (((1 : ℕ) : ℝ) : EReal) = _
    rw [Nat.cast_one]
  · rw [if_neg hv, eq_zero_of_ne_one (fun hm => hv ((validArr_iff fam r).mp hm))]
    show (((0 : ℕ) : ℝ) : EReal) = _
    rw [Nat.cast_zero]

/-- The operations from the two reductions and the rows' bits to the hinges, over any such vectors. -/
noncomputable def termFn (pos neg : FVec Ideal S8192 .f32) (valid : IVec S8192 1) : FVec Ideal S8192 .f32 :=
  let v54 : FVec Ideal S8192 .f32 := subf pos neg
  let v55 : FVec Ideal S8192 .f32 :=
    broadcastInDim S8192 ![] Cert.ReferenceIdeal.Facts₀.bcast_S_S8192 (constant S_ .f32 0x3E99999A#32)
  let v56 : FVec Ideal S8192 .f32 := addf v54 v55
  let v57 : FVec Ideal S8192 .f32 :=
    maximumf v56 (broadcastInDim S8192 ![] Cert.ReferenceIdeal.Facts₀.bcast_S_S8192 (constant S_ .f32 0x00000000#32))
  let v58 : FVec Ideal S8192 .f32 := uitofp .f32 valid
  mulf v57 v58

/-- Read at a row: the hinge of the two values there, times the row's bit as a number. -/
theorem termFn_apply (pos neg : FVec Ideal S8192 .f32) (valid : IVec S8192 1) (r : Fin 8192) :
    termFn pos neg valid (ix1 r)
      = max ((pos (ix1 r) - neg (ix1 r)) + Ideal.ofBits .f32 0x3E99999A#32) ((0 : ℝ) : EReal)
          * (((valid (ix1 r)).toNat : ℝ) : EReal) := by
  unfold termFn
  dsimp only
  rw [mulf_apply, maximumf_apply, addf_apply, subf_apply, broadcastInDim_scalar_apply, broadcastInDim_scalar_apply,
    constant_apply, constant_apply, Consts.ofBits_zero]
  rfl

/-- The hinge stage is those operations at the two reductions and the rows that count. -/
theorem termArr_eq : termArr e fam = termFn (posArr e fam) (negArr e fam) (validArr fam) := rfl

/-- A row's hinge, kept where the row counts, is the formula's term. -/
theorem termArr_apply (r : Fin 8192) : termArr e fam (ix1 r) = Spec.rTerm (fun r d => e (ix2 r d)) (fun r => fam (ix1 r)) (Ideal.ofBits .f32 0x3E99999A#32) r := by
  rw [termArr_eq, termFn_apply, posArr_apply, negArr_apply, ind_apply]
  rfl

/-- The sum of the hinges from zero is the formula's sum. -/
theorem sum_apply (h' : S8192.ReducesTo [0] S_) (hu : 0 < S_.numel) (j : S_.Idx) :
    Host.reduceAdd (termArr e fam) (constant S_ .f32 0x00000000#32) h' hu j
      = ∑ r : Fin 8192, Spec.rTerm (fun r d => e (ix2 r d)) (fun r => fam (ix1 r)) (Ideal.ofBits .f32 0x3E99999A#32) r := by
  rw [hostReduceAdd_apply, Ideal.hostReduceAdd_total h' (fun b => b.elim0)]
  have h0 : constant (F := Ideal) S_ .f32 0x00000000#32 (Shape.Idx.first hu) = ((0 : ℝ) : EReal) := Consts.ofBits_zero
  rw [h0, EReal.coe_zero, zero_add, ← Equiv.sum_comp idxEquiv1.symm (termArr e fam)]
  exact Finset.sum_congr rfl fun k _ => termArr_apply e fam k

/-- The sum of the widened 0/1 words from zero is the number of rows that count, as a word. -/
theorem count_apply (h32 : 1 < 32) (h' : S8192.ReducesTo [0] S_) (hu : 0 < S_.numel) (j : S_.Idx) :
    Host.reduce IntOp.addi (extui 32 (validArr fam) h32) (constantI S_ 32 0#32) h' hu j
      = BitVec.ofNat 32 (Spec.rCount (fun r => fam (ix1 r))) := by
  rw [Host.reduce_eq_fold IntOp.addi _ _ h' hu j,
    Finset.filter_true_of_mem (fun i _ => Subsingleton.elim (h'.drop i) j)]
  show (Finset.univ : Finset S8192.Idx).fold IntOp.addi 0#32 (fun i => (validArr fam i).setWidth 32) = _
  rw [IndicatorCount.fold_addi_setWidth_eq_card (fun i : S8192.Idx => validArr fam i) Finset.univ]
  unfold Spec.rCount
  refine congrArg (fun n : ℕ => BitVec.ofNat 32 n) (Finset.card_equiv idxEquiv1 (fun i => ?_))
  simp only [Finset.mem_filter, Finset.mem_univ, true_and]
  conv_lhs => rw [eq_ix1 i]
  exact validArr_iff fam (i 0)

end

/-- A count of at most 8192, raised to at least one as a signed word and converted, is `max n 1`. -/
theorem maxsi_sitofp (n : ℕ) (hn : n ≤ 8192) :
    (FloatOps.sitofp (F := Ideal) .f32 (IntOp.maxsi (BitVec.ofNat 32 n) 1#32) : EReal) = (((max n 1 : ℕ) : ℝ) : EReal) := by
  have key : (IntOp.maxsi (BitVec.ofNat 32 n) 1#32).toInt = ((max n 1 : ℕ) : ℤ) := by
    have hN : (BitVec.ofNat 32 n).toInt = (n : ℤ) := StableHlo.Predicate.toInt_ofNat_small n (by omega)
    have h1 : (1#32 : BitVec 32).toInt = 1 := by decide
    unfold IntOp.maxsi
    by_cases h : (1#32 : BitVec 32).slt (BitVec.ofNat 32 n) = true
    · rw [if_pos h, hN]
      have hlt := BitVec.slt_iff_toInt_lt.mp h
      rw [h1, hN] at hlt
      have : max n 1 = n := by omega
      rw [this]
    · rw [if_neg h, h1]
      have hlt : ¬((1#32 : BitVec 32).toInt < (BitVec.ofNat 32 n).toInt) := fun hh => h (BitVec.slt_iff_toInt_lt.mpr hh)
      rw [h1, hN] at hlt
      have : max n 1 = 1 := by omega
      rw [this]; rfl
  show (((IntOp.maxsi (BitVec.ofNat 32 n) 1#32).toInt : ℝ) : EReal) = _
  rw [key, Int.cast_natCast]

/-- The number of rows that count is at most the number of rows. -/
theorem rCount_le (fam : Fin 8192 → BitVec 32) : Spec.rCount fam ≤ 8192 := by
  unfold Spec.rCount
  exact (Finset.card_le_univ _).trans (Fintype.card_fin 8192).le

/-- The operations from the hinges and the rows' bits to the result, over any such vectors. -/
noncomputable def tailFn (term : FVec Ideal S8192 .f32) (valid : IVec S8192 1) : FVec Ideal S_ .f32 :=
  let v60 : IVec S8192 32 := extui 32 valid Cert.ReferenceIdeal.Facts₀.natLt_1_32
  let v61 : IVec S_ 32 :=
    Host.reduce IntOp.addi v60 (constantI S_ 32 0#32) Cert.ReferenceIdeal.Facts₀.reducesTo_S8192_S_d0
      Cert.ReferenceIdeal.Facts₀.h_S_
  let v62 : FVec Ideal S_ .f32 :=
    Host.reduceAdd term (constant S_ .f32 0x00000000#32) Cert.ReferenceIdeal.Facts₀.reducesTo_S8192_S_d0
      Cert.ReferenceIdeal.Facts₀.h_S_
  let v63 : IVec S_ 32 := maxsi v61 (constantI S_ 32 1#32)
  let v64 : FVec Ideal S_ .f32 := sitofp .f32 v63
  Host.divf v62 v64

/-- Read at the scalar's index: the sum over the count, raised to one and converted. -/
theorem tailFn_apply (term : FVec Ideal S8192 .f32) (valid : IVec S8192 1) (j : S_.Idx) :
    tailFn term valid j
      = Ideal.div
          (Host.reduceAdd term (constant S_ .f32 0x00000000#32) Cert.ReferenceIdeal.Facts₀.reducesTo_S8192_S_d0
            Cert.ReferenceIdeal.Facts₀.h_S_ j)
          (FloatOps.sitofp (F := Ideal) .f32 (IntOp.maxsi
            (Host.reduce IntOp.addi (extui 32 valid Cert.ReferenceIdeal.Facts₀.natLt_1_32) (constantI S_ 32 0#32)
              Cert.ReferenceIdeal.Facts₀.reducesTo_S8192_S_d0 Cert.ReferenceIdeal.Facts₀.h_S_ j) 1#32)) := rfl

/-- The last stage is those operations at the hinges and the rows that count. -/
theorem tail_eq_tailFn (e : FVec Ideal S8192x256 .f32) (fam : IVec S8192 32) :
    Cert.RefTerm.tail (F := Ideal) e fam = tailFn (termArr e fam) (validArr fam) := rfl

/-- THE READING: the reference's tail is the mining on distances, for all rows and codes. -/
theorem tail_eq (e : FVec Ideal Cert.ReferenceIdeal.S8192x256 .f32) (fam : IVec Cert.ReferenceIdeal.S8192 32) :
    Cert.RefTerm.tail (F := Ideal) e fam = fun _ => Cert.Spec.rOut (fun r d => e (ValueIdx.ix2 r d)) (fun r => fam (ValueIdx.ix1 r)) (Ideal.ofBits .f32 0x3E99999A#32) := by
  funext j
  rw [tail_eq_tailFn, tailFn_apply, sum_apply, count_apply, maxsi_sitofp _ (rCount_le _)]
  rfl

end Cert.RefValue

end
-- ==== Proof.PreFacts.lean ====
/-
  What the precondition says, decoded into the two facts the comparison of the two minings rests on.
  The precondition is a conjunction of three "for all" statements over the inputs: every embedding entry has
  absolute value below `+∞` (so it is a real), every label is below `6` as a signed word, and every row's sum of
  squares is above `0`. From these:
  * `unit_rows`: every row of the normalised array `x r d / √(∑ d', x r d'²)` is a real vector whose squares sum to one;
  * `fam_nonneg`: every family code is one of the table's entries `0, 1, 2, 1, 3, 3`, hence nonnegative as a signed word.
-/
import proofs.«417721_j28690381537966_3_alg».proof.Pre_finite_inputs
import proofs.«417721_j28690381537966_3_alg».proof.Proof.Gen.Pre_finite_inputs
import proofs.«417721_j28690381537966_3_alg».proof.Proof.Shared
import proofs.«417721_j28690381537966_3_alg».proof.Proof.Consts
import Idealize.ShloMosaic.Lib.ReduceAll
import Idealize.ShloMosaic.Lib.IdealHost
import Idealize.ShloMosaic.Lib.StableHlo.Predicate
import Idealize.ShloMosaic.Lib.ValueIdx
import Mathlib.Analysis.Real.Sqrt
import Mathlib.Data.EReal.Operations

noncomputable section

namespace Cert.PreFacts

open Idealize.ShloMosaic

/-- The scalar shape has one index. -/
instance : Subsingleton Cert.Pre_finite_inputs.S_.Idx := ⟨fun a b => funext fun d => d.elim0⟩

/-- Every entry of the family table is a nonnegative word. -/
theorem table_nonneg : ∀ k : Fin 6, 0 ≤ (Cert.Shared.table (Cert.Shared.S6.rowMajor (Shape.Idx.ofFin k))).toInt := by decide

/-- The precondition, read element by element: every entry's absolute value is below `+∞`, every label is below `6`
    as a signed word, and every row's sum of squares is above `0`. -/
theorem decode (x : FVec Ideal Cert.Shared.S8192x256 .f32) (lab : IVec Cert.Shared.S8192 32)
    (h : Cert.Pre_finite_inputs.fn (F := Ideal) x lab = (fun _ => 1#1)) :
    (∀ i : Cert.Shared.S8192x256.Idx, max (x i) (-(x i)) < (⊤ : EReal))
    ∧ (∀ i : Cert.Shared.S8192.Idx, (lab i).toInt < 6)
    ∧ (∀ i : Cert.Shared.S8192.Idx, (0 : EReal) < Cert.Shared.sumSq (F := Ideal) x i) := by
  have h0 := congrFun h ValueIdx.ix0
  dsimp only [Cert.Pre_finite_inputs.fn] at h0
  rw [andi] at h0
  obtain ⟨h12, h3⟩ := IntOp.andi_eq_one.1 h0
  rw [andi] at h12
  obtain ⟨h1, h2⟩ := IntOp.andi_eq_one.1 h12
  refine ⟨fun i => ?_, fun i => ?_, fun i => ?_⟩
  · have e := Host.reduce_andi_all _ _ _ _ _ h1 i
    have e1 : Ideal.cmp .olt (max (x i) (-(x i))) (Ideal.ofBits .f32 0x7F800000#32) = 1#1 := e
    rw [Cert.Consts.ofBits_posInf] at e1
    exact of_decide_eq_true ((StableHlo.Predicate.ofBool_eq_one_iff _).1 e1)
  · have e := Host.reduce_andi_all _ _ _ _ _ h2 i
    have e1 : IntOp.cmpi .slt (lab i) 6#32 = 1#1 := e
    have e2 := IntOp.cmpi_slt.1 e1
    have h6 : (6#32 : BitVec 32).toInt = 6 := by decide
    rw [h6] at e2
    exact e2
  · have e := Host.reduce_andi_all _ _ _ _ _ h3 i
    have e1 : Ideal.cmp .ogt (Cert.Shared.sumSq (F := Ideal) x i) (Ideal.ofBits .f32 0x00000000#32) = 1#1 := e
    rw [Ideal.ofBits_zero_f32] at e1
    exact of_decide_eq_true ((StableHlo.Predicate.ofBool_eq_one_iff _).1 e1)

/-- An extended real whose absolute value is below `+∞` is a real. -/
theorem real_of_abs_lt_top (v : EReal) (hv : max v (-v) < ⊤) : ∃ a : ℝ, v = (a : EReal) := by
  induction v using EReal.rec with
  | bot => simp at hv
  | coe a => exact ⟨a, rfl⟩
  | top => simp at hv

/-- The coercion of the reals into the extended reals commutes with a finite sum. -/
theorem coe_sum (s : Finset (Fin 256)) (g : Fin 256 → ℝ) :
    ((∑ d ∈ s, g d : ℝ) : EReal) = ∑ d ∈ s, ((g d : ℝ) : EReal) := by
  induction s using Finset.induction_on with
  | empty => simp
  | insert a s ha ih => rw [Finset.sum_insert ha, Finset.sum_insert ha, EReal.coe_add, ih]

/-- The rank-2 index written by cases on the axis is the pair of its coordinates. -/
theorem ij_eq_ix2 (r : Fin 8192) (d : Fin 256) :
    (StableHlo.Predicate.ij r d : Cert.Shared.S8192x256.Idx) = ValueIdx.ix2 r d := by
  funext c; match c with | ⟨0, _⟩ => rfl | ⟨1, _⟩ => rfl

/-- The rank-1 index at a coordinate, in its two spellings. -/
theorem ofFin_eq_ix1 (r : Fin 8192) : (Shape.Idx.ofFin r : Cert.Shared.S8192.Idx) = ValueIdx.ix1 r := by
  funext c; match c with | ⟨0, _⟩ => exact Fin.ext rfl

/-- A row's sum of squares, when the row's entries are the reals `a d`: the real `∑ d, a d · a d`. -/
theorem sumSq_row (x : FVec Ideal Cert.Shared.S8192x256 .f32) (r : Fin 8192) (a : Fin 256 → ℝ)
    (ha : ∀ d : Fin 256, x (ValueIdx.ix2 r d) = ((a d : ℝ) : EReal)) :
    Cert.Shared.sumSq (F := Ideal) x (ValueIdx.ix1 r) = ((∑ d : Fin 256, a d * a d : ℝ) : EReal) := by
  have hR : Cert.Shared.S8192x256.Reduces [1] Cert.Shared.S8192 := by decide
  unfold Cert.Shared.sumSq
  rw [ValueIdx.hostReduceAdd_apply, Ideal.hostReduceAdd_single _ hR]
  have key : ∀ k : Fin 256, mulf x x (hR.lift (ValueIdx.ix1 r) k) = ((a k * a k : ℝ) : EReal) := by
    intro k
    have hk : hR.lift (ValueIdx.ix1 r) k = ValueIdx.ix2 r k := by
      funext c; match c with | ⟨0, _⟩ => exact Fin.ext rfl | ⟨1, _⟩ => exact Fin.ext rfl
    rw [hk, ValueIdx.mulf_apply, ha k, ← EReal.coe_mul]
  have hinit : (constant (F := Ideal) Cert.Shared.S_ .f32 0x00000000#32) (Shape.Idx.first Cert.Shared.h_S_) = 0 :=
    Ideal.ofBits_zero_f32
  rw [hinit, zero_add, coe_sum]
  exact Finset.sum_congr rfl (fun k _ => key k)

/-- An entry of the normalised array: the entry divided by the square root of its row's sum of squares. -/
theorem eArr_apply (x : FVec Ideal Cert.Shared.S8192x256 .f32) (r : Fin 8192) (d : Fin 256) :
    Cert.Shared.eArr (F := Ideal) x (ValueIdx.ix2 r d)
      = Ideal.div (x (ValueIdx.ix2 r d)) (Ideal.sqrt (Cert.Shared.sumSq (F := Ideal) x (ValueIdx.ix1 r))) := by
  unfold Cert.Shared.eArr
  dsimp only
  rw [ValueIdx.hostDivf_apply, ← ij_eq_ix2, StableHlo.Predicate.bcast_of_col]
  show Ideal.div _ (Ideal.sqrt (broadcastInDim Cert.Shared.S8192x1 ![0] Cert.Shared.bcast_S8192_S8192x1_0
    (Cert.Shared.sumSq (F := Ideal) x) (StableHlo.Predicate.ixP r))) = _
  rw [StableHlo.Predicate.bcast_col1, ofFin_eq_ix1]

/-- UNIT ROWS. Under the precondition every row of the normalised array is a real vector of Euclidean norm one: the
    row's entries are reals `a d`, their sum of squares `S` is a positive real, the normalised entries are
    `a d / √S`, and `∑ d, (a d / √S)² = S / S = 1`. -/
theorem unit_rows (x : FVec Ideal Cert.Shared.S8192x256 .f32) (lab : IVec Cert.Shared.S8192 32)
    (h : Cert.Pre_finite_inputs.fn (F := Ideal) x lab = (fun _ => 1#1)) :
    ∀ r : Fin 8192, ∃ f : Fin 256 → ℝ,
      (∀ d : Fin 256, Cert.Shared.eArr (F := Ideal) x (ValueIdx.ix2 r d) = ((f d : ℝ) : EReal))
      ∧ ∑ d : Fin 256, f d * f d = 1 := by
  intro r
  obtain ⟨hfin, -, hpos⟩ := decode x lab h
  choose a ha using fun d : Fin 256 => real_of_abs_lt_top (x (ValueIdx.ix2 r d)) (hfin _)
  have hS := sumSq_row x r a ha
  have hpos' : 0 < ∑ d : Fin 256, a d * a d := by
    have := hpos (ValueIdx.ix1 r)
    rw [hS] at this
    exact_mod_cast this
  have hsq : 0 < Real.sqrt (∑ d : Fin 256, a d * a d) := Real.sqrt_pos.2 hpos'
  refine ⟨fun d => a d * (1 / Real.sqrt (∑ d : Fin 256, a d * a d)), fun d => ?_, ?_⟩
  · rw [eArr_apply, hS, ha d, Ideal.sqrt_coe, if_neg (not_lt.2 hpos'.le), Ideal.div_coe hsq.ne', ← EReal.coe_mul]
  · have hterm : ∀ d : Fin 256, a d * (1 / Real.sqrt (∑ d : Fin 256, a d * a d)) * (a d * (1 / Real.sqrt (∑ d : Fin 256, a d * a d)))
        = a d * a d / (∑ d : Fin 256, a d * a d) := by
      intro d
      rw [mul_mul_mul_comm, one_div, ← mul_inv, Real.mul_self_sqrt hpos'.le, div_eq_mul_inv]
    simp only [hterm]
    rw [← Finset.sum_div]
    exact div_self hpos'.ne'

/-- FAMILY CODES. Under the precondition every label is below `6`, so its family code is the table's entry at the
    label clamped into the table's range — one of the table's six nonnegative words — and never the `-1` that marks
    a label out of range. -/
theorem fam_nonneg (x : FVec Ideal Cert.Shared.S8192x256 .f32) (lab : IVec Cert.Shared.S8192 32)
    (h : Cert.Pre_finite_inputs.fn (F := Ideal) x lab = (fun _ => 1#1)) :
    ∀ r : Fin 8192, 0 ≤ (Cert.Shared.famArr lab (ValueIdx.ix1 r)).toInt := by
  intro r
  obtain ⟨-, hlab, -⟩ := decode x lab h
  have hlt : IntOp.cmpi .slt (lab (ValueIdx.ix1 r)) 6#32 = 1#1 := by
    rw [IntOp.cmpi_slt]
    have h6 : (6#32 : BitVec 32).toInt = 6 := by decide
    rw [h6]
    exact hlab _
  unfold Cert.Shared.famArr
  dsimp only
  rw [ValueIdx.select_apply]
  have hbelow : cmpi .slt lab (broadcastInDim Cert.Shared.S8192 ![] Cert.Shared.bcast_S_S8192 (constantI Cert.Shared.S_ 32 6#32))
      (ValueIdx.ix1 r) = 1#1 := hlt
  rw [hbelow, ValueIdx.select_one, ← ofFin_eq_ix1,
    StableHlo.Predicate.gather_take Cert.Shared.lookup rfl rfl rfl rfl _ _ r (by decide)]
  exact table_nonneg _

end Cert.PreFacts

end
-- ==== Proof.lean ====
/-
  A triplet loss mined on cosine similarities, streamed tile by tile through two running columns, against the same loss
  computed on the whole distance matrix.

  Both programs normalize every embedding row to a unit vector e_r and look the labels' family codes up in a table. One
  side keeps, per row r, the least similarity e_r · e_c over the same-family rows c ≠ r and the greatest over the
  other-family rows, starting them at the sentinels 3 and -3 and sweeping the columns c in eight tiles; a row counts when
  the first ended below 2 and the second above -2, its term is max ((1 - least) - (1 - greatest) + margin) 0. The other
  side builds the distances 1 - e_r · e_c, masks them with fills -2 and 4, takes each row's greatest and least, counts a
  row when a same-family and an other-family row exist, and its term is max (greatest - least + margin) 0. Each divides
  the counting rows' summed terms by their number, or by 1.

  They agree because the inner product of two unit vectors lies in [-1, 1] (Cauchy–Schwarz): the sentinels never win
  against a real similarity, the thresholds tell exactly whether one was met, and max (1 - s) = 1 - min s. This uses the
  precondition three ways: the embeddings are finite and no row is zero, so every row does normalize to a real unit
  vector; and every label is below 6, so no family code is the fallback -1 that the one side masks out and the other
  does not look for.

  The pieces: the specification and the theorem joining its two sides (Spec); the two array-level computations both
  programs begin with (Shared) and what the precondition says of them (PreFacts); the reference's run and its result
  read index by index (RefRun, RefTerm, RefValue); the kernel's frame at either reading of floats — the body's obligation
  at each of its six control cases, the launch of a region two of whose windows read one array, the operations after it —
  (KB for the program as printed, KI for its idealization) and, at the ideal reading, its result (KI/Tile, Sweep, Entry,
  Result, Value).
-/
import proofs.«417721_j28690381537966_3_alg».proof.Defs
import proofs.«417721_j28690381537966_3_alg».proof.Proof.Gen.Kernel
import proofs.«417721_j28690381537966_3_alg».proof.Proof.Gen.KernelIdeal
import proofs.«417721_j28690381537966_3_alg».proof.Proof.Gen.ReferenceIdeal
import proofs.«417721_j28690381537966_3_alg».proof.Proof.Gen.Pre_finite_inputs
import proofs.«417721_j28690381537966_3_alg».proof.Proof.KB.Run
import proofs.«417721_j28690381537966_3_alg».proof.Proof.KI.Value
import proofs.«417721_j28690381537966_3_alg».proof.Proof.RefRun
import proofs.«417721_j28690381537966_3_alg».proof.Proof.RefValue
import proofs.«417721_j28690381537966_3_alg».proof.Proof.PreFacts
import proofs.«417721_j28690381537966_3_alg».proof.Proof.Spec

noncomputable section

namespace Cert.Proof

open Idealize.ShloMosaic Idealize.SL.Sem

/-- The program as printed runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run m ρ)

/-- From memories agreeing on the arguments both idealized programs end with the same result: the kernel's is the
    specification's mining on similarities, the reference's its mining on distances, of the same unit rows and family
    codes, and under the precondition those agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.kOut (Cert.KernelIdeal.Hand.unitRow m c) (Cert.KernelIdeal.Hand.famCode m c) (Ideal.ofBits .f32 0x3E99999A#32),
    Cert.KernelIdeal.Hand.run_value m ρ, ?_⟩
  refine (θ_run Cert.ReferenceIdeal.defs _ _).mono (fun _ h c => ⟨(h c).1.trans ?_, (h c).2⟩) (Cert.RefRun.run m' ρ')
  rw [(hagree c).1, (hagree c).2]
  unfold Cert.RefTerm.result
  rw [Cert.RefValue.tail_eq]
  funext _
  exact (Cert.Spec.kOut_eq_rOut _ _ _ (Cert.PreFacts.unit_rows _ _ (hpre c)) (Cert.PreFacts.fam_nonneg _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
